-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64x32 : Shape := ⟨3, ![16384, 64, 32]⟩
abbrev S2048x256 : Shape := ⟨2, ![2048, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2176x256 : Shape := ⟨2, ![2176, 256]⟩
abbrev S256x1 : Shape := ⟨2, ![256, 1]⟩
abbrev S1 : Shape := ⟨1, ![1]⟩
abbrev S_ : Shape := ⟨0, ![]⟩

class Facts : Prop where
  bcast_S_S16384x64x32 : S_.BroadcastsInDim S16384x64x32 (![] : Fin 0 → Fin S16384x64x32.rank)
  reducesTo_S16384x64x32_S_d0_1_2 : S16384x64x32.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2176x256 : S_.BroadcastsInDim S2176x256 (![] : Fin 0 → Fin S2176x256.rank)
  reducesTo_S2176x256_S_d0_1 : S2176x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S2176x256 .f32) (main_arg8 : FVec F S256 .f32) (main_arg9 : FVec F S256x1 .f32) (main_arg10 : FVec F S1 .f32) (main_v33 : IVec S_ 1) : IVec S_ 1 :=
  let main_v34 : FVec F S2176x256 .f32 := Host.absf main_arg7
  let main_cst_12 : FVec F S_ .f32 := constant S_ .f32 0x7F800000#32
  let main_v35 : FVec F S2176x256 .f32 := broadcastInDim S2176x256 ![] bcast_S_S2176x256 main_cst_12
  let main_v36 : IVec S2176x256 1 := cmpf .olt main_v34 main_v35
  let main_c_13 : IVec S_ 1 := constantI S_ 1 1#1
  let main_v37 : IVec S_ 1 := (fun x v => Host.reduce IntOp.andi x v reducesTo_S2176x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg9
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S256 .f32) (main_arg5 : FVec F S256x128 .f32) (main_arg6 : FVec F S128 .f32) (main_arg7 : FVec F S2176x256 .f32) (main_arg8 : FVec F S256 .f32) (main_arg9 : FVec F S256x1 .f32) (main_arg10 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x64x32 .f32) (main_arg1 : FVec F S2048x256 .f32) (main_arg2 : FVec F S256 .f32) (main_arg3 : FVec F S256x256 .f32) (main_arg4 : FVec F S256 .f32) (main_arg5 : FVec F S256x128 .f32) (main_arg6 : FVec F S128 .f32) (main_arg7 : FVec F S2176x256 .f32) (main_arg8 : FVec F S256 .f32) (main_arg9 : FVec F S256x1 .f32) (main_arg10 : FVec F S1 .f32) : IVec S_ 1 :=
  let main_v0 : FVec F S16384x64x32 .f32 := Host.absf main_arg0
  let main_cst : FVec F S_ .f32 := constant S_ .f32 0x7F800000#32
  let main_v1 : FVec F S16384x64x32 .f32 := broadcastInDim S16384x64x32 ![] bcast_S_S16384x64x32 main_cst
  let main_v2 : IVec S16384x64x32 1 := cmpf .olt main_v0 main_v1
  let main_c : IVec S_ 1 := constantI S_ 1 1#1
  let main_v3 : IVec S_ 1 := (fun x v => Host.reduce IntOp.andi x v reducesTo_S16384x64x32_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S16384x64x32 : Shape := ⟨3, ![16384, 64, 32]⟩
abbrev S2048x256 : Shape := ⟨2, ![2048, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2176x256 : Shape := ⟨2, ![2176, 256]⟩
abbrev S256x1 : Shape := ⟨2, ![256, 1]⟩
abbrev S1 : Shape := ⟨1, ![1]⟩
abbrev S2016 : Shape := ⟨1, ![2016]⟩
abbrev S128x256 : Shape := ⟨2, ![128, 256]⟩
abbrev S2016x256 : Shape := ⟨2, ![2016, 256]⟩
abbrev S32x256 : Shape := ⟨2, ![32, 256]⟩
abbrev S_ : Shape := ⟨0, ![]⟩
abbrev S4096x256 : Shape := ⟨2, ![4096, 256]⟩
abbrev S2016x1 : Shape := ⟨2, ![2016, 1]⟩
abbrev S16384x1 : Shape := ⟨2, ![16384, 1]⟩
abbrev S256x64x32 : Shape := ⟨3, ![256, 64, 32]⟩
abbrev S256x2048 : Shape := ⟨2, ![256, 2048]⟩
abbrev S1x256 : Shape := ⟨2, ![1, 256]⟩
abbrev S1x128 : Shape := ⟨2, ![1, 128]⟩
abbrev S256x32 : Shape := ⟨2, ![256, 32]⟩
abbrev S256x64x64 : Shape := ⟨3, ![256, 64, 64]⟩
abbrev S256x4096 : Shape := ⟨2, ![256, 4096]⟩
abbrev S1x1 : Shape := ⟨2, ![1, 1]⟩

abbrev nBuf : Space → Nat
  | .hbm => 25
  | .vmem => 16
  | .smem => 0
  | _ => 0

abbrev bufTy : (tb : Table) → Fin (tcTables nBuf tb) → BufTy
  | .hbm, ⟨0, _⟩ => ⟨S16384x64x32, .f32⟩
  | .hbm, ⟨1, _⟩ => ⟨S2048x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S2176x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S2016, .i32⟩
  | .hbm, ⟨12, _⟩ => ⟨S2016, .i1⟩
  | .hbm, ⟨13, _⟩ => ⟨S128x256, .f32⟩
  | .hbm, ⟨14, _⟩ => ⟨S2016x256, .f32⟩
  | .hbm, ⟨15, _⟩ => ⟨S32x256, .f32⟩
  | .hbm, ⟨16, _⟩ => ⟨S_, .f32⟩
  | .hbm, ⟨17, _⟩ => ⟨S4096x256, .f32⟩
  | .hbm, ⟨18, _⟩ => ⟨S_, .i32⟩
  | .hbm, ⟨19, _⟩ => ⟨S2016, .i32⟩
  | .hbm, ⟨20, _⟩ => ⟨S2016, .i32⟩
  | .hbm, ⟨21, _⟩ => ⟨S2016, .i32⟩
  | .hbm, ⟨22, _⟩ => ⟨S2016x1, .i32⟩
  | .hbm, ⟨23, _⟩ => ⟨S4096x256, .f32⟩
  | .hbm, ⟨24, _⟩ => ⟨S16384x1, .f32⟩
  | .local _ .vmem, ⟨0, _⟩ => ⟨S256x64x32, .f32⟩
  | .local _ .vmem, ⟨1, _⟩ => ⟨S256x64x32, .f32⟩
  | .local _ .vmem, ⟨2, _⟩ => ⟨S2048x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x128, .f32⟩
  | .local _ .vmem, ⟨7, _⟩ => ⟨S128, .f32⟩
  | .local _ .vmem, ⟨8, _⟩ => ⟨S128x256, .f32⟩
  | .local _ .vmem, ⟨9, _⟩ => ⟨S32x256, .f32⟩
  | .local _ .vmem, ⟨10, _⟩ => ⟨S4096x256, .f32⟩
  | .local _ .vmem, ⟨11, _⟩ => ⟨S256, .f32⟩
  | .local _ .vmem, ⟨12, _⟩ => ⟨S256x1, .f32⟩
  | .local _ .vmem, ⟨13, _⟩ => ⟨S1, .f32⟩
  | .local _ .vmem, ⟨14, _⟩ => ⟨S256x1, .f32⟩
  | .local _ .vmem, ⟨15, _⟩ => ⟨S256x1, .f32⟩
  | _, _ => ⟨S16384x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4096x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2176x256_S128x256_0_0 : S2176x256.Slices ![0, 0] S128x256
  slices_S2176x256_S2016x256_128_0 : S2176x256.Slices ![128, 0] S2016x256
  slices_S2176x256_S32x256_2144_0 : S2176x256.Slices ![2144, 0] S32x256
  bcast_S_S4096x256 : S_.BroadcastsInDim S4096x256 (![] : Fin 0 → Fin S4096x256.rank)
  bcast_S_S2016 : S_.BroadcastsInDim S2016 (![] : Fin 0 → Fin S2016.rank)
  bcast_S2016_S2016x1_0 : S2016.BroadcastsInDim S2016x1 (![0] : Fin 1 → Fin S2016x1.rank)
  inb_S256x64x32_S256x64x32_0_0_0 : ∀ a, (![0, 0, 0] : Fin 3 → Nat) a + S256x64x32.size a ≤ S256x64x32.size a
  h_S256x64x32 : 0 < S256x64x32.numel
  shapeCasts_S256x64x32_S256x2048 : S256x64x32.ShapeCasts S256x2048
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  reduces_S256x64x32_S256x32 : S256x64x32.Reduces [1] S256x32
  shapeCasts_S256x64x64_S256x4096 : S256x64x64.ShapeCasts S256x4096
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  scatter_S4096x256_S2016x1_S2016x256_1_0_0_1_wf : ScatterDims.WF S4096x256 S2016x1 S2016x256 [1] [0] [0] 1
  dot_S256x2048_S2048x256_S256x256_1_0_0_1_n_n_wf : DotDims.WF S256x2048 S2048x256 S256x256 [1] [0] [0] [1] [] []
  dot_S256x256_S256x256_S256x256_1_0_0_1_n_n_wf : DotDims.WF S256x256 S256x256 S256x256 [1] [0] [0] [1] [] []
  dot_S256x256_S256x128_S256x128_1_0_0_1_n_n_wf : DotDims.WF S256x256 S256x128 S256x128 [1] [0] [0] [1] [] []
  dot_S256x64x32_S256x64x32_S256x64x64_2_2_1_1_0_0_wf : DotDims.WF S256x64x32 S256x64x32 S256x64x64 [2] [2] [1] [1] [0] [0]
  dot_S256x128_S128x256_S256x256_1_0_0_1_n_n_wf : DotDims.WF S256x128 S128x256 S256x256 [1] [0] [0] [1] [] []
  dot_S256x32_S32x256_S256x256_1_0_0_1_n_n_wf : DotDims.WF S256x32 S32x256 S256x256 [1] [0] [0] [1] [] []
  dot_S256x4096_S4096x256_S256x256_1_0_0_1_n_n_wf : DotDims.WF S256x4096 S4096x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x32.size a ≤ S16384x64x32.size a
  hwx0_0 : ∀ i : grid0.Coords, EltTy.bits .f32 = 32 ∨ (Rect.block (s := S16384x64x32) S256x64x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x256.size a ≤ S32x256.size a
  hwx0_8 : ∀ i : grid0.Coords, EltTy.bits .f32 = 32 ∨ (Rect.block (s := S32x256) S32x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4096x256.size a ≤ S4096x256.size a
  hwx0_9 : ∀ i : grid0.Coords, EltTy.bits .f32 = 32 ∨ (Rect.block (s := S4096x256) S4096x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S256x1.size a
  hwx0_11 : ∀ i : grid0.Coords, EltTy.bits .f32 = 32 ∨ (Rect.block (s := S256x1) S256x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1.size a ≤ S16384x1.size a
  hwx0_13 : ∀ i : grid0.Coords, EltTy.bits .f32 = 32 ∨ (Rect.block (s := S16384x1) S256x1.size (cc0_transform_13 i) (hinb0_13 i)).WholeWords (EltTy.packing .f32)

variable [Facts₀]

def scatter_S4096x256_S2016x1_S2016x256_1_0_0_1 : ScatterDims S4096x256 S2016x1 S2016x256 where
  updateWindowDims := [1]
  insertedWindowDims := [0]
  scatterDimsToOperandDims := [0]
  indexVectorDim := 1
  wf := scatter_S4096x256_S2016x1_S2016x256_1_0_0_1_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x64x32_S256x64x32_S256x64x64_2_2_1_1_0_0 : DotDims S256x64x32 S256x64x32 S256x64x64 where
  lhsContracting := [2]
  rhsContracting := [2]
  lhsNonContracting := [1]
  rhsNonContracting := [1]
  lhsBatch := [0]
  rhsBatch := [0]
  wf := dot_S256x64x32_S256x64x32_S256x64x64_2_2_1_1_0_0_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x32_S32x256_S256x256_1_0_0_1_n_n : DotDims S256x32 S32x256 S256x256 where
  lhsContracting := [1]
  rhsContracting := [0]
  lhsNonContracting := [0]
  rhsNonContracting := [1]
  lhsBatch := []
  rhsBatch := []
  wf := dot_S256x32_S32x256_S256x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_arg0) S256x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S32x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S4096x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S256x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S256x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x64x32 : Shape := ⟨3, ![16384, 64, 32]⟩
abbrev S2048x256 : Shape := ⟨2, ![2048, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S2176x256 : Shape := ⟨2, ![2176, 256]⟩
abbrev S256x1 : Shape := ⟨2, ![256, 1]⟩
abbrev S1 : Shape := ⟨1, ![1]⟩
abbrev S16384x64x64 : Shape := ⟨3, ![16384, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S16384x2016 : Shape := ⟨2, ![16384, 2016]⟩
abbrev S16384x2048 : Shape := ⟨2, ![16384, 2048]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩
abbrev S16384x32 : Shape := ⟨2, ![16384, 32]⟩
abbrev S16384x2176 : Shape := ⟨2, ![16384, 2176]⟩
abbrev S16384x1 : Shape := ⟨2, ![16384, 1]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S16384x64x32, .f32⟩
  | 1 => ⟨S2048x256, .f32⟩
  | 2 => ⟨S256, .f32⟩
  | 3 => ⟨S256x256, .f32⟩
  | 4 => ⟨S256, .f32⟩
  | 5 => ⟨S256x128, .f32⟩
  | 6 => ⟨S128, .f32⟩
  | 7 => ⟨S2176x256, .f32⟩
  | 8 => ⟨S256, .f32⟩
  | 9 => ⟨S256x1, .f32⟩
  | 10 => ⟨S1, .f32⟩
  | 11 => ⟨S16384x64x64, .f32⟩
  | 12 => ⟨S_, .f32⟩
  | 13 => ⟨S64x64, .f32⟩
  | 14 => ⟨S64x64, .i32⟩
  | 15 => ⟨S_, .i32⟩
  | 16 => ⟨S64x64, .i32⟩
  | 17 => ⟨S64x64, .i32⟩
  | 18 => ⟨S64x64, .i32⟩
  | 19 => ⟨S64x64, .i1⟩
  | 20 => ⟨S_, .f32⟩
  | 21 => ⟨S64x64, .f32⟩
  | 22 => ⟨S64x64, .f32⟩
  | 23 => ⟨S_, .f32⟩
  | 24 => ⟨S64x64, .f32⟩
  | 25 => ⟨S64x64, .i1⟩
  | 26 => ⟨S4096, .i1⟩
  | 27 => ⟨S4096, .i32⟩
  | 28 => ⟨S_, .i32⟩
  | 29 => ⟨S_, .i32⟩
  | 30 => ⟨S4096, .i32⟩
  | 31 => ⟨S_, .i32⟩
  | 32 => ⟨S2016, .i32⟩
  | 33 => ⟨S_, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S_, .i32⟩
  | 46 => ⟨S4096, .i32⟩
  | 47 => ⟨S2016, .i32⟩
  | 48 => ⟨S_, .i32⟩
  | 49 => ⟨S_, .i32⟩
  | 50 => ⟨S2016, .i32⟩
  | 51 => ⟨S_, .i32⟩
  | 52 => ⟨S2016, .i32⟩
  | 53 => ⟨S2016, .i32⟩
  | 54 => ⟨S2016, .i32⟩
  | 55 => ⟨S_, .i32⟩
  | 56 => ⟨S2016, .i32⟩
  | 57 => ⟨S2016, .i1⟩
  | 58 => ⟨S2016, .i32⟩
  | 59 => ⟨S2016, .i32⟩
  | 60 => ⟨S_, .i32⟩
  | 61 => ⟨S2016, .i32⟩
  | 62 => ⟨S2016, .i1⟩
  | 63 => ⟨S2016, .i1⟩
  | 64 => ⟨S_, .i32⟩
  | 65 => ⟨S2016, .i32⟩
  | 66 => ⟨S2016, .i32⟩
  | 67 => ⟨S2016, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S2016, .i32⟩
  | 75 => ⟨S2016, .i32⟩
  | 76 => ⟨S_, .i32⟩
  | 77 => ⟨S2016, .i32⟩
  | 78 => ⟨S2016, .i1⟩
  | 79 => ⟨S_, .i32⟩
  | 80 => ⟨S2016, .i32⟩
  | 81 => ⟨S2016, .i1⟩
  | 82 => ⟨S_, .i32⟩
  | 83 => ⟨S_, .i1⟩
  | 84 => ⟨S2016, .i1⟩
  | 85 => ⟨S2016, .i1⟩
  | 86 => ⟨S2016, .i1⟩
  | 87 => ⟨S2016, .i32⟩
  | 88 => ⟨S2016, .i32⟩
  | 89 => ⟨S2016, .i32⟩
  | 90 => ⟨S_, .i32⟩
  | 91 => ⟨S2016, .i32⟩
  | 92 => ⟨S2016, .i32⟩
  | 93 => ⟨S2016, .i32⟩
  | 94 => ⟨S_, .i32⟩
  | 95 => ⟨S2016, .i32⟩
  | 96 => ⟨S2016, .i1⟩
  | 97 => ⟨S2016, .i32⟩
  | 98 => ⟨S2016, .i32⟩
  | 99 => ⟨S_, .i32⟩
  | 100 => ⟨S2016, .i32⟩
  | 101 => ⟨S2016, .i1⟩
  | 102 => ⟨S2016, .i1⟩
  | 103 => ⟨S_, .i32⟩
  | 104 => ⟨S2016, .i32⟩
  | 105 => ⟨S2016, .i32⟩
  | 106 => ⟨S2016, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S2016, .i32⟩
  | 114 => ⟨S2016, .i32⟩
  | 115 => ⟨S_, .i32⟩
  | 116 => ⟨S2016, .i32⟩
  | 117 => ⟨S2016, .i1⟩
  | 118 => ⟨S_, .i32⟩
  | 119 => ⟨S2016, .i32⟩
  | 120 => ⟨S2016, .i1⟩
  | 121 => ⟨S_, .i32⟩
  | 122 => ⟨S_, .i1⟩
  | 123 => ⟨S2016, .i1⟩
  | 124 => ⟨S2016, .i1⟩
  | 125 => ⟨S2016, .i1⟩
  | 126 => ⟨S2016, .i32⟩
  | 127 => ⟨S2016, .i32⟩
  | _ => ⟨S16384x64x32, .f32⟩

abbrev hbmTy0_1 (i : Nat) : BufTy := match i % 128 with
  | 0 => ⟨S2016, .i32⟩
  | 1 => ⟨S_, .i32⟩
  | 2 => ⟨S2016, .i32⟩
  | 3 => ⟨S2016, .i1⟩
  | 4 => ⟨S_, .i32⟩
  | 5 => ⟨S2016, .i32⟩
  | 6 => ⟨S2016, .i32⟩
  | 7 => ⟨S2016, .i32⟩
  | 8 => ⟨S_, .i32⟩
  | 9 => ⟨S2016, .i32⟩
  | 10 => ⟨S2016, .i1⟩
  | 11 => ⟨S_, .i32⟩
  | 12 => ⟨S2016, .i32⟩
  | 13 => ⟨S2016, .i32⟩
  | 14 => ⟨S2016, .i32⟩
  | 15 => ⟨S2016x1, .i32⟩
  | 16 => ⟨S2016x1, .i32⟩
  | 17 => ⟨S2016x2, .i32⟩
  | 18 => ⟨S16384x2016, .f32⟩
  | 19 => ⟨S16384x2048, .f32⟩
  | 20 => ⟨S16384x256, .f32⟩
  | 21 => ⟨S1x256, .f32⟩
  | 22 => ⟨S16384x256, .f32⟩
  | 23 => ⟨S16384x256, .f32⟩
  | 24 => ⟨S_, .f32⟩
  | 25 => ⟨S_, .f32⟩
  | 26 => ⟨S16384x256, .f32⟩
  | 27 => ⟨S16384x256, .i1⟩
  | 28 => ⟨S_, .f32⟩
  | 29 => ⟨S16384x256, .f32⟩
  | 30 => ⟨S16384x256, .i1⟩
  | 31 => ⟨S_, .f32⟩
  | 32 => ⟨S_, .f32⟩
  | 33 => ⟨S16384x256, .f32⟩
  | 34 => ⟨S16384x256, .f32⟩
  | 35 => ⟨S16384x256, .f32⟩
  | 36 => ⟨S_, .f32⟩
  | 37 => ⟨S16384x256, .f32⟩
  | 38 => ⟨S16384x256, .f32⟩
  | 39 => ⟨S16384x256, .f32⟩
  | 40 => ⟨S_, .f32⟩
  | 41 => ⟨S16384x256, .f32⟩
  | 42 => ⟨S16384x256, .f32⟩
  | 43 => ⟨S16384x256, .f32⟩
  | 44 => ⟨S1x256, .f32⟩
  | 45 => ⟨S16384x256, .f32⟩
  | 46 => ⟨S16384x256, .f32⟩
  | 47 => ⟨S_, .f32⟩
  | 48 => ⟨S_, .f32⟩
  | 49 => ⟨S16384x256, .f32⟩
  | 50 => ⟨S16384x256, .i1⟩
  | 51 => ⟨S_, .f32⟩
  | 52 => ⟨S16384x256, .f32⟩
  | 53 => ⟨S16384x256, .i1⟩
  | 54 => ⟨S_, .f32⟩
  | 55 => ⟨S_, .f32⟩
  | 56 => ⟨S16384x256, .f32⟩
  | 57 => ⟨S16384x256, .f32⟩
  | 58 => ⟨S16384x256, .f32⟩
  | 59 => ⟨S_, .f32⟩
  | 60 => ⟨S16384x256, .f32⟩
  | 61 => ⟨S16384x256, .f32⟩
  | 62 => ⟨S16384x256, .f32⟩
  | 63 => ⟨S_, .f32⟩
  | 64 => ⟨S16384x256, .f32⟩
  | 65 => ⟨S16384x256, .f32⟩
  | 66 => ⟨S16384x128, .f32⟩
  | 67 => ⟨S1x128, .f32⟩
  | 68 => ⟨S16384x128, .f32⟩
  | 69 => ⟨S16384x128, .f32⟩
  | 70 => ⟨S_, .f32⟩
  | 71 => ⟨S16384x32, .f32⟩
  | 72 => ⟨S16384x2176, .f32⟩
  | 73 => ⟨S16384x256, .f32⟩
  | 74 => ⟨S1x256, .f32⟩
  | 75 => ⟨S16384x256, .f32⟩
  | 76 => ⟨S16384x256, .f32⟩
  | 77 => ⟨S_, .f32⟩
  | 78 => ⟨S16384x256, .f32⟩
  | 79 => ⟨S16384x256, .f32⟩
  | 80 => ⟨S16384x1, .f32⟩
  | 81 => ⟨S1x1, .f32⟩
  | 82 => ⟨S16384x1, .f32⟩
  | 83 => ⟨S16384x1, .f32⟩
  | _ => ⟨S16384x64x32, .f32⟩

abbrev hbmTy (i : Nat) : BufTy := match i / 128 with
  | 0 => hbmTy0_0 i
  | 1 => hbmTy0_1 i
  | _ => ⟨S16384x64x32, .f32⟩

abbrev bufTy : (tb : Table) → Fin (tcTables nBuf tb) → BufTy
  | .hbm, ⟨i, _⟩ => hbmTy i
  | _, _ => ⟨S16384x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_cst : Ref sig .tc := ⟨.hbm, 20, rfl⟩
abbrev main_call0_v5 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_call1_v0 : Ref sig .tc := ⟨.hbm, 26, rfl⟩
abbrev main_call1_v1 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_c : Ref sig .tc := ⟨.hbm, 31, rfl⟩
abbrev main_v6 : Ref sig .tc := ⟨.hbm, 32, rfl⟩
abbrev main_c_1 : Ref sig .tc := ⟨.hbm, 33, rfl⟩
abbrev main_call2_v0 : Ref sig .tc := ⟨.hbm, 34, rfl⟩
abbrev main_call2_v1 : Ref sig .tc := ⟨.hbm, 35, rfl⟩
abbrev main_v7 : Ref sig .tc := ⟨.hbm, 36, rfl⟩
abbrev main_c_2 : Ref sig .tc := ⟨.hbm, 37, rfl⟩
abbrev main_v8 : Ref sig .tc := ⟨.hbm, 38, rfl⟩
abbrev main_v9 : Ref sig .tc := ⟨.hbm, 39, rfl⟩
abbrev main_c_3 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_c_4 : Ref sig .tc := ⟨.hbm, 45, rfl⟩
abbrev main_v14 : Ref sig .tc := ⟨.hbm, 46, rfl⟩
abbrev main_v15 : Ref sig .tc := ⟨.hbm, 47, rfl⟩
abbrev main_call3_call0_c : Ref sig .tc := ⟨.hbm, 48, rfl⟩
abbrev main_call3_call0_v0 : Ref sig .tc := ⟨.hbm, 49, rfl⟩
abbrev main_v16 : Ref sig .tc := ⟨.hbm, 50, rfl⟩
abbrev main_c_5 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_call4_v3 : Ref sig .tc := ⟨.hbm, 55, rfl⟩
abbrev main_call4_v4 : Ref sig .tc := ⟨.hbm, 56, rfl⟩
abbrev main_call4_v5 : Ref sig .tc := ⟨.hbm, 57, rfl⟩
abbrev main_call4_v6 : Ref sig .tc := ⟨.hbm, 58, rfl⟩
abbrev main_call4_v7 : Ref sig .tc := ⟨.hbm, 59, rfl⟩
abbrev main_call4_c : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_c_0 : Ref sig .tc := ⟨.hbm, 64, rfl⟩
abbrev main_call4_v11 : Ref sig .tc := ⟨.hbm, 65, rfl⟩
abbrev main_call4_v12 : Ref sig .tc := ⟨.hbm, 66, rfl⟩
abbrev main_v17 : Ref sig .tc := ⟨.hbm, 67, rfl⟩
abbrev main_c_6 : Ref sig .tc := ⟨.hbm, 68, rfl⟩
abbrev main_call5_v0 : Ref sig .tc := ⟨.hbm, 69, rfl⟩
abbrev main_call5_c : Ref sig .tc := ⟨.hbm, 70, rfl⟩
abbrev main_call5_v1 : Ref sig .tc := ⟨.hbm, 71, rfl⟩
abbrev main_call5_c_0 : Ref sig .tc := ⟨.hbm, 72, rfl⟩
abbrev main_call5_v2 : Ref sig .tc := ⟨.hbm, 73, rfl⟩
abbrev main_call5_v3 : Ref sig .tc := ⟨.hbm, 74, rfl⟩
abbrev main_call5_v4 : Ref sig .tc := ⟨.hbm, 75, rfl⟩
abbrev main_call5_c_1 : Ref sig .tc := ⟨.hbm, 76, rfl⟩
abbrev main_call5_v5 : Ref sig .tc := ⟨.hbm, 77, rfl⟩
abbrev main_call5_v6 : Ref sig .tc := ⟨.hbm, 78, rfl⟩
abbrev main_call5_c_2 : Ref sig .tc := ⟨.hbm, 79, rfl⟩
abbrev main_call5_v7 : Ref sig .tc := ⟨.hbm, 80, rfl⟩
abbrev main_call5_v8 : Ref sig .tc := ⟨.hbm, 81, rfl⟩
abbrev main_call5_c_3 : Ref sig .tc := ⟨.hbm, 82, rfl⟩
abbrev main_call5_v9 : Ref sig .tc := ⟨.hbm, 83, rfl⟩
abbrev main_call5_v10 : Ref sig .tc := ⟨.hbm, 84, rfl⟩
abbrev main_call5_v11 : Ref sig .tc := ⟨.hbm, 85, rfl⟩
abbrev main_call5_v12 : Ref sig .tc := ⟨.hbm, 86, rfl⟩
abbrev main_call5_v13 : Ref sig .tc := ⟨.hbm, 87, rfl⟩
abbrev main_call5_v14 : Ref sig .tc := ⟨.hbm, 88, rfl⟩
abbrev main_v18 : Ref sig .tc := ⟨.hbm, 89, rfl⟩
abbrev main_c_7 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_v6 : Ref sig .tc := ⟨.hbm, 97, rfl⟩
abbrev main_call6_v7 : Ref sig .tc := ⟨.hbm, 98, rfl⟩
abbrev main_call6_c : Ref sig .tc := ⟨.hbm, 99, rfl⟩
abbrev main_call6_v8 : Ref sig .tc := ⟨.hbm, 100, rfl⟩
abbrev main_call6_v9 : Ref sig .tc := ⟨.hbm, 101, rfl⟩
abbrev main_call6_v10 : Ref sig .tc := ⟨.hbm, 102, rfl⟩
abbrev main_call6_c_0 : Ref sig .tc := ⟨.hbm, 103, rfl⟩
abbrev main_call6_v11 : Ref sig .tc := ⟨.hbm, 104, rfl⟩
abbrev main_call6_v12 : Ref sig .tc := ⟨.hbm, 105, rfl⟩
abbrev main_v19 : Ref sig .tc := ⟨.hbm, 106, rfl⟩
abbrev main_c_8 : Ref sig .tc := ⟨.hbm, 107, rfl⟩
abbrev main_call7_v0 : Ref sig .tc := ⟨.hbm, 108, rfl⟩
abbrev main_call7_c : Ref sig .tc := ⟨.hbm, 109, rfl⟩
abbrev main_call7_v1 : Ref sig .tc := ⟨.hbm, 110, rfl⟩
abbrev main_call7_c_0 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_call7_c_1 : Ref sig .tc := ⟨.hbm, 115, rfl⟩
abbrev main_call7_v5 : Ref sig .tc := ⟨.hbm, 116, rfl⟩
abbrev main_call7_v6 : Ref sig .tc := ⟨.hbm, 117, rfl⟩
abbrev main_call7_c_2 : Ref sig .tc := ⟨.hbm, 118, rfl⟩
abbrev main_call7_v7 : Ref sig .tc := ⟨.hbm, 119, rfl⟩
abbrev main_call7_v8 : Ref sig .tc := ⟨.hbm, 120, rfl⟩
abbrev main_call7_c_3 : Ref sig .tc := ⟨.hbm, 121, rfl⟩
abbrev main_call7_v9 : Ref sig .tc := ⟨.hbm, 122, rfl⟩
abbrev main_call7_v10 : Ref sig .tc := ⟨.hbm, 123, rfl⟩
abbrev main_call7_v11 : Ref sig .tc := ⟨.hbm, 124, rfl⟩
abbrev main_call7_v12 : Ref sig .tc := ⟨.hbm, 125, rfl⟩
abbrev main_call7_v13 : Ref sig .tc := ⟨.hbm, 126, rfl⟩
abbrev main_call7_v14 : Ref sig .tc := ⟨.hbm, 127, rfl⟩
abbrev main_v20 : Ref sig .tc := ⟨.hbm, 128, rfl⟩
abbrev main_c_9 : Ref sig .tc := ⟨.hbm, 129, rfl⟩
abbrev main_v21 : Ref sig .tc := ⟨.hbm, 130, rfl⟩
abbrev main_v22 : Ref sig .tc := ⟨.hbm, 131, rfl⟩
abbrev main_c_10 : Ref sig .tc := ⟨.hbm, 132, rfl⟩
abbrev main_v23 : Ref sig .tc := ⟨.hbm, 133, rfl⟩
abbrev main_v24 : Ref sig .tc := ⟨.hbm, 134, rfl⟩
abbrev main_v25 : Ref sig .tc := ⟨.hbm, 135, rfl⟩
abbrev main_c_11 : Ref sig .tc := ⟨.hbm, 136, rfl⟩
abbrev main_v26 : Ref sig .tc := ⟨.hbm, 137, rfl⟩
abbrev main_v27 : Ref sig .tc := ⟨.hbm, 138, rfl⟩
abbrev main_c_12 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev main_v33 : Ref sig .tc := ⟨.hbm, 145, rfl⟩
abbrev main_v34 : Ref sig .tc := ⟨.hbm, 146, rfl⟩
abbrev main_v35 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_call8_cst : Ref sig .tc := ⟨.hbm, 152, rfl⟩
abbrev main_call8_call0_cst : Ref sig .tc := ⟨.hbm, 153, rfl⟩
abbrev main_call8_call0_v0 : Ref sig .tc := ⟨.hbm, 154, rfl⟩
abbrev main_call8_call0_v1 : Ref sig .tc := ⟨.hbm, 155, rfl⟩
abbrev main_call8_call0_cst_0 : Ref sig .tc := ⟨.hbm, 156, rfl⟩
abbrev main_call8_call0_v2 : Ref sig .tc := ⟨.hbm, 157, rfl⟩
abbrev main_call8_call0_v3 : Ref sig .tc := ⟨.hbm, 158, rfl⟩
abbrev main_call8_call0_cst_1 : Ref sig .tc := ⟨.hbm, 159, rfl⟩
abbrev main_call8_call0_call0_v0 : Ref sig .tc := ⟨.hbm, 160, rfl⟩
abbrev main_call8_call0_call0_v1 : Ref sig .tc := ⟨.hbm, 161, rfl⟩
abbrev main_call8_call0_v4 : Ref sig .tc := ⟨.hbm, 162, rfl⟩
abbrev main_call8_call0_v5 : Ref sig .tc := ⟨.hbm, 163, rfl⟩
abbrev main_call8_call0_v6 : Ref sig .tc := ⟨.hbm, 164, rfl⟩
abbrev main_call8_call0_v7 : Ref sig .tc := ⟨.hbm, 165, rfl⟩
abbrev main_call8_call0_v8 : Ref sig .tc := ⟨.hbm, 166, rfl⟩
abbrev main_call8_v0 : Ref sig .tc := ⟨.hbm, 167, rfl⟩
abbrev main_call8_cst_0 : Ref sig .tc := ⟨.hbm, 168, rfl⟩
abbrev main_call8_v1 : Ref sig .tc := ⟨.hbm, 169, rfl⟩
abbrev main_v40 : Ref sig .tc := ⟨.hbm, 170, rfl⟩
abbrev main_v41 : Ref sig .tc := ⟨.hbm, 171, rfl⟩
abbrev main_v42 : Ref sig .tc := ⟨.hbm, 172, rfl⟩
abbrev main_v43 : Ref sig .tc := ⟨.hbm, 173, rfl⟩
abbrev main_v44 : Ref sig .tc := ⟨.hbm, 174, rfl⟩
abbrev main_call9_cst : Ref sig .tc := ⟨.hbm, 175, rfl⟩
abbrev main_call9_call0_cst : Ref sig .tc := ⟨.hbm, 176, rfl⟩
abbrev main_call9_call0_v0 : Ref sig .tc := ⟨.hbm, 177, rfl⟩
abbrev main_call9_call0_v1 : Ref sig .tc := ⟨.hbm, 178, rfl⟩
abbrev main_call9_call0_cst_0 : Ref sig .tc := ⟨.hbm, 179, rfl⟩
abbrev main_call9_call0_v2 : Ref sig .tc := ⟨.hbm, 180, rfl⟩
abbrev main_call9_call0_v3 : Ref sig .tc := ⟨.hbm, 181, rfl⟩
abbrev main_call9_call0_cst_1 : Ref sig .tc := ⟨.hbm, 182, rfl⟩
abbrev main_call9_call0_call0_v0 : Ref sig .tc := ⟨.hbm, 183, rfl⟩
abbrev main_call9_call0_call0_v1 : Ref sig .tc := ⟨.hbm, 184, rfl⟩
abbrev main_call9_call0_v4 : Ref sig .tc := ⟨.hbm, 185, rfl⟩
abbrev main_call9_call0_v5 : Ref sig .tc := ⟨.hbm, 186, rfl⟩
abbrev main_call9_call0_v6 : Ref sig .tc := ⟨.hbm, 187, rfl⟩
abbrev main_call9_call0_v7 : Ref sig .tc := ⟨.hbm, 188, rfl⟩
abbrev main_call9_call0_v8 : Ref sig .tc := ⟨.hbm, 189, rfl⟩
abbrev main_call9_v0 : Ref sig .tc := ⟨.hbm, 190, rfl⟩
abbrev main_call9_cst_0 : Ref sig .tc := ⟨.hbm, 191, rfl⟩
abbrev main_call9_v1 : Ref sig .tc := ⟨.hbm, 192, rfl⟩
abbrev main_v45 : Ref sig .tc := ⟨.hbm, 193, rfl⟩
abbrev main_v46 : Ref sig .tc := ⟨.hbm, 194, rfl⟩
abbrev main_v47 : Ref sig .tc := ⟨.hbm, 195, rfl⟩
abbrev main_v48 : Ref sig .tc := ⟨.hbm, 196, rfl⟩
abbrev main_v49 : Ref sig .tc := ⟨.hbm, 197, rfl⟩
abbrev main_cst_13 : Ref sig .tc := ⟨.hbm, 198, rfl⟩
abbrev main_v50 : Ref sig .tc := ⟨.hbm, 199, rfl⟩
abbrev main_v51 : Ref sig .tc := ⟨.hbm, 200, rfl⟩
abbrev main_v52 : Ref sig .tc := ⟨.hbm, 201, rfl⟩
abbrev main_v53 : Ref sig .tc := ⟨.hbm, 202, rfl⟩
abbrev main_v54 : Ref sig .tc := ⟨.hbm, 203, rfl⟩
abbrev main_v55 : Ref sig .tc := ⟨.hbm, 204, rfl⟩
abbrev main_call10_cst : Ref sig .tc := ⟨.hbm, 205, rfl⟩
abbrev main_call10_v0 : Ref sig .tc := ⟨.hbm, 206, rfl⟩
abbrev main_v56 : Ref sig .tc := ⟨.hbm, 207, rfl⟩
abbrev main_v57 : Ref sig .tc := ⟨.hbm, 208, rfl⟩
abbrev main_v58 : Ref sig .tc := ⟨.hbm, 209, rfl⟩
abbrev main_v59 : Ref sig .tc := ⟨.hbm, 210, rfl⟩
abbrev main_v60 : Ref sig .tc := ⟨.hbm, 211, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  shapeCasts_S16384x64x32_S16384x2048 : S16384x64x32.ShapeCasts S16384x2048
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x64x32_S16384x32_d1 : S16384x64x32.ReducesTo [1] S16384x32
  concatenates_S16384x128_S16384x2016_S16384x32_S16384x2176_d1 : Shape.Concatenates [S16384x128, S16384x2016, S16384x32] S16384x2176 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x64x32_S16384x64x32_S16384x64x64_2_2_1_1_0_0_wf : DotDims.WF S16384x64x32 S16384x64x32 S16384x64x64 [2] [2] [1] [1] [0] [0]
  scatter_S2016_S4096x1_S4096_n_0_0_1_wf : ScatterDims.WF S2016 S4096x1 S4096 [] [0] [0] 1
  gather_S16384x64x64_S2016x2_S16384x2016_0_12_n_n_12_1_1638411_wf : GatherDims.WF S16384x64x64 S2016x2 S16384x2016 [0] [1, 2] [] [1, 2] [] 1 ![16384, 1, 1]
  dot_S16384x2048_S2048x256_S16384x256_1_0_0_1_n_n_wf : DotDims.WF S16384x2048 S2048x256 S16384x256 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []
  dot_S16384x2176_S2176x256_S16384x256_1_0_0_1_n_n_wf : DotDims.WF S16384x2176 S2176x256 S16384x256 [1] [0] [0] [1] [] []
  dot_S16384x256_S256x1_S16384x1_1_0_0_1_n_n_wf : DotDims.WF S16384x256 S256x1 S16384x1 [1] [0] [0] [1] [] []

variable [Facts₀]

def dot_S16384x64x32_S16384x64x32_S16384x64x64_2_2_1_1_0_0 : DotDims S16384x64x32 S16384x64x32 S16384x64x64 where
  lhsContracting := [2]
  rhsContracting := [2]
  lhsNonContracting := [1]
  rhsNonContracting := [1]
  lhsBatch := [0]
  rhsBatch := [0]
  wf := dot_S16384x64x32_S16384x64x32_S16384x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S16384x64x64_S2016x2_S16384x2016_0_12_n_n_12_1_1638411 : GatherDims S16384x64x64 S2016x2 S16384x2016 where
  offsetDims := [0]
  collapsedSliceDims := [1, 2]
  operandBatchingDims := []
  startIndicesBatchingDims := []
  startIndexMap := [1, 2]
  indexVectorDim := 1
  sliceSizes := ![16384, 1, 1]
  wf := gather_S16384x64x64_S2016x2_S16384x2016_0_12_n_n_12_1_1638411_wf
def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x2176_S2176x256_S16384x256_1_0_0_1_n_n : DotDims S16384x2176 S2176x256 S16384x256 where
  lhsContracting := [1]
  rhsContracting := [0]
  lhsNonContracting := [0]
  rhsNonContracting := [1]
  lhsBatch := []
  rhsBatch := []
  wf := dot_S16384x2176_S2176x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Spec.lean ====
/-
  The mathematics of the two programs, one batch row at a time, over the extended reals.

  One row  x : 64 fields × 32 coordinates  goes through
   · a three-layer perceptron on the 2048 flattened coordinates (two hidden layers of 256 with the scaled exponential
     linear unit, an output layer of 128): the higher-order features  hoi ;
   · the field sum  fo_d = Σ_f x_{f,d}  (32 numbers);
   · the Gram matrix  gram_{i,j} = Σ_d x_{i,d} · x_{j,d}  (64 × 64);
  and a final two-layer head. The reference feeds the head's first layer the row  cin = (hoi, soi, fo)  of 2176
  numbers, where  soi_p = gram_{iu p, ju p}  runs over the 2016 pairs  iu p < ju p  in row-major order. The kernel
  never forms  soi : it multiplies the whole flattened Gram matrix (4096 numbers) by a 4096 × 256 matrix that holds row
  128 + p  of the first-layer weights at position  64 · iu p + ju p  and zero elsewhere, and adds the three partial
  products. The two agree because a product with a zero weight contributes nothing and the positions are distinct.
-/
import proofs.«121141_j14594298872614_1_alg».proof.Proof.LibDense
import Idealize.ShloMosaic.Lib.IdealHost

noncomputable section

open scoped BigOperators

namespace Cert.DeepFM

open Idealize.ShloMosaic Idealize.ShloMosaic.ValueIdx Cert.Dense

/-- The scale of the scaled exponential linear unit, as the f32 word both programs carry. -/
abbrev SC : EReal := Ideal.ofBits .f32 0x3F867D5F#32
/-- Its negative-side factor, as the f32 word both programs carry. -/
abbrev AL : EReal := Ideal.ofBits .f32 0x3FD62D7D#32

/-- The scaled exponential linear unit:  SC · v  for  v > 0 ,  SC · AL · (eᵛ − 1)  otherwise. -/
def selu (v : EReal) : EReal := SC * Scalar.select (Ideal.cmp .ogt v 0) v (AL * (Ideal.exp v - 1))

/-- A row of 64 × 32 numbers flattened row-major to 2048. -/
def flat (x : Fin 64 → Fin 32 → EReal) : Fin 2048 → EReal :=
  fun k => x ⟨k.val / 32, by have := k.isLt; omega⟩ ⟨k.val % 32, Nat.mod_lt _ (by norm_num)⟩

/-- The field sum. -/
def fo (x : Fin 64 → Fin 32 → EReal) : Fin 32 → EReal := fun d => ∑ f : Fin 64, x f d

/-- The Gram matrix of the 64 fields. -/
def gram (x : Fin 64 → Fin 32 → EReal) : Fin 64 → Fin 64 → EReal := fun i j => ∑ d : Fin 32, x i d * x j d

section
variable (W1 : FVec Ideal ⟨2, ![2048, 256]⟩ .f32) (b1 : FVec Ideal ⟨1, ![256]⟩ .f32)
  (W2 : FVec Ideal ⟨2, ![256, 256]⟩ .f32) (b2 : FVec Ideal ⟨1, ![256]⟩ .f32)
  (W3 : FVec Ideal ⟨2, ![256, 128]⟩ .f32) (b3 : FVec Ideal ⟨1, ![128]⟩ .f32)

/-- The perceptron's first hidden layer. -/
def h1 (x : Fin 64 → Fin 32 → EReal) : Fin 256 → EReal := fun c => selu (affine W1 b1 (flat x) c)
/-- Its second hidden layer. -/
def h2 (x : Fin 64 → Fin 32 → EReal) : Fin 256 → EReal := fun c => selu (affine W2 b2 (h1 W1 b1 x) c)
/-- Its output: the higher-order features. -/
def hoi (x : Fin 64 → Fin 32 → EReal) : Fin 128 → EReal := affine W3 b3 (h2 W1 b1 W2 b2 x)
end

/-- The reference's 2176-entry row: the higher-order features, the Gram entries at the listed pairs, the field sum. -/
def cin (iu ju : Fin 2016 → Fin 64) (ho : Fin 128 → EReal) (g : Fin 64 → Fin 64 → EReal) (f : Fin 32 → EReal) :
    Fin 2176 → EReal := fun k =>
  if h : k.val < 128 then ho ⟨k.val, h⟩
  else if h' : k.val < 2144 then g (iu ⟨k.val - 128, by omega⟩) (ju ⟨k.val - 128, by omega⟩)
  else f ⟨k.val - 2144, by have := k.isLt; omega⟩

/-- The head's first layer before its rectifier, as the kernel forms it: three partial products and the bias. -/
def preK (Wh : FVec Ideal ⟨2, ![128, 256]⟩ .f32) (Wg : FVec Ideal ⟨2, ![4096, 256]⟩ .f32)
    (Wf : FVec Ideal ⟨2, ![32, 256]⟩ .f32) (bc1 : FVec Ideal ⟨1, ![256]⟩ .f32)
    (ho : Fin 128 → EReal) (g : Fin 64 → Fin 64 → EReal) (f : Fin 32 → EReal) : Fin 256 → EReal := fun c =>
  (((∑ k : Fin 128, ho k * Wh (ix2 k c))
      + (∑ q : Fin 4096, g ⟨q.val / 64, by have := q.isLt; omega⟩ ⟨q.val % 64, Nat.mod_lt _ (by norm_num)⟩ * Wg (ix2 q c)))
    + (∑ d : Fin 32, f d * Wf (ix2 d c))) + bc1 (ix1 c)

/-- The head's second layer on a rectified row: one number. -/
def head2 (Wc2 : FVec Ideal ⟨2, ![256, 1]⟩ .f32) (bc2 : FVec Ideal ⟨1, ![1]⟩ .f32) (pre : Fin 256 → EReal) : EReal :=
  affine Wc2 bc2 (relu pre) 0

/-- A sum over  a + b + c  indices is the sum of its first  a , its next  b  and its last  c  terms. -/
theorem sum_three {M : Type} [AddCommMonoid M] (a b c : ℕ) (F : Fin (a + b + c) → M) :
    ∑ k, F k = ((∑ i : Fin a, F ⟨i.val, by have := i.isLt; omega⟩)
        + (∑ j : Fin b, F ⟨a + j.val, by have := j.isLt; omega⟩))
      + ∑ l : Fin c, F ⟨a + b + l.val, by have := l.isLt; omega⟩ := by
  rw [Fin.sum_univ_add, Fin.sum_univ_add]
  rfl

/-- The 2176 terms split into the first 128, the next 2016 and the last 32. -/
theorem split_sum (F : Fin 2176 → EReal) :
    ∑ k, F k = ((∑ i : Fin 128, F ⟨i.val, by have := i.isLt; omega⟩)
        + (∑ p : Fin 2016, F ⟨128 + p.val, by have := p.isLt; omega⟩))
      + ∑ d : Fin 32, F ⟨2144 + d.val, by have := d.isLt; omega⟩ :=
  sum_three 128 2016 32 F

/-- A weighted sum whose weights vanish off the range of an injective list is the sum along the list: the terms off
    the range are products with zero, and the listed positions are distinct. -/
theorem scatter_sum {n m : ℕ} (K : Fin n → Fin m) (hK : Function.Injective K) (a w : Fin m → EReal)
    (hw : ∀ q, (∀ p, K p ≠ q) → w q = 0) :
    ∑ q, a q * w q = ∑ p, a (K p) * w (K p) := by
  have hsub : ∑ q ∈ Finset.univ.image K, a q * w q = ∑ q, a q * w q :=
    Finset.sum_subset (Finset.subset_univ _) fun q _ hq => by
      rw [hw q fun p h => hq (Finset.mem_image.mpr ⟨p, Finset.mem_univ _, h⟩), mul_zero]
  rw [← hsub, Finset.sum_image fun _ _ _ _ h => hK h]

/-- The reference's row at one of its first 128 positions is a higher-order feature. -/
theorem cin_lo (iu ju : Fin 2016 → Fin 64) (ho : Fin 128 → EReal) (g : Fin 64 → Fin 64 → EReal) (f : Fin 32 → EReal)
    (i : Fin 128) (h : i.val < 2176) : cin iu ju ho g f ⟨i.val, h⟩ = ho i := by
  have h1 : i.val < 128 := i.isLt
  simp only [cin, dif_pos h1]

/-- The reference's row at position  128 + p  is the Gram entry at the p-th listed pair. -/
theorem cin_mid (iu ju : Fin 2016 → Fin 64) (ho : Fin 128 → EReal) (g : Fin 64 → Fin 64 → EReal) (f : Fin 32 → EReal)
    (p : Fin 2016) (h : 128 + p.val < 2176) : cin iu ju ho g f ⟨128 + p.val, h⟩ = g (iu p) (ju p) := by
  have h1 : ¬ (128 + p.val < 128) := by omega
  have h2 : 128 + p.val < 2144 := by have := p.isLt; omega
  have e : (⟨128 + p.val - 128, by have := p.isLt; omega⟩ : Fin 2016) = p := Fin.ext (Nat.add_sub_cancel_left _ _)
  simp only [cin, dif_neg h1, dif_pos h2, e]

/-- The reference's row at position  2144 + d  is the field sum's entry d. -/
theorem cin_hi (iu ju : Fin 2016 → Fin 64) (ho : Fin 128 → EReal) (g : Fin 64 → Fin 64 → EReal) (f : Fin 32 → EReal)
    (d : Fin 32) (h : 2144 + d.val < 2176) : cin iu ju ho g f ⟨2144 + d.val, h⟩ = f d := by
  have h1 : ¬ (2144 + d.val < 128) := by omega
  have h2 : ¬ (2144 + d.val < 2144) := by omega
  have e : (⟨2144 + d.val - 2144, by have := d.isLt; omega⟩ : Fin 32) = d := Fin.ext (Nat.add_sub_cancel_left _ _)
  simp only [cin, dif_neg h1, dif_neg h2, e]

/-- The head's first layer agrees entry by entry: the whole-weights sum splits into three blocks; the first and the last
    are the kernel's first and third partial products term by term, and the middle one is the kernel's product with the
    scattered weights, summed along the list of positions. -/
theorem pre_eq (Wc1 : FVec Ideal ⟨2, ![2176, 256]⟩ .f32) (Wh : FVec Ideal ⟨2, ![128, 256]⟩ .f32)
    (Wf : FVec Ideal ⟨2, ![32, 256]⟩ .f32) (Wg : FVec Ideal ⟨2, ![4096, 256]⟩ .f32) (bc1 : FVec Ideal ⟨1, ![256]⟩ .f32)
    (K : Fin 2016 → Fin 4096) (hK : Function.Injective K) (iu ju : Fin 2016 → Fin 64)
    (hiu : ∀ p, (iu p).val = (K p).val / 64) (hju : ∀ p, (ju p).val = (K p).val % 64)
    (hWh : ∀ (k : Fin 128) (c : Fin 256), Wh (ix2 k c) = Wc1 (ix2 (⟨k.val, by have := k.isLt; omega⟩ : Fin 2176) c))
    (hWf : ∀ (d : Fin 32) (c : Fin 256), Wf (ix2 d c) = Wc1 (ix2 (⟨2144 + d.val, by have := d.isLt; omega⟩ : Fin 2176) c))
    (hWg : ∀ (p : Fin 2016) (c : Fin 256), Wg (ix2 (K p) c) = Wc1 (ix2 (⟨128 + p.val, by have := p.isLt; omega⟩ : Fin 2176) c))
    (hW0 : ∀ (q : Fin 4096) (c : Fin 256), (∀ p, K p ≠ q) → Wg (ix2 q c) = 0)
    (ho : Fin 128 → EReal) (g : Fin 64 → Fin 64 → EReal) (f : Fin 32 → EReal) (c : Fin 256) :
    preK Wh Wg Wf bc1 ho g f c = affine Wc1 bc1 (cin iu ju ho g f) c := by
  unfold preK affine
  rw [split_sum fun k => cin iu ju ho g f k * Wc1 (ix2 k c)]
  -- the first block, term by term
  have e1 : ∑ k : Fin 128, ho k * Wh (ix2 k c)
      = ∑ i : Fin 128, cin iu ju ho g f ⟨i.val, by have := i.isLt; omega⟩
          * Wc1 (ix2 (⟨i.val, by have := i.isLt; omega⟩ : Fin 2176) c) :=
    Finset.sum_congr rfl fun i _ => by rw [cin_lo, hWh]
  -- the last block, term by term
  have e3 : ∑ d : Fin 32, f d * Wf (ix2 d c)
      = ∑ d : Fin 32, cin iu ju ho g f ⟨2144 + d.val, by have := d.isLt; omega⟩
          * Wc1 (ix2 (⟨2144 + d.val, by have := d.isLt; omega⟩ : Fin 2176) c) :=
    Finset.sum_congr rfl fun d _ => by rw [cin_hi, hWf]
  -- the middle block: along the list the Gram entry is the listed pair's and the weight is row 128 + p
  have e2 : ∑ q : Fin 4096, g ⟨q.val / 64, by have := q.isLt; omega⟩ ⟨q.val % 64, Nat.mod_lt _ (by norm_num)⟩
          * Wg (ix2 q c)
      = ∑ p : Fin 2016, cin iu ju ho g f ⟨128 + p.val, by have := p.isLt; omega⟩
          * Wc1 (ix2 (⟨128 + p.val, by have := p.isLt; omega⟩ : Fin 2176) c) := by
    rw [scatter_sum K hK
      (fun q => g ⟨q.val / 64, by have := q.isLt; omega⟩ ⟨q.val % 64, Nat.mod_lt _ (by norm_num)⟩)
      (fun q => Wg (ix2 q c)) (fun q hq => hW0 q c hq)]
    refine Finset.sum_congr rfl fun p _ => ?_
    have ei : (⟨(K p).val / 64, by have := (K p).isLt; omega⟩ : Fin 64) = iu p := Fin.ext (hiu p).symm
    have ej : (⟨(K p).val % 64, Nat.mod_lt _ (by norm_num)⟩ : Fin 64) = ju p := Fin.ext (hju p).symm
    rw [cin_mid, hWg, ei, ej]
  rw [e1, e2, e3]

section
variable (W1 : FVec Ideal ⟨2, ![2048, 256]⟩ .f32) (b1 : FVec Ideal ⟨1, ![256]⟩ .f32)
  (W2 : FVec Ideal ⟨2, ![256, 256]⟩ .f32) (b2 : FVec Ideal ⟨1, ![256]⟩ .f32)
  (W3 : FVec Ideal ⟨2, ![256, 128]⟩ .f32) (b3 : FVec Ideal ⟨1, ![128]⟩ .f32)
  (bc1 : FVec Ideal ⟨1, ![256]⟩ .f32) (Wc2 : FVec Ideal ⟨2, ![256, 1]⟩ .f32) (bc2 : FVec Ideal ⟨1, ![1]⟩ .f32)

/-- What the kernel computes for one row, from its three first-layer weight pieces. -/
def outK (Wh : FVec Ideal ⟨2, ![128, 256]⟩ .f32) (Wf : FVec Ideal ⟨2, ![32, 256]⟩ .f32)
    (Wg : FVec Ideal ⟨2, ![4096, 256]⟩ .f32) (x : Fin 64 → Fin 32 → EReal) : EReal :=
  head2 Wc2 bc2 (preK Wh Wg Wf bc1 (hoi W1 b1 W2 b2 W3 b3 x) (gram x) (fo x))

/-- What the reference computes for one row, from the whole first-layer weights and the two pair tables. -/
def outR (Wc1 : FVec Ideal ⟨2, ![2176, 256]⟩ .f32) (iu ju : Fin 2016 → Fin 64) (x : Fin 64 → Fin 32 → EReal) : EReal :=
  head2 Wc2 bc2 (affine Wc1 bc1 (cin iu ju (hoi W1 b1 W2 b2 W3 b3 x) (gram x) (fo x)))

/-- The two agree when the kernel's three pieces are the matching rows of the whole weights: rows 0–127, rows 2144–2175,
    and — through an injective list  K  of flat positions  64 · iu p + ju p  — row 128 + p at position  K p  and zero at
    every position the list misses. -/
theorem outK_eq_outR (Wc1 : FVec Ideal ⟨2, ![2176, 256]⟩ .f32) (Wh : FVec Ideal ⟨2, ![128, 256]⟩ .f32)
    (Wf : FVec Ideal ⟨2, ![32, 256]⟩ .f32) (Wg : FVec Ideal ⟨2, ![4096, 256]⟩ .f32)
    (K : Fin 2016 → Fin 4096) (hK : Function.Injective K) (iu ju : Fin 2016 → Fin 64)
    (hiu : ∀ p, (iu p).val = (K p).val / 64) (hju : ∀ p, (ju p).val = (K p).val % 64)
    (hWh : ∀ (k : Fin 128) (c : Fin 256), Wh (ix2 k c) = Wc1 (ix2 (⟨k.val, by have := k.isLt; omega⟩ : Fin 2176) c))
    (hWf : ∀ (d : Fin 32) (c : Fin 256), Wf (ix2 d c) = Wc1 (ix2 (⟨2144 + d.val, by have := d.isLt; omega⟩ : Fin 2176) c))
    (hWg : ∀ (p : Fin 2016) (c : Fin 256), Wg (ix2 (K p) c) = Wc1 (ix2 (⟨128 + p.val, by have := p.isLt; omega⟩ : Fin 2176) c))
    (hW0 : ∀ (q : Fin 4096) (c : Fin 256), (∀ p, K p ≠ q) → Wg (ix2 q c) = 0)
    (x : Fin 64 → Fin 32 → EReal) :
    outK W1 b1 W2 b2 W3 b3 bc1 Wc2 bc2 Wh Wf Wg x = outR W1 b1 W2 b2 W3 b3 bc1 Wc2 bc2 Wc1 iu ju x := by
  -- both sides are the head's second layer on a row; the two rows agree entry by entry
  unfold outK outR
  exact congrArg (head2 Wc2 bc2)
    (funext fun c => pre_eq Wc1 Wh Wf Wg bc1 K hK iu ju hiu hju hWh hWf hWg hW0 _ _ _ c)
end

end Cert.DeepFM

end
-- ==== Proof.KernelTower.lean ====
/-
  The kernel's perceptron on a block of 256 rows, read at an entry of its second hidden layer.

  The block's 256 × 64 × 32 numbers are viewed as 256 rows of 2048 (row-major, so position k of a row is field k / 32,
  coordinate k % 32). Each hidden layer is a dense layer — a product into zeros plus the bias row on every row —
  followed entry by entry by the scaled exponential linear unit  SC · (v if v > 0 else AL · (eᵛ − 1)) ; narrowing to
  bf16 is the identity on the extended reals. A dense layer acts on each row by itself, so entry (r, c) of the second
  layer depends only on row r of the first, which depends only on row r of the block.
-/
import proofs.«121141_j14594298872614_1_alg».proof.Proof.Gen.KernelIdeal.Skeleton
import proofs.«121141_j14594298872614_1_alg».proof.Proof.Gen.KernelIdeal
import proofs.«121141_j14594298872614_1_alg».proof.Proof.Spec

noncomputable section

namespace Cert.KernelIdeal.Tower

open Cert.KernelIdeal Cert.KernelIdeal.Gen Idealize.ShloMosaic Idealize.ShloMosaic.ValueIdx Cert.Dense Cert.DeepFM

/-- The scaled exponential linear unit as the kernel spells it on a whole array — the scale times the choice between
    the entry and the negative-side factor times (e to the entry, minus one) — read at an index. -/
theorem selu_vec_apply {s : Shape} (v : FVec Ideal s .f32) (i : s.Idx) :
    mulf (broadcast s (Scalar.ofBits (F := Ideal) .f32 0x3F867D5F#32))
      (select (cmpf .ogt v (broadcast s (Scalar.ofBits (F := Ideal) .f32 0x00000000#32))) v
        (mulf (broadcast s (Scalar.ofBits (F := Ideal) .f32 0x3FD62D7D#32))
          (subf (exp v) (broadcast s (Scalar.ofBits (F := Ideal) .f32 0x3F800000#32))))) i
      = selu (v i) := by
  -- every operation acts entry by entry, a splat reads its word everywhere, and the words 0 and 1 are the numbers
  rw [mulf_apply, select_apply, mulf_apply, subf_apply, cmpf_apply]
  simp only [broadcast_apply]
  show SC * Scalar.select (Ideal.cmp .ogt (v i) (Ideal.ofBits .f32 0x00000000#32)) (v i)
      (AL * (Ideal.exp (v i) - Ideal.ofBits .f32 0x3F800000#32)) = _
  rw [Ideal.ofBits_zero_f32, Ideal.ofBits_one_f32]
  rfl

/-- One hidden layer as the kernel spells it — the dense layer of R rows followed by the scaled exponential linear
    unit — read at (r, c): the unit applied to the affine map of row r at c. -/
theorem selu_layer_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    mulf (broadcast ⟨2, ![R, C]⟩ (Scalar.ofBits (F := Ideal) .f32 0x3F867D5F#32))
      (select
        (cmpf .ogt
          (addf (matmul d none (truncf .bf16 X hlt) (truncf .bf16 W hlt) (constant ⟨2, ![R, C]⟩ .f32 0x00000000#32))
            (broadcastTo ⟨2, ![R, C]⟩ (shapeCast ⟨2, ![1, C]⟩ b hsc) hbc))
          (broadcast ⟨2, ![R, C]⟩ (Scalar.ofBits (F := Ideal) .f32 0x00000000#32)))
        (addf (matmul d none (truncf .bf16 X hlt) (truncf .bf16 W hlt) (constant ⟨2, ![R, C]⟩ .f32 0x00000000#32))
          (broadcastTo ⟨2, ![R, C]⟩ (shapeCast ⟨2, ![1, C]⟩ b hsc) hbc))
        (mulf (broadcast ⟨2, ![R, C]⟩ (Scalar.ofBits (F := Ideal) .f32 0x3FD62D7D#32))
          (subf
            (exp (addf (matmul d none (truncf .bf16 X hlt) (truncf .bf16 W hlt) (constant ⟨2, ![R, C]⟩ .f32 0x00000000#32))
              (broadcastTo ⟨2, ![R, C]⟩ (shapeCast ⟨2, ![1, C]⟩ b hsc) hbc)))
            (broadcast ⟨2, ![R, C]⟩ (Scalar.ofBits (F := Ideal) .f32 0x3F800000#32))))) (ix2 r c)
      = selu (affine W b (fun k => X (ix2 r k)) c) :=
  -- the unit reads the layer's entry (r, c), which is the affine map of row r at c
  (selu_vec_apply _ (ix2 r c)).trans
    (congrArg selu (kernel_affine_apply d h1 h2 h3 h4 h5 h6 hlt hsc hbc X W b r c))

/-- The block of 256 rows of 64 × 32 numbers viewed as 256 rows of 2048 reads, at (r, k), the block's row r flattened
    row-major at k: position k of a row is field k / 32, coordinate k % 32. -/
theorem flat_apply (P0 : Vec Ideal S256x64x32 .f32) (r : Fin 256) (k : Fin 2048) :
    shapeCast S256x2048 P0 shapeCasts_S256x64x32_S256x2048 (ix2 r k) = flat (fun f d => P0 (ix3 r f d)) k := by
  -- both indices have the row-major position  r · 2048 + k
  refine shapeCast_apply P0 shapeCasts_S256x64x32_S256x2048 (ix2 r k)
    (ix3 r ⟨k.val / 32, by have := k.isLt; omega⟩ ⟨k.val % 32, Nat.mod_lt _ (by norm_num)⟩) ?_
  rw [Shape.rowMajor_val_three, Shape.rowMajor_val_two]
  show (r.val * 64 + k.val / 32) * 32 + k.val % 32 = r.val * 2048 + k.val
  omega

/-- Entry (r, c) of the block's second hidden layer is the specification's second hidden layer of row r at c. -/
theorem pay3_apply (P0 : Vec Ideal S256x64x32 .f32) (P1 : Vec Ideal S2048x256 .f32) (P2 : Vec Ideal S256 .f32)
    (P3 : Vec Ideal S256x256 .f32) (P4 : Vec Ideal S256 .f32) (r : Fin 256) (c : Fin 256) :
    k0_pay3 P0 P1 P2 P3 P4 (ix2 r c) = Cert.DeepFM.h2 P1 P2 P3 P4 (fun f d => P0 (ix3 r f d)) c := by
  unfold k0_pay3
  -- narrowing to bf16 is the identity; the outer layer reads the inner layer's row r
  refine (truncf_apply _ bitsLt_bf16_f32 (ix2 r c)).trans ?_
  refine (selu_layer_apply dot_S256x256_S256x256_S256x256_1_0_0_1_n_n rfl rfl rfl rfl rfl rfl bitsLt_bf16_f32
    shapeCasts_S256_S1x256 broadcasts_S1x256_S256x256 _ P3 P4 r c).trans ?_
  refine congrArg selu (congrArg (fun v => affine P3 P4 v c) (funext fun k => ?_))
  -- the inner layer reads the flattened row r
  refine (selu_layer_apply dot_S256x2048_S2048x256_S256x256_1_0_0_1_n_n rfl rfl rfl rfl rfl rfl bitsLt_bf16_f32
    shapeCasts_S256_S1x256 broadcasts_S1x256_S256x256 _ P1 P2 r k).trans ?_
  exact congrArg selu (congrArg (fun v => affine P1 P2 v k) (funext fun k' => flat_apply P0 r k'))

end Cert.KernelIdeal.Tower

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.KernelPayload.lean ====
/-
  What one grid point leaves in its output block, at a row: the specification's kernel value of that row of the input block.

  The body's last stretch takes the block  x  of 256 rows (each 64 fields × 32 coordinates) and the second hidden
  layer of the perceptron on it, and forms, row by row,
   · the perceptron's output layer  hoi  (a product with the 256 × 128 weights plus a bias row);
   · the field sum  fo_d = Σ_f x_{f,d} ;
   · the batched product of the block with itself, contracting the coordinate axis: the Gram matrix
     gram_{i,j} = Σ_d x_{i,d} · x_{j,d}  of every row, then flattened row-major to 4096 numbers, so that position
     q  holds  gram_{q / 64, q % 64} ;
   · the three products of these with the three pieces of the head's first-layer weights, their sum, the bias row:
     the specification's  preK ;
   · the rectifier and the product with the 256 × 1 weights; the last bias is added outside.
  Every step acts on each row by itself, so entry (r, 0) of the result is the specification's  outK  of row r.
  Narrowing to bf16 is the identity on the extended reals and a shape cast of a shape to itself is the identity.
-/
import proofs.«121141_j14594298872614_1_alg».proof.Proof.ValueP
import proofs.«121141_j14594298872614_1_alg».proof.Proof.Spec
import proofs.«121141_j14594298872614_1_alg».proof.Proof.KernelTower
import proofs.«121141_j14594298872614_1_alg».proof.Proof.LibBiasRow

noncomputable section

open scoped BigOperators

namespace Cert.KernelIdeal.Payload

open Cert.KernelIdeal Cert.KernelIdeal.Gen Idealize.ShloMosaic Idealize.ShloMosaic.ValueIdx

/-! ## A batched product  [B, M, K] × [B, N, K] → [B, M, N]  read at an entry -/

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

section Batched
variable {B M N K : ℕ} (d : DotDims ⟨3, ![B, M, K]⟩ ⟨3, ![B, N, K]⟩ ⟨3, ![B, M, N]⟩)

/-- The left operand's batch axis reads the result's batch coordinate. -/
private theorem lhs_batch (h5 : d.lhsBatch = [0]) (j : (⟨3, ![B, M, N]⟩ : Shape).Idx) (k : d.contr.Idx) :
    (d.lhsIdx j k 0).val = (j 0).val := by
  have hb : (0 : Fin 3) ∈ d.lhsBatch := by rw [h5]; exact List.mem_singleton.mpr rfl
  unfold DotDims.lhsIdx
  rw [dif_pos hb]
  simp only [Fin.val_cast]
  exact idx_val_congr j _ _ _ _ (by simp [h5])

/-- The left operand's free axis reads the result's axis 1: one batch axis comes before it. -/
private theorem lhs_free (h3 : d.lhsNonContracting = [1]) (h5 : d.lhsBatch = [0])
    (j : (⟨3, ![B, M, N]⟩ : Shape).Idx) (k : d.contr.Idx) : (d.lhsIdx j k 1).val = (j 1).val := by
  have hb : (1 : Fin 3) ∉ d.lhsBatch := by
    rw [h5]
    exact fun h => absurd (congrArg Fin.val (List.mem_singleton.mp h)) Nat.one_ne_zero
  have hn : (1 : Fin 3) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- The right operand's batch axis reads the result's batch coordinate. -/
private theorem rhs_batch (h6 : d.rhsBatch = [0]) (j : (⟨3, ![B, M, N]⟩ : Shape).Idx) (k : d.contr.Idx) :
    (d.rhsIdx j k 0).val = (j 0).val := by
  have hb : (0 : Fin 3) ∈ d.rhsBatch := by rw [h6]; exact List.mem_singleton.mpr rfl
  unfold DotDims.rhsIdx
  rw [dif_pos hb]
  simp only [Fin.val_cast]
  exact idx_val_congr j _ _ _ _ (by simp [h6])

/-- The right operand's free axis reads the result's axis 2: the batch axis and the left operand's free axis come
    before it. -/
private theorem rhs_free (h3 : d.lhsNonContracting = [1]) (h4 : d.rhsNonContracting = [1]) (h5 : d.lhsBatch = [0])
    (h6 : d.rhsBatch = [0]) (j : (⟨3, ![B, M, N]⟩ : Shape).Idx) (k : d.contr.Idx) :
    (d.rhsIdx j k 1).val = (j 2).val := by
  have hb : (1 : Fin 3) ∉ d.rhsBatch := by
    rw [h6]
    exact fun h => absurd (congrArg Fin.val (List.mem_singleton.mp h)) Nat.one_ne_zero
  have hn : (1 : Fin 3) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over the one-axis contraction index of a batched product, as the sum over k of
    lhs(b, i, k) · rhs(b, j, k). -/
theorem batched_contr_sum (h1 : d.lhsContracting = [2]) (h2 : d.rhsContracting = [2]) (h3 : d.lhsNonContracting = [1])
    (h4 : d.rhsNonContracting = [1]) (h5 : d.lhsBatch = [0]) (h6 : d.rhsBatch = [0])
    (lhs : (⟨3, ![B, M, K]⟩ : Shape).Idx → EReal) (rhs : (⟨3, ![B, N, K]⟩ : Shape).Idx → EReal)
    (b : Fin B) (i : Fin M) (j : Fin N) :
    ∑ k : d.contr.Idx, lhs (d.lhsIdx (ix3 b i j) k) * rhs (d.rhsIdx (ix3 b i j) k)
      = ∑ k : Fin K, lhs (ix3 b i k) * rhs (ix3 b j k) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (b, i, k)
  have el : d.lhsIdx (ix3 b i j) ((contrEquiv1 d K hr hs).symm k) = ix3 b i k := by
    funext a
    match a with
    | ⟨0, _⟩ => exact Fin.ext (lhs_batch d h5 (ix3 b i j) _)
    | ⟨1, _⟩ => exact Fin.ext (lhs_free d h3 h5 (ix3 b i j) _)
    | ⟨2, _⟩ => exact Fin.ext ((d.lhsIdx_val_of_single h1 (ix3 b i j) _).trans hk)
  -- the right operand is read at (b, j, k)
  have er : d.rhsIdx (ix3 b i j) ((contrEquiv1 d K hr hs).symm k) = ix3 b j k := by
    funext a
    match a with
    | ⟨0, _⟩ => exact Fin.ext (rhs_batch d h6 (ix3 b i j) _)
    | ⟨1, _⟩ => exact Fin.ext (rhs_free d h3 h4 h5 h6 (ix3 b i j) _)
    | ⟨2, _⟩ => exact Fin.ext ((d.rhsIdx_val_of_single h2 (ix3 b i j) _).trans hk)
  rw [el, er]

/-- The matrix unit's batched product into a zero accumulator, at (b, i, j). -/
theorem batched_zero_apply {φ₁ φ₂ : FTy} (h1 : d.lhsContracting = [2]) (h2 : d.rhsContracting = [2])
    (h3 : d.lhsNonContracting = [1]) (h4 : d.rhsNonContracting = [1]) (h5 : d.lhsBatch = [0]) (h6 : d.rhsBatch = [0])
    (prec : Option ContractPrecision) (lhs : FVec Ideal ⟨3, ![B, M, K]⟩ φ₁) (rhs : FVec Ideal ⟨3, ![B, N, K]⟩ φ₂)
    (b : Fin B) (i : Fin M) (j : Fin N) :
    matmul d prec lhs rhs (constant (F := Ideal) ⟨3, ![B, M, N]⟩ .f32 0x00000000#32) (ix3 b i j)
      = ∑ k : Fin K, lhs (ix3 b i k) * rhs (ix3 b j k) := by
  show FloatOps.matmul d prec lhs rhs (constant (F := Ideal) ⟨3, ![B, M, N]⟩ .f32 0x00000000#32) (ix3 b i j) = _
  rw [Ideal.matmul_constant_zero_apply]
  exact batched_contr_sum d h1 h2 h3 h4 h5 h6 lhs rhs b i j

end Batched

/-! ## The stretch's values, one definition each, and each read at an entry -/

/-- The perceptron's output layer on the block: the product of the second hidden layer with the weights, plus the
    bias row. -/
def hoiV (H2 : FVec Ideal S256x256 .bf16) (W : Vec Ideal S256x128 .f32) (b : Vec Ideal S128 .f32) :
    FVec Ideal S256x128 .f32 :=
  addf (matmul dot_S256x256_S256x128_S256x128_1_0_0_1_n_n none H2 (truncf .bf16 W bitsLt_bf16_f32)
      (constant (F := Ideal) S256x128 .f32 0x00000000#32))
    (broadcastTo S256x128 (shapeCast S1x128 b shapeCasts_S128_S1x128) broadcasts_S1x128_S256x128)

/-- Entry (r, c) of it: the affine map of row r of the second hidden layer. -/
theorem hoiV_apply (H2 : FVec Ideal S256x256 .bf16) (W : Vec Ideal S256x128 .f32) (b : Vec Ideal S128 .f32)
    (r : Fin 256) (c : Fin 128) :
    hoiV H2 W b (ix2 r c) = Cert.Dense.affine W b (fun k => H2 (ix2 r k)) c := by
  unfold hoiV
  rw [addf_apply, Cert.Dense.matmul_zero_plain_apply _ rfl rfl rfl rfl rfl rfl,
    Cert.BiasRow.cast_stretch_apply shapeCasts_S128_S1x128 broadcasts_S1x128_S256x128 b r c]
  rfl

/-- The field sum of the block. -/
def foV (X : Vec Ideal S256x64x32 .f32) : FVec Ideal S256x32 .f32 :=
  multiReduction (F := Ideal) .add [1] S256x32 X 0x00000000#32 reduces_S256x64x32_S256x32 (.inl rfl) rfl

/-- Entry (r, d) of it: the sum over the 64 fields of row r at coordinate d. -/
theorem foV_apply (X : Vec Ideal S256x64x32 .f32) (r : Fin 256) (d : Fin 32) :
    foV X (ix2 r d) = ∑ f : Fin 64, X (ix3 r f d) := by
  unfold foV
  refine (Ideal.multiReduction_add_single (φ := .f32) X _ reduces_S256x64x32_S256x32 _ _ (ix2 r d)).trans ?_
  refine Finset.sum_congr rfl fun f _ => congrArg X (funext fun a => Fin.ext ?_)
  match a with
  | ⟨0, _⟩ => rfl
  | ⟨1, _⟩ => rfl
  | ⟨2, _⟩ => rfl

/-- The Gram matrices of the block's rows, each flattened row-major to 4096 numbers. -/
def gramV (X : FVec Ideal S256x64x32 .bf16) : FVec Ideal S256x4096 .f32 :=
  shapeCast S256x4096
    (matmul dot_S256x64x32_S256x64x32_S256x64x64_2_2_1_1_0_0 none X X (constant (F := Ideal) S256x64x64 .f32 0x00000000#32))
    shapeCasts_S256x64x64_S256x4096

/-- Entry (r, q) of it: the Gram entry (q / 64, q % 64) of row r. -/
theorem gramV_apply (X : FVec Ideal S256x64x32 .bf16) (r : Fin 256) (q : Fin 4096) :
    gramV X (ix2 r q)
      = ∑ d : Fin 32, X (ix3 r (⟨q.val / 64, by have := q.isLt; omega⟩ : Fin 64) d)
          * X (ix3 r (⟨q.val % 64, Nat.mod_lt _ (by norm_num)⟩ : Fin 64) d) := by
  unfold gramV
  -- position q of the flattened row is entry (q / 64, q % 64) of the matrix: both sit at  r · 4096 + q
  refine (shapeCast_apply _ shapeCasts_S256x64x64_S256x4096 (ix2 r q)
    (ix3 r (⟨q.val / 64, by have := q.isLt; omega⟩ : Fin 64) (⟨q.val % 64, Nat.mod_lt _ (by norm_num)⟩ : Fin 64))
    (by
      rw [Shape.rowMajor_val_three, Shape.rowMajor_val_two]
      show (r.val * 64 + q.val / 64) * 64 + q.val % 64 = r.val * 4096 + q.val
      omega)).trans ?_
  exact batched_zero_apply _ rfl rfl rfl rfl rfl rfl none X X r _ _

/-- The head's first layer before its rectifier, on the block: the three products with the three pieces of the
    first-layer weights, their sum, and the bias row. -/
def preV (H : FVec Ideal S256x128 .f32) (Fo : FVec Ideal S256x32 .f32) (G : FVec Ideal S256x4096 .f32)
    (Wh : Vec Ideal S128x256 .f32) (Wf : Vec Ideal S32x256 .f32) (Wg : Vec Ideal S4096x256 .f32)
    (b : Vec Ideal S256 .f32) : FVec Ideal S256x256 .f32 :=
  addf (addf (addf
        (matmul dot_S256x128_S128x256_S256x256_1_0_0_1_n_n none (truncf .bf16 H bitsLt_bf16_f32)
          (truncf .bf16 (shapeCast S128x256 Wh shapeCasts_S128x256_S128x256) bitsLt_bf16_f32)
          (constant (F := Ideal) S256x256 .f32 0x00000000#32))
        (matmul dot_S256x4096_S4096x256_S256x256_1_0_0_1_n_n none (truncf .bf16 G bitsLt_bf16_f32)
          (truncf .bf16 (shapeCast S4096x256 Wg shapeCasts_S4096x256_S4096x256) bitsLt_bf16_f32)
          (constant (F := Ideal) S256x256 .f32 0x00000000#32)))
      (matmul dot_S256x32_S32x256_S256x256_1_0_0_1_n_n none (truncf .bf16 Fo bitsLt_bf16_f32)
        (truncf .bf16 (shapeCast S32x256 Wf shapeCasts_S32x256_S32x256) bitsLt_bf16_f32)
        (constant (F := Ideal) S256x256 .f32 0x00000000#32)))
    (broadcastTo S256x256 (shapeCast S1x256 b shapeCasts_S256_S1x256) broadcasts_S1x256_S256x256)

/-- Entry (r, c) of it: the three sums over row r of the three operands, plus the bias entry c. -/
theorem preV_apply (H : FVec Ideal S256x128 .f32) (Fo : FVec Ideal S256x32 .f32) (G : FVec Ideal S256x4096 .f32)
    (Wh : Vec Ideal S128x256 .f32) (Wf : Vec Ideal S32x256 .f32) (Wg : Vec Ideal S4096x256 .f32)
    (b : Vec Ideal S256 .f32) (r c : Fin 256) :
    preV H Fo G Wh Wf Wg b (ix2 r c)
      = (((∑ k : Fin 128, H (ix2 r k) * Wh (ix2 k c)) + (∑ q : Fin 4096, G (ix2 r q) * Wg (ix2 q c)))
          + (∑ d : Fin 32, Fo (ix2 r d) * Wf (ix2 d c))) + b (ix1 c) := by
  unfold preV
  rw [addf_apply, addf_apply, addf_apply,
    Cert.Dense.matmul_zero_plain_apply dot_S256x128_S128x256_S256x256_1_0_0_1_n_n rfl rfl rfl rfl rfl rfl,
    Cert.Dense.matmul_zero_plain_apply dot_S256x4096_S4096x256_S256x256_1_0_0_1_n_n rfl rfl rfl rfl rfl rfl,
    Cert.Dense.matmul_zero_plain_apply dot_S256x32_S32x256_S256x256_1_0_0_1_n_n rfl rfl rfl rfl rfl rfl,
    Cert.BiasRow.cast_stretch_apply shapeCasts_S256_S1x256 broadcasts_S1x256_S256x256 b r c,
    shapeCast_self, shapeCast_self, shapeCast_self]
  rfl

/-- The head's second layer on the block, before its bias: the rectifier, then the product with the 256 × 1 weights. -/
def outV (Pre : FVec Ideal S256x256 .f32) (W : Vec Ideal S256x1 .f32) : FVec Ideal S256x1 .f32 :=
  matmul dot_S256x256_S256x1_S256x1_1_0_0_1_n_n none
    (truncf .bf16 (maximumf Pre (broadcast S256x256 (Scalar.ofBits (F := Ideal) .f32 0x00000000#32))) bitsLt_bf16_f32)
    (truncf .bf16 W bitsLt_bf16_f32) (constant (F := Ideal) S256x1 .f32 0x00000000#32)

/-- Entry (r, 0) of it: the sum over row r's rectified entries times the weights. -/
theorem outV_apply (Pre : FVec Ideal S256x256 .f32) (W : Vec Ideal S256x1 .f32) (r : Fin 256) :
    outV Pre W (ix2 r (0 : Fin 1)) = ∑ k : Fin 256, max (Pre (ix2 r k)) 0 * W (ix2 k (0 : Fin 1)) := by
  unfold outV
  rw [Cert.Dense.matmul_zero_plain_apply dot_S256x256_S256x1_S256x1_1_0_0_1_n_n rfl rfl rfl rfl rfl rfl]
  refine Finset.sum_congr rfl fun k _ => ?_
  rw [truncf_apply, truncf_apply, Cert.Dense.kernel_relu_apply]

/-- The stretch's result is these values composed: the second layer on the first layer's pre-activations, which are
    formed from the output layer of the perceptron, the field sum and the flattened Gram matrices. -/
theorem pay4_eq (v0 : Vec Ideal S256x64x32 .f32) (v2 : FVec Ideal S256x64x32 .bf16) (v39 : FVec Ideal S256x256 .bf16)
    (v40 : Vec Ideal S256x128 .f32) (v43 : Vec Ideal S128 .f32) (v53 : Vec Ideal S128x256 .f32)
    (v57 : Vec Ideal S32x256 .f32) (v61 : Vec Ideal S4096x256 .f32) (v67 : Vec Ideal S256 .f32)
    (v74 : Vec Ideal S256x1 .f32) :
    k0_pay4 v0 v2 v39 v40 v43 v53 v57 v61 v67 v74
      = outV (preV (hoiV v39 v40 v43) (foV v0) (gramV v2) v53 v57 v61 v67) v74 := rfl

/-- Row r of the first layer's pre-activations, from row r of the second hidden layer and row r of the block: the
    specification's  preK  on that row's output layer, Gram matrix and field sum. -/
theorem pre_row (X : Vec Ideal S256x64x32 .f32) (H2 : FVec Ideal S256x256 .bf16) (W3 : Vec Ideal S256x128 .f32)
    (b3 : Vec Ideal S128 .f32) (Wh : Vec Ideal S128x256 .f32) (Wf : Vec Ideal S32x256 .f32)
    (Wg : Vec Ideal S4096x256 .f32) (b : Vec Ideal S256 .f32) (r c : Fin 256) :
    preV (hoiV H2 W3 b3) (foV X) (gramV (truncf .bf16 X bitsLt_bf16_f32)) Wh Wf Wg b (ix2 r c)
      = Cert.DeepFM.preK Wh Wg Wf b (Cert.Dense.affine W3 b3 fun k => H2 (ix2 r k))
          (Cert.DeepFM.gram fun f d => X (ix3 r f d)) (Cert.DeepFM.fo fun f d => X (ix3 r f d)) c := by
  rw [preV_apply]
  unfold Cert.DeepFM.preK Cert.DeepFM.gram Cert.DeepFM.fo
  simp only [hoiV_apply, foV_apply, gramV_apply, truncf_apply]

theorem E13_eq (P0 : Vec Ideal S256x64x32 .f32) (P1 : Vec Ideal S2048x256 .f32) (P2 : Vec Ideal S256 .f32)
    (P3 : Vec Ideal S256x256 .f32) (P4 : Vec Ideal S256 .f32) (P5 : Vec Ideal S256x128 .f32) (P6 : Vec Ideal S128 .f32)
    (P7 : Vec Ideal S128x256 .f32) (P8 : Vec Ideal S32x256 .f32) (P9 : Vec Ideal S4096x256 .f32) (P10 : Vec Ideal S256 .f32)
    (P11 : Vec Ideal S256x1 .f32) (P12 : Vec Ideal S1 .f32) (r : Fin 256) :
    Cert.KernelIdeal.ValueP.E13 P0 P1 P2 P3 P4 P5 P6 P7 P8 P9 P10 P11 P12 (ix2 r (0 : Fin 1))
      = Cert.DeepFM.outK P1 P2 P3 P4 P5 P6 P10 P11 P12 P7 P8 P9 (fun f d => P0 (ix3 r f d)) := by
  -- the block index (r, 0) reads the stretch's result at (r, 0) and the last bias at its one entry
  have e0 : Cert.KernelIdeal.ValueP.ix13_0 (ix2 r (0 : Fin 1)) = ix2 r (0 : Fin 1) := by
    funext a
    match a with
    | ⟨0, _⟩ => rfl
    | ⟨1, _⟩ => rfl
  have e1 : Cert.KernelIdeal.ValueP.ix13_1 (ix2 r (0 : Fin 1)) = ix1 (0 : Fin 1) := by
    funext a
    match a with
    | ⟨0, _⟩ => rfl
  -- row r of the second hidden layer is the specification's
  have eh : (fun k => k0_pay3 P0 P1 P2 P3 P4 (ix2 r k)) = Cert.DeepFM.h2 P1 P2 P3 P4 (fun f d => P0 (ix3 r f d)) :=
    funext fun k => Cert.KernelIdeal.Tower.pay3_apply P0 P1 P2 P3 P4 r k
  show k0_pay4 P0 (truncf .bf16 P0 bitsLt_bf16_f32) (k0_pay3 P0 P1 P2 P3 P4) P5 P6 P7 P8 P9 P10 P11
        (Cert.KernelIdeal.ValueP.ix13_0 (ix2 r (0 : Fin 1)))
      + P12 (Cert.KernelIdeal.ValueP.ix13_1 (ix2 r (0 : Fin 1))) = _
  rw [e0, e1, pay4_eq, outV_apply]
  -- the specification's value is the same sum over the rectified row, plus the last bias
  show _ = (∑ k : Fin 256, max (Cert.DeepFM.preK P7 P9 P8 P10
      (Cert.DeepFM.hoi P1 P2 P3 P4 P5 P6 fun f d => P0 (ix3 r f d)) (Cert.DeepFM.gram fun f d => P0 (ix3 r f d))
      (Cert.DeepFM.fo fun f d => P0 (ix3 r f d)) k) 0 * P11 (ix2 k (0 : Fin 1))) + P12 (ix1 (0 : Fin 1))
  refine congrArg (· + P12 (ix1 (0 : Fin 1))) (Finset.sum_congr rfl fun k _ => ?_)
  rw [pre_row, eh]
  rfl

end Cert.KernelIdeal.Payload

end
-- ==== Proof.KernelValue.lean ====
/-
  The kernel's result array: from the blocks the grid points write to one function of the arguments.

  The grid has 64 points; point t reads rows 256·t … 256·t + 255 of the input and every weight array whole, and writes
  rows 256·t … 256·t + 255 of the [16384, 1] result. What it writes at row r of its block is the specification's kernel
  value of row 256·t + r of the input, so the result array, whose rows the 64 blocks tile, holds at row i the kernel
  value of row i.
-/
import proofs.«121141_j14594298872614_1_alg».proof.Proof.ValueP
import proofs.«121141_j14594298872614_1_alg».proof.Proof.KernelPayload

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result array as one function of the arrays the launch finds: row i holds the kernel value of row i of the input. -/
def G (c : Dev nD) : S16384x1.Idx → EReal := fun i =>
  Cert.DeepFM.outK (V m c main_arg1) (V m c main_arg2) (V m c main_arg3) (V m c main_arg4) (V m c main_arg5)
    (V m c main_arg6) (V m c main_arg8) (V m c main_arg9) (V m c main_arg10) (V m c main_v0) (V m c main_v2) (V m c main_v8)
    (fun f d => V m c main_arg0 (ix3 (⟨(i 0).val, (i 0).isLt⟩ : Fin 16384) f d))

/-- What the body leaves in the output block is the function E13 of the input blocks. -/
theorem out_eq (x0 : Vec Ideal S256x64x32 .f32) (x1 : Vec Ideal S2048x256 .f32) (x2 : Vec Ideal S256 .f32)
    (x3 : Vec Ideal S256x256 .f32) (x4 : Vec Ideal S256 .f32) (x5 : Vec Ideal S256x128 .f32) (x6 : Vec Ideal S128 .f32)
    (x7 : Vec Ideal S128x256 .f32) (x8 : Vec Ideal S32x256 .f32) (x9 : Vec Ideal S4096x256 .f32) (x10 : Vec Ideal S256 .f32)
    (x11 : Vec Ideal S256x1 .f32) (x12 : Vec Ideal S1 .f32) :
    out0_13 x0 x1 x2 x3 x4 x5 x6 x7 x8 x9 x10 x11 x12 = ValueP.E13 x0 x1 x2 x3 x4 x5 x6 x7 x8 x9 x10 x11 x12 := by
  unfold out0_13
  simp only [View.ld_unit_zero (S := S256x64x32) hz3, View.ld_unit_zero (S := S2048x256) hz2, View.ld_unit_zero (S := S256) hz1,
    View.ld_unit_zero (S := S256x256) hz2, View.ld_unit_zero (S := S256x128) hz2, View.ld_unit_zero (S := S128) hz1,
    View.ld_unit_zero (S := S128x256) hz2, View.ld_unit_zero (S := S32x256) hz2, View.ld_unit_zero (S := S4096x256) hz2,
    View.ld_unit_zero (S := S256x1) hz2, View.ld_unit_zero (S := S1) hz1]
  funext y
  exact ValueP.canon13_eq x0 x1 x2 x3 x4 x5 x6 x7 x8 x9 x10 x11 x12 y

/-- The printed index maps over the grid: the input and the result move by one block of rows per point, every weight
    array stays whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = t.val ∧ win0_13.index t (1 : Fin 2) = 0 :=
  (by decide +kernel : ∀ t : Fin grid0.N, _)

/-- A weight window's block is its whole array at every point (window 1: the first perceptron weights). -/
theorem blk1 (c : Dev nD) (t : Fin cfg0.N) : (iblk m c 1 t : S2048x256.Idx → EReal) = V m c main_arg1 := by
  obtain ⟨-, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 256 + 1 * (y 1).val = (y 1).val; omega

/-- The bias windows are rank one (window 2). -/
theorem blk2 (c : Dev nD) (t : Fin cfg0.N) : (iblk m c 2 t : S256.Idx → EReal) = V m c main_arg2 := by
  obtain ⟨-, -, -, -, -, e0, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 1) * 256 + 1 * (y 0).val = (y 0).val; omega

/-- Row r of point t's block is row 256·t + r of the batch. -/
def rowOf (t : Fin cfg0.N) (r : Fin 256) : Fin 16384 :=
  ⟨t.val * 256 + r.val, by have ht : t.val < 64 := t.isLt; have hr := r.isLt; omega⟩

/-- The input window's block at point t holds rows 256·t … of the input. -/
theorem blk0 (c : Dev nD) (t : Fin cfg0.N) (r : Fin 256) (f : Fin 64) (d : Fin 32) :
    iblk m c 0 t (ix3 r f d) = V m c main_arg0 (ix3 (rowOf t r) f d) := by
  obtain ⟨e0, e1, e2, -⟩ := idx_facts t
  show V m c main_arg0 (((cfg0.win 0).blk t).view.emb (ix3 r f d)) = _
  refine congrArg _ (funext fun a => Fin.ext ?_)
  match a with
  | ⟨0, _⟩ => show win0_0.index t (0 : Fin 3) * 256 + 1 * r.val = t.val * 256 + r.val; omega
  | ⟨1, _⟩ => show win0_0.index t (1 : Fin 3) * 64 + 1 * f.val = f.val; omega
  | ⟨2, _⟩ => show win0_0.index t (2 : Fin 3) * 32 + 1 * d.val = d.val; omega

/-! The other weight windows: each block index is zero at every point (decided over the 64 points), so each block is
    its whole array. The arrays the launch finds are kept as named values throughout: nothing here opens them. -/

theorem idx3 : ∀ t : Fin cfg0.N, win0_3.index t (0 : Fin 2) = 0 ∧ win0_3.index t (1 : Fin 2) = 0 :=
  (by decide +kernel : ∀ t : Fin grid0.N, _)
theorem blk3 (c : Dev nD) (t : Fin cfg0.N) : (iblk m c 3 t : S256x256.Idx → EReal) = V m c main_arg3 := by
  obtain ⟨e0, e1⟩ := idx3 t
  funext y
  show V m c main_arg3 (((cfg0.win 3).blk t).view.emb y) = V m c main_arg3 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

theorem idx4 : ∀ t : Fin cfg0.N, win0_4.index t (0 : Fin 1) = 0 := (by decide +kernel : ∀ t : Fin grid0.N, _)
theorem blk4 (c : Dev nD) (t : Fin cfg0.N) : (iblk m c 4 t : S256.Idx → EReal) = V m c main_arg4 := by
  have e0 := idx4 t
  funext y
  show V m c main_arg4 (((cfg0.win 4).blk t).view.emb y) = V m c main_arg4 y
  refine congrArg _ (funext fun a => Fin.ext ?_)
  match a with
  | ⟨0, _⟩ => show win0_4.index t (0 : Fin 1) * 256 + 1 * (y 0).val = (y 0).val; omega

theorem idx5 : ∀ t : Fin cfg0.N, win0_5.index t (0 : Fin 2) = 0 ∧ win0_5.index t (1 : Fin 2) = 0 :=
  (by decide +kernel : ∀ t : Fin grid0.N, _)
theorem blk5 (c : Dev nD) (t : Fin cfg0.N) : (iblk m c 5 t : S256x128.Idx → EReal) = V m c main_arg5 := by
  obtain ⟨e0, e1⟩ := idx5 t
  funext y
  show V m c main_arg5 (((cfg0.win 5).blk t).view.emb y) = V m c main_arg5 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem idx6 : ∀ t : Fin cfg0.N, win0_6.index t (0 : Fin 1) = 0 := (by decide +kernel : ∀ t : Fin grid0.N, _)
theorem blk6 (c : Dev nD) (t : Fin cfg0.N) : (iblk m c 6 t : S128.Idx → EReal) = V m c main_arg6 := by
  have e0 := idx6 t
  funext y
  show V m c main_arg6 (((cfg0.win 6).blk t).view.emb y) = V m c main_arg6 y
  refine congrArg _ (funext fun a => Fin.ext ?_)
  match a with
  | ⟨0, _⟩ => show win0_6.index t (0 : Fin 1) * 128 + 1 * (y 0).val = (y 0).val; omega

/-- Window 7 stages rows 0–127 of the head's first-layer weights, prepared before the launch. -/
theorem idx7 : ∀ t : Fin cfg0.N, win0_7.index t (0 : Fin 2) = 0 ∧ win0_7.index t (1 : Fin 2) = 0 :=
  (by decide +kernel : ∀ t : Fin grid0.N, _)
theorem blk7 (c : Dev nD) (t : Fin cfg0.N) : (iblk m c 7 t : S128x256.Idx → EReal) = V m c main_v0 := by
  obtain ⟨e0, e1⟩ := idx7 t
  funext y
  show V m c main_v0 (((cfg0.win 7).blk t).view.emb y) = V m c main_v0 y
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 256 + 1 * (y 1).val = (y 1).val; omega

/-- Window 8 stages rows 2144–2175 of those weights. -/
theorem idx8 : ∀ t : Fin cfg0.N, win0_8.index t (0 : Fin 2) = 0 ∧ win0_8.index t (1 : Fin 2) = 0 :=
  (by decide +kernel : ∀ t : Fin grid0.N, _)
theorem blk8 (c : Dev nD) (t : Fin cfg0.N) : (iblk m c 8 t : S32x256.Idx → EReal) = V m c main_v2 := by
  obtain ⟨e0, e1⟩ := idx8 t
  funext y
  show V m c main_v2 (((cfg0.win 8).blk t).view.emb y) = V m c main_v2 y
  refine congrArg _ (funext fun a => Fin.ext ?_)
  match a with
  | ⟨0, _⟩ => show win0_8.index t (0 : Fin 2) * 32 + 1 * (y 0).val = (y 0).val; omega
  | ⟨1, _⟩ => show win0_8.index t (1 : Fin 2) * 256 + 1 * (y 1).val = (y 1).val; omega

/-- Window 9 stages the 4096-row matrix that holds the pair rows at their flat positions. Its array is the result of a
    scatter; it is handled as an unnamed array X so that nothing ever looks inside it. -/
theorem idx9 : ∀ t : Fin cfg0.N, win0_9.index t (0 : Fin 2) = 0 ∧ win0_9.index t (1 : Fin 2) = 0 :=
  (by decide +kernel : ∀ t : Fin grid0.N, _)

/-- Any array read through window 9's block is the array. -/
theorem read9 (t : Fin cfg0.N) (X : S4096x256.Idx → EReal) :
    ((cfg0.win 9).blk t).view.read (Elt Ideal) X = X := by
  obtain ⟨e0, e1⟩ := idx9 t
  funext y
  show X (((cfg0.win 9).blk t).view.emb y) = X y
  refine congrArg X (funext fun a => Fin.ext ?_)
  match a with
  | ⟨0, _⟩ => show win0_9.index t (0 : Fin 2) * 4096 + 1 * (y 0).val = (y 0).val; omega
  | ⟨1, _⟩ => show win0_9.index t (1 : Fin 2) * 256 + 1 * (y 1).val = (y 1).val; omega

/-- Window 9's array is the buffer the scatter wrote: the same name, so the same value. -/
theorem arr9 (c : Dev nD) :
    (V m c (Pipeline.arrRef spec0 9) : S4096x256.Idx → EReal) = (V m c main_v8 : S4096x256.Idx → EReal) :=
  eq_of_heq (congr_arg_heq (fun b : Ref sig .tc => V m c b) (rfl : Pipeline.arrRef spec0 9 = main_v8))

theorem blk9 (c : Dev nD) (t : Fin cfg0.N) : (iblk m c 9 t : S4096x256.Idx → EReal) = V m c main_v8 := by
  refine Eq.trans ?_ (arr9 m c)
  unfold iblk
  exact read9 t _

theorem idx10 : ∀ t : Fin cfg0.N, win0_10.index t (0 : Fin 1) = 0 := (by decide +kernel : ∀ t : Fin grid0.N, _)
theorem blk10 (c : Dev nD) (t : Fin cfg0.N) : (iblk m c 10 t : S256.Idx → EReal) = V m c main_arg8 := by
  have e0 := idx10 t
  funext y
  show V m c main_arg8 (((cfg0.win 10).blk t).view.emb y) = V m c main_arg8 y
  refine congrArg _ (funext fun a => Fin.ext ?_)
  match a with
  | ⟨0, _⟩ => show win0_10.index t (0 : Fin 1) * 256 + 1 * (y 0).val = (y 0).val; omega

theorem idx11 : ∀ t : Fin cfg0.N, win0_11.index t (0 : Fin 2) = 0 ∧ win0_11.index t (1 : Fin 2) = 0 :=
  (by decide +kernel : ∀ t : Fin grid0.N, _)
theorem blk11 (c : Dev nD) (t : Fin cfg0.N) : (iblk m c 11 t : S256x1.Idx → EReal) = V m c main_arg9 := by
  obtain ⟨e0, e1⟩ := idx11 t
  funext y
  show V m c main_arg9 (((cfg0.win 11).blk t).view.emb y) = V m c main_arg9 y
  refine congrArg _ (funext fun a => Fin.ext ?_)
  match a with
  | ⟨0, _⟩ => show win0_11.index t (0 : Fin 2) * 256 + 1 * (y 0).val = (y 0).val; omega
  | ⟨1, _⟩ => show win0_11.index t (1 : Fin 2) * 1 + 1 * (y 1).val = (y 1).val; omega

theorem idx12 : ∀ t : Fin cfg0.N, win0_12.index t (0 : Fin 1) = 0 := (by decide +kernel : ∀ t : Fin grid0.N, _)
theorem blk12 (c : Dev nD) (t : Fin cfg0.N) : (iblk m c 12 t : S1.Idx → EReal) = V m c main_arg10 := by
  have e0 := idx12 t
  funext y
  show V m c main_arg10 (((cfg0.win 12).blk t).view.emb y) = V m c main_arg10 y
  refine congrArg _ (funext fun a => Fin.ext ?_)
  match a with
  | ⟨0, _⟩ => show win0_12.index t (0 : Fin 1) * 1 + 1 * (y 0).val = (y 0).val; omega

/-- Row r of what point t writes: the kernel value of row 256·t + r of the input, stated over the blocks as the
    launch finds them. -/
theorem row_eq (c : Dev nD) (t : Fin cfg0.N) (r : Fin 256) :
    ValueP.E13 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (ix2 r (0 : Fin 1))
      = Cert.DeepFM.outK (V m c main_arg1) (V m c main_arg2) (V m c main_arg3) (V m c main_arg4) (V m c main_arg5)
          (V m c main_arg6) (V m c main_arg8) (V m c main_arg9) (V m c main_arg10) (V m c main_v0) (V m c main_v2) (V m c main_v8)
          (fun f d => V m c main_arg0 (ix3 (rowOf t r) f d)) := by
  refine (Payload.E13_eq (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) r).trans ?_
  rw [blk1 m c t, blk2 m c t, blk3 m c t, blk4 m c t, blk5 m c t, blk6 m c t, blk7 m c t, blk8 m c t, blk9 m c t,
    blk10 m c t, blk11 m c t, blk12 m c t]
  refine congrArg _ (funext fun f => funext fun d => ?_)
  exact blk0 m c t r f d

/-- WHAT POINT t WRITES BACK is block t of the result function G. -/
theorem flushed13_eq (c : Dev nD) (t : Fin cfg0.N) :
    (dats m 0 c).flushed 13 t = ((cfg0.win 13).blk t).view.read (Elt Ideal) (G m c) := by
  rw [ValueP.flushed13, out_eq]
  obtain ⟨-, -, -, -, -, -, -, -, -, -, -, -, -, -, -, -, -, -, -, -, -, -, e0, e1⟩ := idx_facts t
  funext j
  have hj0 : (j 0).val < 256 := (j 0).isLt
  have hj1 : (j 1).val < 1 := (j 1).isLt
  have ht : t.val < 64 := t.isLt
  have hjr : j = ix2 (⟨(j 0).val, hj0⟩ : Fin 256) (0 : Fin 1) := by
    funext a; apply Fin.ext
    match a with
    | ⟨0, _⟩ => rfl
    | ⟨1, _⟩ => show (j 1).val = 0; omega
  show ValueP.E13 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) j
    = G m c (((cfg0.win 13).blk t).view.emb j)
  refine (congrArg _ hjr).trans ((row_eq m c t ⟨(j 0).val, hj0⟩).trans ?_)
  unfold G
  refine congrArg _ (funext fun f => funext fun d => ?_)
  refine congrArg _ (congrArg (fun r => ix3 r f d) (Fin.ext ?_))
  show t.val * 256 + (j 0).val = win0_13.index t (0 : Fin 2) * 256 + 1 * (j 0).val
  omega

/-- An index of the result array is in point t's block iff each coordinate is in the block's range on its axis. -/
theorem mem_blk13 (t : Fin cfg0.N) (i : S16384x1.Idx) :
    i ∈ ((cfg0.win 13).blk t).view.set ↔ ∀ a : Fin 2, win0_13.index t a * S256x1.size a ≤ (i a).val ∧ (i a).val < win0_13.index t a * S256x1.size a + S256x1.size a := by
  show i ∈ ((View.whole main_v9).slice (win0_13.rect t)).set ↔ _
  rw [View.set_slice_whole, Rect.mem_set_unit]
  exact Iff.rfl

/-- Every row of the result lies in the block of the point numbered by its row divided by 256. -/
theorem cover13 (i : S16384x1.Idx) : ∃ t : Fin cfg0.N, (cfg0.win 13).flush t = true ∧ i ∈ ((cfg0.win 13).blk t).view.set := by
  have hi0 : (i 0).val < 16384 := (i 0).isLt
  have hi1 : (i 1).val < 1 := (i 1).isLt
  let t : Fin cfg0.N := ⟨(i 0).val / 256, by show (i 0).val / 256 < 64; omega⟩
  obtain ⟨-, -, -, -, -, -, -, -, -, -, -, -, -, -, -, -, -, -, -, -, -, -, e0, e1⟩ := idx_facts t
  have ht : t.val = (i 0).val / 256 := rfl
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1 ≤ (i 1).val ∧ (i 1).val < win0_13.index t (1 : Fin 2) * 1 + 1; omega

/-- THE RESULT ARRAY after the run is G. -/
theorem final13 (c : Dev nD) : (dats m 0 c).arrAt 13 cfg0.N = G m c :=
  (dats m 0 c).arrAt_eq_of_cover 13 (G m c) (fun t _ => flushed13_eq m c t) cover13

/-- The kernel's run: the result buffer ends at G, the arguments unchanged. -/
theorem run : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final13 m c), (h c).2⟩) (ValueP.run_blocks m ρ)

end Cert.KernelIdeal.KValue

end
-- ==== Proof.TriuTable.lean ====
/-
  The list of flat positions  64 · i + j  of the pairs  i < j  of a 64 × 64 matrix, in row-major order, two ways.

  The kernel's program carries the list as a literal table of 2016 words; the reference computes it: entry  k  is the
  number of positions  p < 4096  whose running count of upper-triangle positions up to and including  p  is at most  k .
  The table is strictly increasing, every entry is an upper-triangle position, and there are exactly 2016 such
  positions; so the table lists the upper-triangle positions in increasing order, the running count at the table's
  k-th entry is  k + 1 , and the positions with running count at most  k  are exactly those below that entry.
-/
import proofs.«121141_j14594298872614_1_alg».proof.KernelIdeal
import Mathlib.Algebra.BigOperators.Group.Finset.Basic
import Mathlib.Algebra.BigOperators.Intervals
import Mathlib.Order.Monotone.Basic
import Mathlib.Order.Fin.Basic
import Mathlib.Data.Fintype.Card
import Mathlib.Order.Interval.Finset.Fin

open scoped BigOperators

namespace Cert.Triu

/-! ## Counting along a strictly increasing table

  A strictly increasing table  K : Fin n → ℕ  and a decidable mark  P  on the naturals. When the marked positions are
  exactly the table's entries, the number of marked positions up to  p  is the number of entries up to  p , and that
  number is at most  k  exactly when  p  lies below entry  k . -/

section General

variable {n : ℕ} {K : Fin n → ℕ} {P : ℕ → Prop} [DecidablePred P]

/-- An injective table of  n  entries, all marked and below  N , when exactly  n  positions below  N  are marked and
no position from  N  on is: the table's image is then a subset of the marked positions with as many elements, hence
all of them, and a position is marked exactly when it is an entry. -/
theorem marked_iff_entry {N : ℕ} (hinj : Function.Injective K) (hP : ∀ k, P (K k)) (hlt : ∀ k, K k < N)
    (hbound : ∀ q, P q → q < N) (hcard : ((Finset.range N).filter P).card = n) (q : ℕ) :
    P q ↔ ∃ k, K k = q := by
  have hsub : Finset.univ.image K ⊆ (Finset.range N).filter P := by
    intro x hx
    obtain ⟨k, -, rfl⟩ := Finset.mem_image.1 hx
    exact Finset.mem_filter.2 ⟨Finset.mem_range.2 (hlt k), hP k⟩
  have heq : Finset.univ.image K = (Finset.range N).filter P :=
    Finset.eq_of_subset_of_card_le hsub (by
      rw [hcard, Finset.card_image_of_injective _ hinj, Finset.card_univ, Fintype.card_fin])
  constructor
  · intro hq
    have : q ∈ Finset.univ.image K := by
      rw [heq]; exact Finset.mem_filter.2 ⟨Finset.mem_range.2 (hbound q hq), hq⟩
    obtain ⟨k, -, hk⟩ := Finset.mem_image.1 this
    exact ⟨k, hk⟩
  · rintro ⟨k, rfl⟩; exact hP k

/-- The marked positions up to  p  are the image, under the injective table, of the entries' indices with
entry at most  p ; so the two sets have the same number of elements. -/
theorem count_eq_entries (hinj : Function.Injective K) (himg : ∀ q, P q ↔ ∃ k, K k = q) (p : ℕ) :
    ((Finset.range (p + 1)).filter P).card = (Finset.univ.filter fun k : Fin n => K k ≤ p).card := by
  rw [← Finset.card_image_of_injective _ hinj]
  congr 1
  ext q
  simp only [Finset.mem_filter, Finset.mem_range, Finset.mem_image, Finset.mem_univ, true_and, himg]
  constructor
  · rintro ⟨hq, k, rfl⟩; exact ⟨k, by omega, rfl⟩
  · rintro ⟨k, hk, rfl⟩; exact ⟨by omega, k, rfl⟩

/-- The count of marked positions up to  p  is at most  k  exactly when  p  lies below the table's entry  k :
if entry  k  is at most  p , so are the  k + 1  entries  0 … k ; if  p  is below entry  k , every entry at most  p
has an index below  k , and there are  k  of those. -/
theorem count_le_iff (hK : StrictMono K) (himg : ∀ q, P q ↔ ∃ k, K k = q) (p : ℕ) (k : Fin n) :
    ((Finset.range (p + 1)).filter P).card ≤ k.val ↔ p < K k := by
  rw [count_eq_entries hK.injective himg]
  constructor
  · intro h
    by_contra hp
    have hp : K k ≤ p := not_lt.1 hp
    have hsub : Finset.Iic k ⊆ Finset.univ.filter fun k' : Fin n => K k' ≤ p := by
      intro k' hk'
      simp only [Finset.mem_filter, Finset.mem_univ, true_and]
      exact le_trans (hK.monotone (Finset.mem_Iic.1 hk')) hp
    have hc := Finset.card_le_card hsub
    rw [Fin.card_Iic] at hc
    omega
  · intro h
    have hsub : (Finset.univ.filter fun k' : Fin n => K k' ≤ p) ⊆ Finset.Iio k := by
      intro k' hk'
      simp only [Finset.mem_filter, Finset.mem_univ, true_and] at hk'
      exact Finset.mem_Iio.2 (hK.lt_iff_lt.1 (lt_of_le_of_lt hk' h))
    have hc := Finset.card_le_card hsub
    rw [Fin.card_Iio] at hc
    exact hc

/-- The positions below  N  with count exactly  k' , counted for each  k' ≤ k  and added up, are the positions below
 N  with count at most  k : those below the table's entry  k , which itself lies below  N . -/
theorem sum_fibres_eq {N : ℕ} (hK : StrictMono K) (himg : ∀ q, P q ↔ ∃ k, K k = q) (hlt : ∀ k, K k < N)
    (k : Fin n) :
    (∑ k' ∈ Finset.range (k.val + 1),
      ((Finset.range N).filter fun p => ((Finset.range (p + 1)).filter P).card = k').card) = K k := by
  rw [Finset.sum_card_fiberwise_eq_card_filter]
  have : ((Finset.range N).filter fun p => ((Finset.range (p + 1)).filter P).card ∈ Finset.range (k.val + 1))
      = Finset.range (K k) := by
    ext p
    simp only [Finset.mem_filter, Finset.mem_range, Nat.lt_succ_iff, count_le_iff hK himg]
    constructor
    · exact fun h => h.2
    · exact fun h => ⟨lt_trans h (hlt k), h⟩
  rw [this, Finset.card_range]

end General

/-! ## The table of the 64 × 64 upper triangle -/

/-- A flat position of the strict upper triangle: its row is less than its column. -/
def up (q : ℕ) : Prop := q / 64 < q % 64

instance : DecidablePred up := fun q => Nat.decLt _ _

/-- The kernel's literal table, as natural numbers. -/
def K (p : Fin 2016) : ℕ := (Cert.KernelIdeal.lit0 p).toNat

/-- The running count of upper-triangle positions among  0 … p . -/
def cN (p : ℕ) : ℕ := ((Finset.range (p + 1)).filter up).card

/-- Every word of the table is below 4096: a finite check of its 2016 entries. -/
private theorem lit_lt : ∀ p : Fin 2016, (Cert.KernelIdeal.lit0 p).toNat < 4096 := by decide +kernel

/-- Every word of the table has its row below its column: a finite check of its 2016 entries. -/
private theorem lit_up :
    ∀ p : Fin 2016, (Cert.KernelIdeal.lit0 p).toNat / 64 < (Cert.KernelIdeal.lit0 p).toNat % 64 := by
  decide +kernel

/-- Each word of the table is less than the next: a finite check of its 2015 neighbouring pairs. -/
private theorem lit_step :
    ∀ i : Fin 2015, (Cert.KernelIdeal.lit0 i.castSucc).toNat < (Cert.KernelIdeal.lit0 i.succ).toNat := by
  decide +kernel

/-- Of the 4096 flat positions, 2016 = 63 + 62 + … + 0 lie in the strict upper triangle: a finite count. -/
private theorem card_up : ((Finset.range 4096).filter up).card = 2016 := by decide +kernel

/-- An upper-triangle position is below 4096: its row is less than its column, which is less than 64. -/
private theorem up_lt (q : ℕ) (h : up q) : q < 4096 := by
  unfold up at h; omega

theorem K_lt (p : Fin 2016) : K p < 4096 := lit_lt p

theorem K_up (p : Fin 2016) : up (K p) := lit_up p

theorem K_strictMono : StrictMono K := Fin.strictMono_iff_lt_succ.2 lit_step

theorem K_injective : Function.Injective K := K_strictMono.injective

/-- A position is in the upper triangle exactly when it is an entry of the table. -/
theorem up_iff_entry (q : ℕ) : up q ↔ ∃ k, K k = q :=
  marked_iff_entry K_injective K_up K_lt up_lt card_up q

/-- The running count never exceeds 2016: every upper-triangle position lies below 4096, and 2016 of those do. -/
theorem cN_le (p : ℕ) : cN p ≤ 2016 := by
  rw [← card_up]
  apply Finset.card_le_card
  intro q hq
  have hq := Finset.mem_filter.1 hq
  exact Finset.mem_filter.2 ⟨Finset.mem_range.2 (up_lt q hq.2), hq.2⟩

/-- The running count at  p  is at most  k  exactly when  p  lies below the table's entry  k . -/
theorem cN_le_iff (p : ℕ) (k : Fin 2016) : cN p ≤ k.val ↔ p < K k :=
  count_le_iff K_strictMono up_iff_entry p k

/-- How many positions below 4096 carry the running count  k' , summed over  k' ≤ k : the table's entry  k . -/
theorem flat_eq (k : Fin 2016) :
    (∑ k' ∈ Finset.range (k.val + 1), ((Finset.range 4096).filter fun p => cN p = k').card) = K k :=
  sum_fibres_eq K_strictMono up_iff_entry K_lt k

/-- The row of the table's entry. -/
def iu (p : Fin 2016) : Fin 64 := ⟨K p / 64, by have := K_lt p; omega⟩
/-- The column of the table's entry. -/
def ju (p : Fin 2016) : Fin 64 := ⟨K p % 64, Nat.mod_lt _ (by decide)⟩

end Cert.Triu
-- ==== Proof.LibScatterSet.lean ====
/-
  The overwriting scatter read at one element — for ANY scatter dimension numbers.

  StableHLO's scatter with the body that returns the update ( x.at[idx].set(v) ) is a left fold over the update indices
  in row-major order: each update index either lands on one element of the operand, which it overwrites, or lands
  nowhere and is dropped. Read at ONE element i the fold is simple whenever at most one update index lands on i:
  if update index j0 lands on i and no other does, the result at i is the update at j0, whatever came before and
  whatever comes after; if no update index lands on i, the result at i is the operand's element.

  Both facts come from two lemmas on a left fold over a list with an ABSTRACT step: a step that leaves the value at i
  alone for every member of the list leaves the fold's value at i alone; and if exactly one member n0 of a list without
  repetitions sets the value at i to v (whatever it was), every other member leaving it alone, the fold's value at i is v.
  Library imports only.
-/
import Idealize.ShloMosaic.PureOps

noncomputable section

namespace Cert.ScatterSet

open Idealize.ShloMosaic

section Fold

variable {ι γ β : Type}

/-- A left fold whose every step leaves the value at i alone leaves it alone. -/
theorem foldl_untouched (F : (γ → β) → ι → (γ → β)) (i : γ) :
    ∀ (l : List ι) (r : γ → β), (∀ n ∈ l, ∀ r', F r' n i = r' i) → l.foldl F r i = r i
  | [], _, _ => rfl
  | n :: l, r, h => by
    rw [List.foldl_cons, foldl_untouched F i l (F r n) (fun m hm => h m (List.mem_cons_of_mem _ hm))]
    exact h n List.mem_cons_self r

/-- A left fold over a list without repetitions in which ONE member n0 sets the value at i to v, whatever it was, and
    every other member leaves it alone: the fold's value at i is v. -/
theorem foldl_set_once (F : (γ → β) → ι → (γ → β)) (i : γ) (l : List ι) (hnd : l.Nodup) (n0 : ι) (hn0 : n0 ∈ l)
    (v : β) (r : γ → β) (hmiss : ∀ n ∈ l, n ≠ n0 → ∀ r', F r' n i = r' i) (hhit : ∀ r', F r' n0 i = v) :
    l.foldl F r i = v := by
  obtain ⟨l1, l2, rfl⟩ := List.append_of_mem hn0
  -- n0 does not occur again after its place
  have hn2 : n0 ∉ l2 := by
    have h2 := (List.nodup_append.mp hnd).2.1
    exact (List.nodup_cons.mp h2).1
  rw [List.foldl_append, List.foldl_cons,
    foldl_untouched F i l2 _ (fun m hm => hmiss m (List.mem_append_right _ (List.mem_cons_of_mem _ hm))
      (fun e => hn2 (e ▸ hm)))]
  exact hhit _

end Fold

variable {s si u : Shape} {α : Type} {w : Nat}

/-- THE OVERWRITING SCATTER AT AN ELEMENT ONE UPDATE LANDS ON: if update index j0 lands on i and no other update index
    does, the result at i is the update at j0. -/
theorem scatter_set_at_of_lands (d : ScatterDims s si u) (x : s.Idx → α) (idx : IVec si w) (upd : u.Idx → α)
    (i : s.Idx) (j0 : u.Idx) (h0 : d.resultIdx? j0 idx = some i)
    (huniq : ∀ j, d.resultIdx? j idx = some i → j = j0) :
    Host.scatter d (fun _ b => b) x idx upd i = upd j0 := by
  unfold Host.scatter
  refine foldl_set_once _ i _ (List.nodup_finRange _) (u.rowMajor j0) (List.mem_finRange _) (upd j0) x ?_ ?_
  · intro n _ hn r'
    generalize h1 : d.resultIdx? (u.rowMajor.symm n) idx = o
    cases o with
    | none => rfl
    | some i1 =>
      -- another update index lands on i1, which is therefore not i
      have hne : i ≠ i1 := by
        intro e
        have := huniq (u.rowMajor.symm n) (e ▸ h1)
        exact hn (by rw [← this, Equiv.apply_symm_apply])
      exact if_neg hne
  · intro r'
    rw [Equiv.symm_apply_apply, h0]
    exact if_pos rfl

/-- THE OVERWRITING SCATTER AT AN ELEMENT NO UPDATE LANDS ON: the operand's element. -/
theorem scatter_set_at_of_no_lands (d : ScatterDims s si u) (x : s.Idx → α) (idx : IVec si w) (upd : u.Idx → α)
    (i : s.Idx) (hno : ∀ j, d.resultIdx? j idx ≠ some i) :
    Host.scatter d (fun _ b => b) x idx upd i = x i := by
  unfold Host.scatter
  refine foldl_untouched _ i _ x ?_
  intro n _ r'
  generalize h1 : d.resultIdx? (u.rowMajor.symm n) idx = o
  cases o with
  | none => rfl
  | some i1 =>
    have hne : i ≠ i1 := fun e => hno (u.rowMajor.symm n) (e ▸ h1)
    exact if_neg hne

end Cert.ScatterSet

end
-- ==== Proof.LibScatterLanding.lean ====
/-
  Where an accumulating or overwriting scatter's update lands — for ANY scatter dimension numbers.

  StableHLO's scatter drops an update unless its result index (the start index read as a SIGNED integer and NOT clamped,
  plus the update's window coordinate) names an element of the operand. So "update j lands on element i" says exactly
  that, on every operand axis, the signed start plus the window coordinate IS i's coordinate — whatever the index words
  are, in range or not: an out-of-range update simply lands nowhere. With it, the accumulating scatter at an element is
  the operand there plus the sum of the updates that land there, the landing test a decidable equation between integers.
  Library imports only.
-/
import Idealize.ShloMosaic.PureOps.Ideal

noncomputable section

namespace Cert.Sage

open Idealize.ShloMosaic

/-- An update lands on element i exactly when, on every axis, its signed start plus its window coordinate is i's
    coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    by_cases hr : ∀ a, 0 ≤ d.start j idx a + d.window j a ∧ d.start j idx a + d.window j a < s.size a
    · rw [dif_pos hr] at h
      -- the landing index is the start plus the window coordinate, which is non-negative here
      have hv : (d.start j idx a + (d.window j a : Int)).toNat = (i a).val :=
        congrArg Fin.val (congrFun (Option.some.inj h) a)
      have h0 := (hr a).1
      omega
    · rw [dif_neg hr] at h
      exact absurd h (by simp)
  · intro h
    -- the equations put every coordinate in range, because every coordinate of i is in range
    have hr : ∀ a, 0 ≤ d.start j idx a + d.window j a ∧ d.start j idx a + d.window j a < s.size a := by
      intro a
      have h1 := h a
      have h2 := (i a).isLt
      omega
    rw [dif_pos hr]
    refine congrArg some ?_
    funext a
    refine Fin.ext ?_
    show (d.start j idx a + (d.window j a : Int)).toNat = (i a).val
    have h1 := h a
    omega

/-- The accumulating float scatter read at an element, on the extended reals: the operand there plus every update that
    lands there. -/
theorem scatterAdd_at {s si u : Shape} {w : Nat} (d : ScatterDims s si u) (x : s.Idx → EReal) (idx : IVec si w)
    (upd : u.Idx → EReal) (i : s.Idx) :
    Host.scatterAdd (F := Ideal) (φ := .f32) d x idx upd i
      = x i + ∑ j ∈ Finset.univ.filter (fun j => d.resultIdx? j idx = some i), upd j := rfl

end Cert.Sage

end
-- ==== Proof.LibGatherKeepAxis0.lean ====
/- A gather that keeps the operand's leading axis whole and picks one entry on the two trailing axes through a table
   of index pairs, read at one element of the result.

   The operand is an [R, A, B] array, the start indices an [n, 2] table whose row p holds a pair of index words, the
   result an [R, n] array. Operand axes 1 and 2 are collapsed and start-indexed (slice sizes R × 1 × 1), operand axis 0
   is the one offset axis and becomes result axis 0, the table's axis 0 is the one batch axis and becomes result axis 1,
   and the index vector lies along the table's axis 1. This is what `x[:, I, J]` of a rank-3 array at two integer
   vectors I, J of length n lowers to.

   Element (r, p) of the result is the operand at (r, i, j), where i and j are the two words of row p of the table,
   read as signed integers and clamped into [0, A − 1] and [0, B − 1] (`gather_keep0_apply`). Beside it: a vector
   laid out as an [n, 1] column holds at (p, 0) the vector's entry p (`col_of_vec`). -/
import Idealize.ShloMosaic.Lib.ValueIdx

noncomputable section

namespace Cert.LibGatherKeepAxis0

open Idealize.ShloMosaic Idealize.ShloMosaic.ValueIdx

/-- The dimension numbers described above, for an operand [R, A, B], a table [n, 2] and a result [R, n]; their
    conditions are decided on a program's literal shapes. -/
abbrev keep0Dims (R A B n : Nat)
    (wf : GatherDims.WF ⟨3, ![R, A, B]⟩ ⟨2, ![n, 2]⟩ ⟨2, ![R, n]⟩ [0] [1, 2] [] [1, 2] [] 1 ![R, 1, 1]) :
    GatherDims ⟨3, ![R, A, B]⟩ ⟨2, ![n, 2]⟩ ⟨2, ![R, n]⟩ where
  offsetDims := [0]
  collapsedSliceDims := [1, 2]
  operandBatchingDims := []
  startIndicesBatchingDims := []
  startIndexMap := [1, 2]
  indexVectorDim := 1
  sliceSizes := ![R, 1, 1]
  wf := wf

/-- Element (r, p) of the gather: the operand at row r and at the clamped signed readings of the two words of the
    table's row p. -/
theorem gather_keep0_apply {α : Type} {R A B n w : Nat} (hA : 0 < A) (hB : 0 < B)
    (wf : GatherDims.WF ⟨3, ![R, A, B]⟩ ⟨2, ![n, 2]⟩ ⟨2, ![R, n]⟩ [0] [1, 2] [] [1, 2] [] 1 ![R, 1, 1])
    (x : (⟨3, ![R, A, B]⟩ : Shape).Idx → α) (idx : IVec ⟨2, ![n, 2]⟩ w) (r : Fin R) (p : Fin n) :
    Host.gather (keep0Dims R A B n wf) x idx (ix2 r p)
      = x (ix3 r (⟨min (idx (ix2 p (0 : Fin 2))).toInt.toNat (A - 1), by omega⟩ : Fin A)
                 (⟨min (idx (ix2 p (1 : Fin 2))).toInt.toNat (B - 1), by omega⟩ : Fin B)) := by
  unfold Host.gather
  congr 1
  funext a
  refine Fin.ext ?_
  -- the start-indices index of component c of the start index of result element (r, p) is (p, c)
  have hsi : ∀ (k : Fin 2) (c : Fin (keep0Dims R A B n wf).startIndexMap.length), c.val = k.val →
      (keep0Dims R A B n wf).siIdx (ix2 r p) c = ix2 p k := by
    intro k c hc
    funext b
    refine Fin.ext ?_
    match b with
    | ⟨0, _⟩ => rfl
    | ⟨1, _⟩ => exact hc
  match a with
  | ⟨0, _⟩ =>
    -- the kept axis: no start, no batching, the result's coordinate on its offset axis
    show (keep0Dims R A B n wf).start (ix2 r p) idx 0 + (keep0Dims R A B n wf).batchCoord (ix2 r p) 0
      + (keep0Dims R A B n wf).offCoord (ix2 r p) 0 = r.val
    rw [GatherDims.batchCoord_eq_zero _ _ _ List.not_mem_nil]
    unfold GatherDims.start
    rw [dif_neg (by show (0 : Fin 3) ∉ ([1, 2] : List (Fin 3)); decide)]
    simp only [Nat.add_zero, Nat.zero_add]
    unfold GatherDims.offCoord
    rw [dif_pos ((GatherDims.mem_sKept _ _).mpr
      ⟨by show (0 : Fin 3) ∉ ([1, 2] : List (Fin 3)); decide, List.not_mem_nil⟩)]
    rfl
  | ⟨1, _⟩ =>
    show (keep0Dims R A B n wf).start (ix2 r p) idx 1 + (keep0Dims R A B n wf).batchCoord (ix2 r p) 1
      + (keep0Dims R A B n wf).offCoord (ix2 r p) 1 = min (idx (ix2 p (0 : Fin 2))).toInt.toNat (A - 1)
    rw [GatherDims.batchCoord_eq_zero _ _ _ List.not_mem_nil,
      GatherDims.offCoord_eq_zero _ _ _ (fun h => ((GatherDims.mem_sKept _ _).mp h).1
        (by show (1 : Fin 3) ∈ ([1, 2] : List (Fin 3)); decide))]
    simp only [Nat.add_zero]
    unfold GatherDims.start
    have hm : (1 : Fin 3) ∈ ([1, 2] : List (Fin 3)) := by decide
    rw [dif_pos (show (1 : Fin 3) ∈ (keep0Dims R A B n wf).startIndexMap from hm)]
    rw [hsi (0 : Fin 2) ⟨List.idxOf (1 : Fin 3) (keep0Dims R A B n wf).startIndexMap, List.idxOf_lt_length_iff.2 hm⟩ rfl]
    rfl
  | ⟨2, _⟩ =>
    show (keep0Dims R A B n wf).start (ix2 r p) idx 2 + (keep0Dims R A B n wf).batchCoord (ix2 r p) 2
      + (keep0Dims R A B n wf).offCoord (ix2 r p) 2 = min (idx (ix2 p (1 : Fin 2))).toInt.toNat (B - 1)
    rw [GatherDims.batchCoord_eq_zero _ _ _ List.not_mem_nil,
      GatherDims.offCoord_eq_zero _ _ _ (fun h => ((GatherDims.mem_sKept _ _).mp h).1
        (by show (2 : Fin 3) ∈ ([1, 2] : List (Fin 3)); decide))]
    simp only [Nat.add_zero]
    unfold GatherDims.start
    have hm : (2 : Fin 3) ∈ ([1, 2] : List (Fin 3)) := by decide
    rw [dif_pos (show (2 : Fin 3) ∈ (keep0Dims R A B n wf).startIndexMap from hm)]
    rw [hsi (1 : Fin 2) ⟨List.idxOf (2 : Fin 3) (keep0Dims R A B n wf).startIndexMap, List.idxOf_lt_length_iff.2 hm⟩ rfl]
    rfl

/-- A vector laid out as an [n, 1] column reads, at (p, 0), the vector at p. -/
theorem col_of_vec {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

end Cert.LibGatherKeepAxis0

end
-- ==== Proof.KernelHost.lean ====
/-
  The three weight pieces the kernel's program prepares before its launch, read at an entry.

  Two of them are row slices of the first-layer weights. The third is a matrix of 4096 rows, all zero but for 2016 of
  them: row p of the middle slice (rows 128 … 2143 of the weights) is written over row K p of the zeros, K the strictly
  increasing list of upper-triangle positions. Read at one entry, a scatter of whole rows is decided by which rows'
  index words name the entry's row: the list is injective, so row K p receives row p of the slice and nothing else, and
  a row the list misses keeps its zeros.
-/
import proofs.«121141_j14594298872614_1_alg».proof.Proof.Gen.KernelIdeal.Frame
import proofs.«121141_j14594298872614_1_alg».proof.Proof.TriuTable
import proofs.«121141_j14594298872614_1_alg».proof.Proof.LibScatterSet
import proofs.«121141_j14594298872614_1_alg».proof.Proof.LibScatterLanding
import proofs.«121141_j14594298872614_1_alg».proof.Proof.LibGatherKeepAxis0
import Idealize.ShloMosaic.Lib.ValueIdx
import Idealize.ShloMosaic.Lib.StableHlo.Run
import Idealize.ShloMosaic.Lib.Pipeline.Value
import Idealize.ShloMosaic.Lib.IdealHost

noncomputable section

namespace Cert.KernelIdeal.HostVal

open Cert.KernelIdeal Cert.KernelIdeal.Gen Idealize.ShloMosaic Idealize.ShloMosaic.TcCoe Idealize.SL.Sem Idealize.ShloMosaic.ValueIdx

/-! ## A scatter of whole rows, for any sizes -/

section Rows
variable {α : Type} {N n C w : Nat}

/-- Dimension numbers of a scatter of whole rows: operand [N, C], index words an [n, 1] column, updates [n, C]; the
    updates' axis 1 is the window axis, operand axis 0 is inserted and is the one the index word addresses. -/
abbrev rowDims (N n C : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

variable (wf : ScatterDims.WF ⟨2, ![N, C]⟩ ⟨2, ![n, 1]⟩ ⟨2, ![n, C]⟩ [1] [0] [0] 1)

/-- On the row axis an update's start is the signed reading of its row's index word. -/
theorem rowDims_start0 (idx : IVec ⟨2, ![n, 1]⟩ w) (p : Fin n) (j : Fin C) :
    (rowDims N n C wf).start (ix2 p j) idx 0 = (idx (ix2 p (0 : Fin 1))).toInt := by
  unfold ScatterDims.start
  have hm : (0 : Fin 2) ∈ ([0] : List (Fin 2)) := by decide
  rw [dif_pos (show (0 : Fin 2) ∈ (rowDims N n C wf).scatterDimsToOperandDims from hm)]
  congr 2
  funext b
  refine Fin.ext ?_
  match b with
  | ⟨0, _⟩ => rfl
  | ⟨1, _⟩ => rfl

/-- On the column axis there is no start. -/
theorem rowDims_start1 (idx : IVec ⟨2, ![n, 1]⟩ w) (p : Fin n) (j : Fin C) :
    (rowDims N n C wf).start (ix2 p j) idx 1 = 0 := by
  unfold ScatterDims.start
  rw [dif_neg (by show (1 : Fin 2) ∉ ([0] : List (Fin 2)); decide)]

/-- The row axis is inserted: it has no window coordinate. -/
theorem rowDims_window0 (p : Fin n) (j : Fin C) : (rowDims N n C wf).window (ix2 p j) 0 = 0 := by
  unfold ScatterDims.window
  rw [dif_neg (by show (0 : Fin 2) ∉ (List.finRange 2).filter (· ∉ ([0] : List (Fin 2))); decide)]

/-- The column axis carries the update's column. -/
theorem rowDims_window1 (p : Fin n) (j : Fin C) : (rowDims N n C wf).window (ix2 p j) 1 = j.val := by
  unfold ScatterDims.window
  have hm : (1 : Fin 2) ∈ (rowDims N n C wf).sKept := by
    show (1 : Fin 2) ∈ (List.finRange 2).filter (· ∉ ([0] : List (Fin 2))); decide
  rw [dif_pos hm]
  rfl

/-- Update (p, j) lands on element (q, j') exactly when the signed index word of row p is q and j = j'. -/
theorem rowDims_lands_iff (idx : IVec ⟨2, ![n, 1]⟩ w) (p : Fin n) (j : Fin C) (q : Fin N) (j' : Fin C) :
    (rowDims N n C wf).resultIdx? (ix2 p j) idx = some (ix2 q j')
      ↔ (idx (ix2 p (0 : Fin 1))).toInt = (q.val : Int) ∧ j = j' := by
  rw [Cert.Sage.resultIdx?_eq_some_iff]
  constructor
  · intro h
    have h0 := h 0
    have h1 := h 1
    rw [rowDims_start0, rowDims_window0] at h0
    rw [rowDims_start1, rowDims_window1] at h1
    refine ⟨?_, Fin.ext ?_⟩
    · have : ((ix2 q j' : (⟨2, ![N, C]⟩ : Shape).Idx) 0).val = q.val := rfl
      rw [this] at h0; omega
    · have : ((ix2 q j' : (⟨2, ![N, C]⟩ : Shape).Idx) 1).val = j'.val := rfl
      rw [this] at h1; omega
  · rintro ⟨h0, rfl⟩ a
    match a with
    | ⟨0, _⟩ =>
      show (rowDims N n C wf).start (ix2 p j) idx 0 + ((rowDims N n C wf).window (ix2 p j) 0 : Int) = (q.val : Int)
      rw [rowDims_start0, rowDims_window0, h0]; simp
    | ⟨1, _⟩ =>
      show (rowDims N n C wf).start (ix2 p j) idx 1 + ((rowDims N n C wf).window (ix2 p j) 1 : Int) = (j.val : Int)
      rw [rowDims_start1, rowDims_window1]; simp

/-- THE ROW SCATTER AT A ROW ONE INDEX WORD NAMES: if row p's signed index word is q and no other row's is, row q of the
    result is row p of the updates. -/
theorem rowScatter_hit (x : (⟨2, ![N, C]⟩ : Shape).Idx → α) (idx : IVec ⟨2, ![n, 1]⟩ w)
    (upd : (⟨2, ![n, C]⟩ : Shape).Idx → α) (p : Fin n) (q : Fin N) (j : Fin C)
    (hp : (idx (ix2 p (0 : Fin 1))).toInt = (q.val : Int))
    (huniq : ∀ p' : Fin n, (idx (ix2 p' (0 : Fin 1))).toInt = (q.val : Int) → p' = p) :
    Host.scatter (rowDims N n C wf) (fun _ b => b) x idx upd (ix2 q j) = upd (ix2 p j) := by
  refine Cert.ScatterSet.scatter_set_at_of_lands _ x idx upd (ix2 q j) (ix2 p j) ?_ ?_
  · exact (rowDims_lands_iff wf idx p j q j).mpr ⟨hp, rfl⟩
  · intro j' h
    obtain ⟨p', j'', rfl⟩ : ∃ (p' : Fin n) (j'' : Fin C), j' = ix2 p' j'' := ⟨j' 0, j' 1, eq_ix2 j'⟩
    obtain ⟨h1, h2⟩ := (rowDims_lands_iff wf idx p' j'' q j).mp h
    rw [huniq p' h1, h2]

/-- THE ROW SCATTER AT A ROW NO INDEX WORD NAMES: the operand's row. -/
theorem rowScatter_miss (x : (⟨2, ![N, C]⟩ : Shape).Idx → α) (idx : IVec ⟨2, ![n, 1]⟩ w)
    (upd : (⟨2, ![n, C]⟩ : Shape).Idx → α) (q : Fin N) (j : Fin C)
    (hno : ∀ p' : Fin n, (idx (ix2 p' (0 : Fin 1))).toInt ≠ (q.val : Int)) :
    Host.scatter (rowDims N n C wf) (fun _ b => b) x idx upd (ix2 q j) = x (ix2 q j) := by
  refine Cert.ScatterSet.scatter_set_at_of_no_lands _ x idx upd (ix2 q j) ?_
  intro j' h
  obtain ⟨p', j'', rfl⟩ : ∃ (p' : Fin n) (j'' : Fin C), j' = ix2 p' j'' := ⟨j' 0, j' 1, eq_ix2 j'⟩
  exact hno p' ((rowDims_lands_iff wf idx p' j'' q j).mp h).1

end Rows

/-! ## The index words -/

/-- The index words as the program lays them out: the literal table, 4096 added where a constantly false mask says so,
    stood up as a column. -/
def idxCol : IVec S2016x1 32 :=
  broadcastInDim S2016x1 ![0] bcast_S2016_S2016x1_0
    (select (constantI S2016 1 0#1)
      (addi (fun i => lit0 (S2016.rowMajor i)) (broadcastInDim S2016 ![] bcast_S_S2016 (constantI S_ 32 4096#32)))
      (fun i => lit0 (S2016.rowMajor i)))

/-- The mask is false everywhere, so the column holds the literal table's words. -/
theorem idxCol_apply (p : Fin 2016) : idxCol (ix2 p (0 : Fin 1)) = lit0 p := by
  unfold idxCol
  rw [Cert.LibGatherKeepAxis0.col_of_vec, select_apply]
  show Scalar.select 0#1 _ _ = _
  rw [select_zero]
  exact congrArg lit0 (Fin.ext (Shape.rowMajor_val_one _))

/-- A table entry is below 4096, far below 2^31: its signed reading is the entry. -/
theorem lit0_toInt (p : Fin 2016) : (lit0 p).toInt = (Cert.Triu.K p : Int) := by
  have h := Cert.Triu.K_lt p
  unfold Cert.Triu.K at h ⊢
  exact BitVec.toInt_eq_toNat_of_lt (by omega)

/-- The signed index word of row p is the list's p-th position. -/
theorem idxCol_toInt (p : Fin 2016) : (idxCol (ix2 p (0 : Fin 1))).toInt = (Cert.Triu.K p : Int) := by
  rw [idxCol_apply, lit0_toInt]

/-- The program's scatter record is the row scatter's. -/
theorem scatter_eq_rowDims :
    scatter_S4096x256_S2016x1_S2016x256_1_0_0_1
      = rowDims 4096 2016 256 Facts₀.scatter_S4096x256_S2016x1_S2016x256_1_0_0_1_wf := rfl

/-! ## The arrays as the launch finds them -/

variable (m : (ℓ : Loc nD τ sig) → Buf (Elt Ideal) ℓ)

/-- The first piece is the slice of rows 0 … 127. -/
theorem V_v0 (c : Dev nD) :
    (V m c main_v0 : S128x256.Idx → EReal)
      = extractStridedSlice S128x256 ![0, 0] (m ((c : Thread nD τ).loc main_arg7)) slices_S2176x256_S128x256_0_0 := by
  dsimp only [Gen.V, Gen.hostOps0]; after_results <;> rfl

/-- The last piece is the slice of rows 2144 … 2175. -/
theorem V_v2 (c : Dev nD) :
    (V m c main_v2 : S32x256.Idx → EReal)
      = extractStridedSlice S32x256 ![2144, 0] (m ((c : Thread nD τ).loc main_arg7)) slices_S2176x256_S32x256_2144_0 := by
  dsimp only [Gen.V, Gen.hostOps0]; after_results <;> rfl

/-- The scattered matrix: the slice of rows 128 … 2143 scattered by the index column over an array of zeros. -/
theorem V_v8 (c : Dev nD) :
    (V m c main_v8 : S4096x256.Idx → EReal)
      = Host.scatter scatter_S4096x256_S2016x1_S2016x256_1_0_0_1 (fun _ b => b)
          (broadcastInDim S4096x256 ![] bcast_S_S4096x256 (constant (F := Ideal) S_ .f32 0x00000000#32))
          idxCol
          (extractStridedSlice S2016x256 ![128, 0] (m ((c : Thread nD τ).loc main_arg7)) slices_S2176x256_S2016x256_128_0) := by
  unfold idxCol
  dsimp only [Gen.V, Gen.hostOps0]; after_results <;> rfl

/-- Rows 0–127 of the first-layer weights. -/
theorem Wh_apply (c : Dev nD) (k : Fin 128) (j : Fin 256) :
    (V m c main_v0 : S128x256.Idx → EReal) (ix2 k j)
      = (m ((c : Thread nD τ).loc main_arg7) : S2176x256.Idx → EReal) (ix2 (⟨k.val, by have := k.isLt; omega⟩ : Fin 2176) j) := by
  rw [V_v0]
  refine extractStridedSlice_apply _ _ _ _ _ ?_
  intro a
  fin_cases a <;> simp [ix2]

/-- Rows 2144–2175 of the first-layer weights. -/
theorem Wf_apply (c : Dev nD) (d : Fin 32) (j : Fin 256) :
    (V m c main_v2 : S32x256.Idx → EReal) (ix2 d j)
      = (m ((c : Thread nD τ).loc main_arg7) : S2176x256.Idx → EReal) (ix2 (⟨2144 + d.val, by have := d.isLt; omega⟩ : Fin 2176) j) := by
  rw [V_v2]
  refine extractStridedSlice_apply _ _ _ _ _ ?_
  intro a
  fin_cases a <;> simp [ix2]

/-- The scattered matrix holds row 128 + p of the first-layer weights at the list's p-th position. -/
theorem Wg_hit (c : Dev nD) (p : Fin 2016) (j : Fin 256) :
    (V m c main_v8 : S4096x256.Idx → EReal) (ix2 (⟨Cert.Triu.K p, Cert.Triu.K_lt p⟩ : Fin 4096) j)
      = (m ((c : Thread nD τ).loc main_arg7) : S2176x256.Idx → EReal) (ix2 (⟨128 + p.val, by have := p.isLt; omega⟩ : Fin 2176) j) := by
  rw [V_v8, scatter_eq_rowDims]
  -- row K p is named by row p's index word, and by no other row's since the list is injective
  refine (rowScatter_hit _ _ idxCol _ p (⟨Cert.Triu.K p, Cert.Triu.K_lt p⟩ : Fin 4096) j (idxCol_toInt p) ?_).trans ?_
  · intro p' h
    rw [idxCol_toInt] at h
    exact Cert.Triu.K_injective (by exact_mod_cast h)
  · refine extractStridedSlice_apply _ _ _ _ _ ?_
    intro a
    fin_cases a <;> simp [ix2]

/-- and zero at every position the list misses. -/
theorem Wg_miss (c : Dev nD) (q : Fin 4096) (j : Fin 256) (h : ∀ p, Cert.Triu.K p ≠ q.val) :
    (V m c main_v8 : S4096x256.Idx → EReal) (ix2 q j) = (0 : EReal) := by
  rw [V_v8, scatter_eq_rowDims]
  -- no row's index word names row q, so the entry is the zeros array's
  refine (rowScatter_miss _ _ idxCol _ q j ?_).trans ?_
  · intro p' hp
    rw [idxCol_toInt] at hp
    exact h p' (by exact_mod_cast hp)
  · rw [broadcastInDim_scalar_apply, constant_apply, Ideal.ofBits_zero_f32]

end Cert.KernelIdeal.HostVal

end
-- ==== Proof.RefStages.lean ====
/-
  The reference program's values, stage by stage, as pure functions of its arguments.

  The program first builds, from constants alone, the list of the 2016 index pairs  (i, j),  i < j,  of a 64 × 64
  matrix in row-major order: the strict upper triangle of a matrix of ones is compared with zero, the 4096 truth values
  are summed cumulatively, every position adds one to the counter of its cumulative sum (positions after the last pair
  fall off the end), the counters are summed cumulatively again — entry  k  is then the flat position of the  (k+1)-th
  pair — and a floored quotient and a remainder by 64 split the flat position into the pair. It then gathers the Gram
  matrix at these pairs, runs the three-layer perceptron, sums over the fields, joins the three pieces into a row of
  2176 numbers, and applies the two-layer head.
-/
import proofs.«121141_j14594298872614_1_alg».proof.ReferenceIdeal

noncomputable section

namespace Cert.ReferenceIdeal.Stages

open Cert.ReferenceIdeal Idealize.ShloMosaic
open Cert.ReferenceIdeal.Facts₀

variable {F : FTy → Type} [FloatOps F] [Facts]

/-! ## The pair list (no argument enters) -/

/-- A 32-bit word laid out over 2016 entries. -/
abbrev splat2016 (w : BitVec 32) : IVec S2016 32 := broadcastInDim S2016 ![] bcast_S_S2016 (constantI S_ 32 w)
/-- A 32-bit word laid out over 4096 entries. -/
abbrev splat4096 (w : BitVec 32) : IVec S4096 32 := broadcastInDim S4096 ![] bcast_S_S4096 (constantI S_ 32 w)

/-- The strict upper triangle of the 64 × 64 matrix of ones: zero where row ≥ column. -/
def triuOnes : FVec F S64x64 .f32 :=
  select (cmpi .sge (addi (iotaInDim S64x64 32 0) (broadcastInDim S64x64 ![] bcast_S_S64x64 (constantI S_ 32 0#32)))
      (iotaInDim S64x64 32 1))
    (broadcastInDim S64x64 ![] bcast_S_S64x64 (constant (F := F) S_ .f32 0x00000000#32))
    (broadcastInDim S64x64 ![] bcast_S_S64x64 (constant (F := F) S_ .f32 0x3F800000#32))

/-- Where that triangle is not zero, as truth values. -/
def mask : IVec S64x64 1 :=
  cmpf .une (triuOnes (F := F)) (broadcastInDim S64x64 ![] bcast_S_S64x64 (constant (F := F) S_ .f32 0x00000000#32))

/-- The running count of true positions among the 4096, row-major. -/
def csum : IVec S4096 32 :=
  Host.reduceWindow IntOp.addi ![4096] ![1] ![4095] ![0]
    (extui 32 (shapeCast S4096 (mask (F := F)) shapeCasts_S64x64_S4096) natLt_1_32)
    (broadcastInDim S_ ![] bcast_S_S_ (constantI S_ 32 0#32)) reduceWindows_S4096_S4096_w4096s1p4095_0 h_S_

/-- The running count, kept at least zero. -/
def clipped : IVec S4096 32 := maxsi (splat4096 0#32) (csum (F := F))

/-- The same, a negative count moved up by 2016 (there is none). -/
def wrapped : IVec S4096 32 :=
  select (cmpi .slt (clipped (F := F)) (splat4096 0#32)) (addi (clipped (F := F)) (splat4096 2016#32)) (clipped (F := F))

/-- For each count value below 2016, how many positions carry it. -/
def counts : IVec S2016 32 :=
  Host.scatter scatter_S2016_S4096x1_S4096_n_0_0_1 IntOp.addi (splat2016 0#32)
    (broadcastInDim S4096x1 ![0] bcast_S4096_S4096x1_0 (wrapped (F := F))) (splat4096 1#32)

/-- Their running sum: entry k is the flat position of the (k+1)-th true position. -/
def flatIdx : IVec S2016 32 :=
  Host.reduceWindow IntOp.addi ![2016] ![1] ![2015] ![0] (counts (F := F))
    (broadcastInDim S_ ![] bcast_S_S_ (constantI S_ 32 0#32)) reduceWindows_S2016_S2016_w2016s1p2015_0 h_S_

/-- The floored quotient of 2016 signed words by one signed word: the truncated quotient, less one where the signs
    differ and the division is not exact. -/
def floorDiv (a : IVec S2016 32) (d : IVec S_ 32) : IVec S2016 32 :=
  select
    (andi (cmpi .ne (signi a) (broadcastInDim S2016 ![] bcast_S_S2016 (signi d)))
      (cmpi .ne (Host.remsi a (broadcastInDim S2016 ![] bcast_S_S2016 d)) (splat2016 0#32)))
    (subi (Host.divsi a (broadcastInDim S2016 ![] bcast_S_S2016 d)) (splat2016 1#32))
    (Host.divsi a (broadcastInDim S2016 ![] bcast_S_S2016 d))

/-- The divisor a remainder is taken by: one in place of zero. -/
def safeDiv (d : IVec S_ 32) : IVec S_ 32 := select (cmpi .eq d (constantI S_ 32 0#32)) (constantI S_ 32 1#32) d

/-- The remainder with the divisor's sign of 2016 signed words by one signed word: the truncated remainder, moved by
    the divisor where it is not zero and its sign differs from the divisor's. -/
def floorRem (a : IVec S2016 32) (d : IVec S_ 32) : IVec S2016 32 :=
  select
    (andi
      (cmpi .ne (cmpi .slt (Host.remsi a (broadcastInDim S2016 ![] bcast_S_S2016 (safeDiv d))) (splat2016 0#32))
        (broadcastInDim S2016 ![] bcast_S_S2016 (cmpi .slt (safeDiv d) (constantI S_ 32 0#32))))
      (cmpi .ne (Host.remsi a (broadcastInDim S2016 ![] bcast_S_S2016 (safeDiv d))) (splat2016 0#32)))
    (addi (Host.remsi a (broadcastInDim S2016 ![] bcast_S_S2016 (safeDiv d)))
      (broadcastInDim S2016 ![] bcast_S_S2016 (safeDiv d)))
    (Host.remsi a (broadcastInDim S2016 ![] bcast_S_S2016 (safeDiv d)))

/-- A negative index word moved up by 64 (the NumPy reading of a negative index). -/
def wrap64 (a : IVec S2016 32) : IVec S2016 32 :=
  select (cmpi .slt a (splat2016 0#32)) (addi a (splat2016 64#32)) a

/-- The first members of the pairs, as index words. -/
def iuW : IVec S2016 32 :=
  wrap64 (floorRem (floorDiv (flatIdx (F := F)) (constantI S_ 32 64#32)) (constantI S_ 32 64#32))
/-- The second members of the pairs, as index words. -/
def juW : IVec S2016 32 :=
  wrap64 (floorRem (floorDiv (flatIdx (F := F)) (constantI S_ 32 1#32)) (constantI S_ 32 64#32))

/-- The 2016 × 2 table of index pairs. -/
def table : IVec S2016x2 32 :=
  concatenate S2016x2 1
    [⟨S2016x1, broadcastInDim S2016x1 ![0] bcast_S2016_S2016x1_0 (iuW (F := F))⟩,
     ⟨S2016x1, broadcastInDim S2016x1 ![0] bcast_S2016_S2016x1_0 (juW (F := F))⟩]
    concatenates_S2016x1_S2016x1_S2016x2_d1

/-! ## The values -/

/-- The Gram matrices of all rows. -/
def gramA (x : FVec F S16384x64x32 .f32) : FVec F S16384x64x64 .f32 :=
  Host.dotGeneral dot_S16384x64x32_S16384x64x32_S16384x64x64_2_2_1_1_0_0 none x x

/-- Their entries at the listed pairs. -/
def soiA (x : FVec F S16384x64x32 .f32) : FVec F S16384x2016 .f32 :=
  Host.gather gather_S16384x64x64_S2016x2_S16384x2016_0_12_n_n_12_1_1638411 (gramA x) (table (F := F))

/-- A scalar laid out over a 16384 × 256 array. -/
abbrev splatF (w : BitVec 32) : FVec F S16384x256 .f32 :=
  broadcastInDim S16384x256 ![] bcast_S_S16384x256 (constant (F := F) S_ .f32 w)

/-- The scaled exponential linear unit on a 16384 × 256 array, as the reference spells it. -/
def seluA (v : FVec F S16384x256 .f32) : FVec F S16384x256 .f32 :=
  mulf (splatF 0x3F867D5F#32)
    (select (cmpf .ogt v (splatF 0x00000000#32)) v
      (mulf (splatF 0x3FD62D7D#32)
        (Host.expm1 (select (cmpf .ogt v (splatF 0x00000000#32)) (splatF 0x00000000#32) v))))

/-- A bias of 256 numbers laid out over 16384 rows. -/
abbrev bias256 (b : FVec F S256 .f32) : FVec F S16384x256 .f32 :=
  broadcastInDim S16384x256 ![0, 1] bcast_S1x256_S16384x256_0_1 (broadcastInDim S1x256 ![1] bcast_S256_S1x256_1 b)

/-- The perceptron's first hidden layer. -/
def h1A (x : FVec F S16384x64x32 .f32) (W1 : FVec F S2048x256 .f32) (b1 : FVec F S256 .f32) : FVec F S16384x256 .f32 :=
  seluA (addf (Host.dotGeneral dot_S16384x2048_S2048x256_S16384x256_1_0_0_1_n_n none
    (shapeCast S16384x2048 x shapeCasts_S16384x64x32_S16384x2048) W1) (bias256 b1))

/-- Its second hidden layer. -/
def h2A (h : FVec F S16384x256 .f32) (W2 : FVec F S256x256 .f32) (b2 : FVec F S256 .f32) : FVec F S16384x256 .f32 :=
  seluA (addf (Host.dotGeneral dot_S16384x256_S256x256_S16384x256_1_0_0_1_n_n none h W2) (bias256 b2))

/-- Its output. -/
def hoiA (h : FVec F S16384x256 .f32) (W3 : FVec F S256x128 .f32) (b3 : FVec F S128 .f32) : FVec F S16384x128 .f32 :=
  addf (Host.dotGeneral dot_S16384x256_S256x128_S16384x128_1_0_0_1_n_n none h W3)
    (broadcastInDim S16384x128 ![0, 1] bcast_S1x128_S16384x128_0_1 (broadcastInDim S1x128 ![1] bcast_S128_S1x128_1 b3))

/-- The sums over the fields. -/
def foA (x : FVec F S16384x64x32 .f32) : FVec F S16384x32 .f32 :=
  Host.reduceAdd x (constant (F := F) S_ .f32 0x00000000#32) reducesTo_S16384x64x32_S16384x32_d1 h_S_

/-- The rows of 2176 numbers. -/
def cinA (ho : FVec F S16384x128 .f32) (so : FVec F S16384x2016 .f32) (fo : FVec F S16384x32 .f32) :
    FVec F S16384x2176 .f32 :=
  concatenate S16384x2176 1 [⟨S16384x128, ho⟩, ⟨S16384x2016, so⟩, ⟨S16384x32, fo⟩]
    concatenates_S16384x128_S16384x2016_S16384x32_S16384x2176_d1

/-- The head. -/
def headA (cin : FVec F S16384x2176 .f32) (Wc1 : FVec F S2176x256 .f32) (bc1 : FVec F S256 .f32)
    (Wc2 : FVec F S256x1 .f32) (bc2 : FVec F S1 .f32) : FVec F S16384x1 .f32 :=
  addf (Host.dotGeneral dot_S16384x256_S256x1_S16384x1_1_0_0_1_n_n none
      (maximumf (addf (Host.dotGeneral dot_S16384x2176_S2176x256_S16384x256_1_0_0_1_n_n none cin Wc1) (bias256 bc1))
        (splatF 0x00000000#32)) Wc2)
    (broadcastInDim S16384x1 ![0, 1] bcast_S1x1_S16384x1_0_1 (broadcastInDim S1x1 ![1] bcast_S1_S1x1_1 bc2))

/-- The reference's result as one function of its eleven arguments. -/
def refOut (x : FVec F S16384x64x32 .f32) (W1 : FVec F S2048x256 .f32) (b1 : FVec F S256 .f32)
    (W2 : FVec F S256x256 .f32) (b2 : FVec F S256 .f32) (W3 : FVec F S256x128 .f32) (b3 : FVec F S128 .f32)
    (Wc1 : FVec F S2176x256 .f32) (bc1 : FVec F S256 .f32) (Wc2 : FVec F S256x1 .f32) (bc2 : FVec F S1 .f32) :
    FVec F S16384x1 .f32 :=
  headA (cinA (hoiA (h2A (h1A x W1 b1) W2 b2) W3 b3) (soiA x) (foA x)) Wc1 bc1 Wc2 bc2

end Cert.ReferenceIdeal.Stages

end
-- ==== Proof.LibPlainOps.lean ====
/-
  An operation of an outlined function is a plain operation.

  The small functions a traced program outlines (where, round, clip, pad, …) name each buffer by a reference that
  carries the tensor type of the value it holds, and read and write the buffer's contents through a transport along the
  equation "the buffer's type is that type". When the carried type IS the reference's own type — which is what a call
  site builds, the equation being `rfl` — both transports are the identity, and the operation is the plain operation at
  the same buffers with the same function.

  Rewriting by these equations BEFORE the operations' results are composed keeps every value a plain term of the
  arguments. That matters next to a reduction over many elements: a transport left above such a term makes a later
  definitional comparison unfold the other side first, down to pointwise float comparisons, which evaluate the reduction.
  Here each side of each equation is a single operation, so `rfl` costs nothing.
-/
import Idealize.ShloMosaic.Lib.StableHlo

namespace Cert.PlainOps

open Idealize.ShloMosaic Idealize.ShloMosaic.StableHlo

variable {sig : RefSig} {τ : Topo} {Val : EltTy → Type}

/-- A one-operand operation of an outlined function, at references whose carried types are their own, is the plain
    one-operand operation. -/
theorem tunary_eq (a y : Ref sig .tc) (ha : a.ty = a.ty) (ha2 : a.space ≠ .host) (ha3 : a.isScoped = false)
    (hy : y.ty = y.ty) (hy2 : y.space ≠ .host) (hy3 : y.isScoped = false)
    (f : a.ty.Contents Val → y.ty.Contents Val) :
    (TRef.unary (τ := τ) (TRef.of a ha ha2 ha3) (TRef.of y hy hy2 hy3) f : HloOp τ sig Val)
      = StableHlo.unary a y f (TRef.of a ha ha2 ha3).dev (TRef.of y hy hy2 hy3).dev := rfl

/-- The same for a two-operand operation. -/
theorem tbinary_eq (a b y : Ref sig .tc) (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : a.ty.Contents Val → b.ty.Contents Val → y.ty.Contents Val) :
    (TRef.binary (τ := τ) (TRef.of a ha ha2 ha3) (TRef.of b hb hb2 hb3) (TRef.of y hy hy2 hy3) f : HloOp τ sig Val)
      = StableHlo.binary a b y f (TRef.of a ha ha2 ha3).dev (TRef.of b hb hb2 hb3).dev (TRef.of y hy hy2 hy3).dev := rfl

/-- The same for a three-operand operation (a select: the condition first). -/
theorem tternary_eq (c a b y : Ref sig .tc) (hc : c.ty = c.ty) (hc2 : c.space ≠ .host) (hc3 : c.isScoped = false)
    (ha : a.ty = a.ty) (ha2 : a.space ≠ .host) (ha3 : a.isScoped = false)
    (hb : b.ty = b.ty) (hb2 : b.space ≠ .host) (hb3 : b.isScoped = false)
    (hy : y.ty = y.ty) (hy2 : y.space ≠ .host) (hy3 : y.isScoped = false)
    (f : c.ty.Contents Val → a.ty.Contents Val → b.ty.Contents Val → y.ty.Contents Val) :
    (TRef.ternary (τ := τ) (TRef.of c hc hc2 hc3) (TRef.of a ha ha2 ha3) (TRef.of b hb hb2 hb3) (TRef.of y hy hy2 hy3) f :
        HloOp τ sig Val)
      = StableHlo.ternary c a b y f (TRef.of c hc hc2 hc3).dev (TRef.of a ha ha2 ha3).dev (TRef.of b hb hb2 hb3).dev
          (TRef.of y hy hy2 hy3).dev := rfl

/-- The same for an operation with no operand (a constant). -/
theorem tnullary_eq (y : Ref sig .tc) (hy : y.ty = y.ty) (hy2 : y.space ≠ .host) (hy3 : y.isScoped = false)
    (v : y.ty.Contents Val) :
    (TRef.nullary (τ := τ) (TRef.of y hy hy2 hy3) v : HloOp τ sig Val)
      = StableHlo.nullary y v (TRef.of y hy hy2 hy3).dev := rfl

end Cert.PlainOps
-- ==== Proof.LibNary3.lean ====
/-
  A host operation over a LITERAL family of three references (a concatenation of three operands): its result with each
  operand's contents at its own reference, so that rewriting the operands' contents can go on under it; and the one-pass
  rewriting of a straight line's results with that rule added.
-/
import Idealize.ShloMosaic.Lib.StableHlo.Run

noncomputable section

namespace Idealize.ShloMosaic.StableHlo

variable {nD : Nat} {τ : Topo} {sig : RefSig} {Val : EltTy → Type}

/-- The three-operand operation's result at its result buffer: its function of the three operands' contents, each read
    at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rule's key, for use as a simplification rule. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The results of a straight line of host operations by one simplification pass, three-operand operations included. -/
macro "after_results_simp3" : tactic =>
  `(tactic| (simp (disch := decide) only [after_cons, after_nil,
      nullary_result', unary_result', binary_result', ternary_result', quaternary_result', reshape_result', nary4_result',
      nary3_result', nary_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRun.lean ====
/-
  The reference's run: every execution ends with the result buffer at the stages' composed value of the arguments.

  The program is a straight line of 201 operations once the bodies of the functions it calls stand at their calls. It is
  written here as six lists of operations run one after the other; the program's two printed halves are the first four
  and the last two of them, step for step. For a straight line the final contents of every buffer are the fold of the
  operations' results over the launch contents, so three things remain. Each list's named results are stage terms of the
  values it takes over from the lists before it. Each list leaves every buffer it does not write as it found it, which
  carries a named value from the list that makes it to the list that reads it, and carries the eleven arguments to the
  end. And the six stage terms put into one another are the stages' composed value, by unfolding its definition.
-/
import proofs.«121141_j14594298872614_1_alg».proof.Proof.RefStages
import proofs.«121141_j14594298872614_1_alg».proof.Proof.Gen.ReferenceIdeal
import proofs.«121141_j14594298872614_1_alg».proof.Proof.LibPlainOps
import proofs.«121141_j14594298872614_1_alg».proof.Proof.LibNary3
import Idealize.ShloMosaic.Lib.StableHlo.Run
import Idealize.ShloMosaic.Lib.Pipeline.Regions
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The bodies of the functions called twice, as lists of operations

Each is the function's straight line over its operands' buffers and the buffers one call of it names. -/

/-- The floored quotient by a scalar: the operand, the divisor, the call's buffers. -/
abbrev floorDivOps (a : TRef sig ⟨S2016, .i32⟩) (d : TRef sig ⟨S_, .i32⟩) (φ : fn_floor_divide.Bufs) :
    List (HloOp τ sig (Elt F)) :=
  [ TRef.unary d φ.v0 (broadcastInDim S2016 ![] bcast_S_S2016),
    TRef.binary a φ.v0 φ.v1 Host.divsi,
    TRef.unary a φ.v2 signi,
    TRef.unary d φ.v3 signi,
    TRef.unary φ.v3 φ.v4 (broadcastInDim S2016 ![] bcast_S_S2016),
    TRef.binary φ.v2 φ.v4 φ.v5 (cmpi .ne),
    TRef.unary d φ.v6 (broadcastInDim S2016 ![] bcast_S_S2016),
    TRef.binary a φ.v6 φ.v7 Host.remsi,
    TRef.nullary φ.c (constantI S_ 32 0#32),
    TRef.unary φ.c φ.v8 (broadcastInDim S2016 ![] bcast_S_S2016),
    TRef.binary φ.v7 φ.v8 φ.v9 (cmpi .ne),
    TRef.binary φ.v5 φ.v9 φ.v10 andi,
    TRef.nullary φ.c_0 (constantI S_ 32 1#32),
    TRef.unary φ.c_0 φ.v11 (broadcastInDim S2016 ![] bcast_S_S2016),
    TRef.binary φ.v1 φ.v11 φ.v12 subi,
    TRef.ternary φ.v10 φ.v12 φ.v1 φ.call0.v0 select ]

/-- The remainder with the divisor's sign by a scalar: the operand, the divisor, the call's buffers. -/
abbrev remOps (a : TRef sig ⟨S2016, .i32⟩) (d : TRef sig ⟨S_, .i32⟩) (φ : fn_remainder.Bufs) :
    List (HloOp τ sig (Elt F)) :=
  [ TRef.unary d φ.v0 id,
    TRef.nullary φ.c (constantI S_ 32 0#32),
    TRef.binary φ.v0 φ.c φ.v1 (cmpi .eq),
    TRef.nullary φ.c_0 (constantI S_ 32 1#32),
    TRef.ternary φ.v1 φ.c_0 φ.v0 φ.call0.v0 select,
    TRef.unary φ.call0.v0 φ.v3 (broadcastInDim S2016 ![] bcast_S_S2016),
    TRef.binary a φ.v3 φ.v4 Host.remsi,
    TRef.nullary φ.c_1 (constantI S_ 32 0#32),
    TRef.unary φ.c_1 φ.v5 (broadcastInDim S2016 ![] bcast_S_S2016),
    TRef.binary φ.v4 φ.v5 φ.v6 (cmpi .ne),
    TRef.nullary φ.c_2 (constantI S_ 32 0#32),
    TRef.unary φ.c_2 φ.v7 (broadcastInDim S2016 ![] bcast_S_S2016),
    TRef.binary φ.v4 φ.v7 φ.v8 (cmpi .slt),
    TRef.nullary φ.c_3 (constantI S_ 32 0#32),
    TRef.binary φ.call0.v0 φ.c_3 φ.v9 (cmpi .slt),
    TRef.unary φ.v9 φ.v10 (broadcastInDim S2016 ![] bcast_S_S2016),
    TRef.binary φ.v8 φ.v10 φ.v11 (cmpi .ne),
    TRef.binary φ.v11 φ.v6 φ.v12 andi,
    TRef.unary φ.call0.v0 φ.v13 (broadcastInDim S2016 ![] bcast_S_S2016),
    TRef.binary φ.v4 φ.v13 φ.v14 addi,
    TRef.ternary φ.v12 φ.v14 φ.v4 φ.v15 select ]

/-- The scaled exponential linear unit: the operand, the call's buffers. -/
abbrev seluOps (x : TRef sig ⟨S16384x256, .f32⟩) (φ : fn_selu.Bufs) : List (HloOp τ sig (Elt F)) :=
  [ TRef.nullary φ.cst (constant S_ .f32 0x3FD62D7D#32),
    TRef.nullary φ.call0.cst (constant S_ .f32 0x00000000#32),
    TRef.unary φ.call0.cst φ.call0.v0 (broadcastInDim S16384x256 ![] bcast_S_S16384x256),
    TRef.binary x φ.call0.v0 φ.call0.v1 (cmpf .ogt),
    TRef.nullary φ.call0.cst_0 (constant S_ .f32 0x00000000#32),
    TRef.unary φ.call0.cst_0 φ.call0.v2 (broadcastInDim S16384x256 ![] bcast_S_S16384x256),
    TRef.binary x φ.call0.v2 φ.call0.v3 (cmpf .ogt),
    TRef.nullary φ.call0.cst_1 (constant S_ .f32 0x00000000#32),
    TRef.unary φ.call0.cst_1 φ.call0.call0.v0 id,
    TRef.unary φ.call0.call0.v0 φ.call0.call0.v1 (broadcastInDim S16384x256 ![] bcast_S_S16384x256),
    TRef.ternary φ.call0.v3 φ.call0.call0.v1 x φ.call0.call0.v2 select,
    TRef.unary φ.call0.call0.v2 φ.call0.v5 Host.expm1,
    TRef.unary φ.cst φ.call0.v6 id,
    TRef.unary φ.call0.v6 φ.call0.v7 (broadcastInDim S16384x256 ![] bcast_S_S16384x256),
    TRef.binary φ.call0.v7 φ.call0.v5 φ.call0.v8 mulf,
    TRef.ternary φ.call0.v1 x φ.call0.v8 φ.call0.call1.v0 select,
    TRef.nullary φ.cst_0 (constant S_ .f32 0x3F867D5F#32),
    TRef.unary φ.cst_0 φ.v1 (broadcastInDim S16384x256 ![] bcast_S_S16384x256),
    TRef.binary φ.v1 φ.call0.call1.v0 φ.v2 mulf ]

/-! ## The program's operations, in order, cut into six lines

The cuts fall where a later stage takes over named values: after the second running sum (the flat positions); after
the first member's quotient and remainder; before the join of the two index columns; before the activation of the
perceptron's second layer; before the join of the three pieces. -/

/-- The Gram matrices, and the flat positions of the pairs: operations 1 … 40. -/
abbrev ops1 : List (HloOp τ sig (Elt F)) :=
  [ binary main_arg0 main_arg0 main_v0 ((fun l r => Host.dotGeneral dot_S16384x64x32_S16384x64x32_S16384x64x64_2_2_1_1_0_0 none l r) : (⟨S16384x64x32, .f32⟩ : BufTy).Contents (Elt F) → (⟨S16384x64x32, .f32⟩ : BufTy).Contents (Elt F) → (⟨S16384x64x64, .f32⟩ : BufTy).Contents (Elt F)),
    nullary main_cst (constant S_ .f32 0x3F800000#32),
    unary main_cst main_v1 (broadcastInDim S64x64 ![] bcast_S_S64x64 : (⟨S_, .f32⟩ : BufTy).Contents (Elt F) → (⟨S64x64, .f32⟩ : BufTy).Contents (Elt F)),
    TRef.nullary main_call0.v0 (iotaInDim S64x64 32 0),
    TRef.nullary main_call0.c (constantI S_ 32 0#32),
    TRef.unary main_call0.c main_call0.v1 (broadcastInDim S64x64 ![] bcast_S_S64x64),
    TRef.binary main_call0.v0 main_call0.v1 main_call0.v2 addi,
    TRef.nullary main_call0.v3 (iotaInDim S64x64 32 1),
    TRef.binary main_call0.v2 main_call0.v3 main_call0.v4 (cmpi .sge),
    TRef.nullary main_call0.cst (constant S_ .f32 0x00000000#32),
    TRef.unary main_call0.cst main_call0.v5 (broadcastInDim S64x64 ![] bcast_S_S64x64),
    TRef.ternary main_call0.v4 main_call0.v5 (.of main_v1 : TRef sig ⟨S64x64, .f32⟩) main_call0.v6 select,
    nullary main_cst_0 (constant S_ .f32 0x00000000#32),
    unary main_cst_0 main_v3 (broadcastInDim S64x64 ![] bcast_S_S64x64 : (⟨S_, .f32⟩ : BufTy).Contents (Elt F) → (⟨S64x64, .f32⟩ : BufTy).Contents (Elt F)),
    binary main_v2 main_v3 main_v4 (cmpf .une : (⟨S64x64, .f32⟩ : BufTy).Contents (Elt F) → (⟨S64x64, .f32⟩ : BufTy).Contents (Elt F) → (⟨S64x64, .i1⟩ : BufTy).Contents (Elt F)),
    TRef.reshape (.of main_v4 : TRef sig ⟨S64x64, .i1⟩) main_call1.v0 rfl shapeCasts_S64x64_S4096,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![4096] ![1] ![4095] ![0] x v reduceWindows_S4096_S4096_w4096s1p4095_0 h_S_),
    nullary main_c (constantI S_ 32 0#32),
    unary main_c main_v6 (broadcastInDim S2016 ![] bcast_S_S2016 : (⟨S_, .i32⟩ : BufTy).Contents (Elt F) → (⟨S2016, .i32⟩ : BufTy).Contents (Elt F)),
    nullary main_c_1 (constantI S_ 32 0#32),
    TRef.unary (.of main_c_1 : TRef sig ⟨S_, .i32⟩) main_call2.v0 id,
    TRef.unary main_call2.v0 main_call2.v1 (broadcastInDim S4096 ![] bcast_S_S4096),
    TRef.binary main_call2.v1 (.of main_v5 : TRef sig ⟨S4096, .i32⟩) main_call2.v2 maxsi,
    nullary main_c_2 (constantI S_ 32 0#32),
    unary main_c_2 main_v8 (broadcastInDim S4096 ![] bcast_S_S4096 : (⟨S_, .i32⟩ : BufTy).Contents (Elt F) → (⟨S4096, .i32⟩ : BufTy).Contents (Elt F)),
    binary main_v7 main_v8 main_v9 (cmpi .slt : (⟨S4096, .i32⟩ : BufTy).Contents (Elt F) → (⟨S4096, .i32⟩ : BufTy).Contents (Elt F) → (⟨S4096, .i1⟩ : BufTy).Contents (Elt F)),
    nullary main_c_3 (constantI S_ 32 2016#32),
    unary main_c_3 main_v10 (broadcastInDim S4096 ![] bcast_S_S4096 : (⟨S_, .i32⟩ : BufTy).Contents (Elt F) → (⟨S4096, .i32⟩ : BufTy).Contents (Elt F)),
    binary main_v7 main_v10 main_v11 (addi : (⟨S4096, .i32⟩ : BufTy).Contents (Elt F) → (⟨S4096, .i32⟩ : BufTy).Contents (Elt F) → (⟨S4096, .i32⟩ : BufTy).Contents (Elt F)),
    ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v12 main_v13 (broadcastInDim S4096x1 ![0] bcast_S4096_S4096x1_0 : (⟨S4096, .i32⟩ : BufTy).Contents (Elt F) → (⟨S4096x1, .i32⟩ : BufTy).Contents (Elt F)),
    nullary main_c_4 (constantI S_ 32 1#32),
    unary main_c_4 main_v14 (broadcastInDim S4096 ![] bcast_S_S4096 : (⟨S_, .i32⟩ : BufTy).Contents (Elt F) → (⟨S4096, .i32⟩ : BufTy).Contents (Elt F)),
    ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    TRef.nullary main_call3.call0.c (constantI S_ 32 0#32),
    TRef.unary main_call3.call0.c main_call3.call0.v0 (broadcastInDim S_ ![] bcast_S_S_),
    TRef.binary (.of main_v15 : TRef sig ⟨S2016, .i32⟩) main_call3.call0.v0 main_call3.call0.v1 (fun x v => Host.reduceWindow IntOp.addi ![2016] ![1] ![2015] ![0] x v reduceWindows_S2016_S2016_w2016s1p2015_0 h_S_) ]

/-- The first members of the pairs before the index wrap: operations 41 … 79. -/
abbrev ops2 : List (HloOp τ sig (Elt F)) :=
  nullary main_c_5 (constantI S_ 32 64#32) ::
    (floorDivOps (.of main_v16) (.of main_c_5) main_call4 ++
      (nullary main_c_6 (constantI S_ 32 64#32) :: remOps (.of main_v17) (.of main_c_6) main_call5))

/-- The second members, the index wrap of both, and the two columns: operations 80 … 134. -/
abbrev ops3 : List (HloOp τ sig (Elt F)) :=
  nullary main_c_7 (constantI S_ 32 1#32) ::
    (floorDivOps (.of main_v16) (.of main_c_7) main_call6 ++
      (nullary main_c_8 (constantI S_ 32 64#32) ::
        (remOps (.of main_v19) (.of main_c_8) main_call7 ++
  [ nullary main_c_9 (constantI S_ 32 0#32),
    unary main_c_9 main_v21 (broadcastInDim S2016 ![] bcast_S_S2016 : (⟨S_, .i32⟩ : BufTy).Contents (Elt F) → (⟨S2016, .i32⟩ : BufTy).Contents (Elt F)),
    binary main_v18 main_v21 main_v22 (cmpi .slt : (⟨S2016, .i32⟩ : BufTy).Contents (Elt F) → (⟨S2016, .i32⟩ : BufTy).Contents (Elt F) → (⟨S2016, .i1⟩ : BufTy).Contents (Elt F)),
    nullary main_c_10 (constantI S_ 32 64#32),
    unary main_c_10 main_v23 (broadcastInDim S2016 ![] bcast_S_S2016 : (⟨S_, .i32⟩ : BufTy).Contents (Elt F) → (⟨S2016, .i32⟩ : BufTy).Contents (Elt F)),
    binary main_v18 main_v23 main_v24 (addi : (⟨S2016, .i32⟩ : BufTy).Contents (Elt F) → (⟨S2016, .i32⟩ : BufTy).Contents (Elt F) → (⟨S2016, .i32⟩ : BufTy).Contents (Elt F)),
    ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    nullary main_c_11 (constantI S_ 32 0#32),
    unary main_c_11 main_v26 (broadcastInDim S2016 ![] bcast_S_S2016 : (⟨S_, .i32⟩ : BufTy).Contents (Elt F) → (⟨S2016, .i32⟩ : BufTy).Contents (Elt F)),
    binary main_v20 main_v26 main_v27 (cmpi .slt : (⟨S2016, .i32⟩ : BufTy).Contents (Elt F) → (⟨S2016, .i32⟩ : BufTy).Contents (Elt F) → (⟨S2016, .i1⟩ : BufTy).Contents (Elt F)),
    nullary main_c_12 (constantI S_ 32 64#32),
    unary main_c_12 main_v28 (broadcastInDim S2016 ![] bcast_S_S2016 : (⟨S_, .i32⟩ : BufTy).Contents (Elt F) → (⟨S2016, .i32⟩ : BufTy).Contents (Elt F)),
    binary main_v20 main_v28 main_v29 (addi : (⟨S2016, .i32⟩ : BufTy).Contents (Elt F) → (⟨S2016, .i32⟩ : BufTy).Contents (Elt F) → (⟨S2016, .i32⟩ : BufTy).Contents (Elt F)),
    ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    unary main_v25 main_v31 (broadcastInDim S2016x1 ![0] bcast_S2016_S2016x1_0 : (⟨S2016, .i32⟩ : BufTy).Contents (Elt F) → (⟨S2016x1, .i32⟩ : BufTy).Contents (Elt F)),
    unary main_v30 main_v32 (broadcastInDim S2016x1 ![0] bcast_S2016_S2016x1_0 : (⟨S2016, .i32⟩ : BufTy).Contents (Elt F) → (⟨S2016x1, .i32⟩ : BufTy).Contents (Elt F)) ])))

/-- The pair table, the gathered Gram entries, and the perceptron up to its second layer's sum: operations 135 … 164. -/
abbrev ops4 : List (HloOp τ sig (Elt F)) :=
  [ binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    binary main_v0 main_v33 main_v34 ((fun x i => Host.gather gather_S16384x64x64_S2016x2_S16384x2016_0_12_n_n_12_1_1638411 x i) : (⟨S16384x64x64, .f32⟩ : BufTy).Contents (Elt F) → (⟨S2016x2, .i32⟩ : BufTy).Contents (Elt F) → (⟨S16384x2016, .f32⟩ : BufTy).Contents (Elt F)),
    reshape main_arg0 main_v35 rfl shapeCasts_S16384x64x32_S16384x2048,
    binary main_v35 main_arg1 main_v36 ((fun l r => Host.dotGeneral dot_S16384x2048_S2048x256_S16384x256_1_0_0_1_n_n none l r) : (⟨S16384x2048, .f32⟩ : BufTy).Contents (Elt F) → (⟨S2048x256, .f32⟩ : BufTy).Contents (Elt F) → (⟨S16384x256, .f32⟩ : BufTy).Contents (Elt F)),
    unary main_arg2 main_v37 (broadcastInDim S1x256 ![1] bcast_S256_S1x256_1 : (⟨S256, .f32⟩ : BufTy).Contents (Elt F) → (⟨S1x256, .f32⟩ : BufTy).Contents (Elt F)),
    unary main_v37 main_v38 (broadcastInDim S16384x256 ![0, 1] bcast_S1x256_S16384x256_0_1 : (⟨S1x256, .f32⟩ : BufTy).Contents (Elt F) → (⟨S16384x256, .f32⟩ : BufTy).Contents (Elt F)),
    binary main_v36 main_v38 main_v39 (addf : (⟨S16384x256, .f32⟩ : BufTy).Contents (Elt F) → (⟨S16384x256, .f32⟩ : BufTy).Contents (Elt F) → (⟨S16384x256, .f32⟩ : BufTy).Contents (Elt F)) ] ++
    (seluOps (.of main_v39) main_call8 ++
  [ binary main_v40 main_arg3 main_v41 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F)),
    unary main_arg4 main_v42 (broadcastInDim S1x256 ![1] bcast_S256_S1x256_1 : (⟨S256, .f32⟩ : BufTy).Contents (Elt F) → (⟨S1x256, .f32⟩ : BufTy).Contents (Elt F)),
    unary main_v42 main_v43 (broadcastInDim S16384x256 ![0, 1] bcast_S1x256_S16384x256_0_1 : (⟨S1x256, .f32⟩ : BufTy).Contents (Elt F) → (⟨S16384x256, .f32⟩ : BufTy).Contents (Elt F)),
    binary main_v41 main_v43 main_v44 (addf : (⟨S16384x256, .f32⟩ : BufTy).Contents (Elt F) → (⟨S16384x256, .f32⟩ : BufTy).Contents (Elt F) → (⟨S16384x256, .f32⟩ : BufTy).Contents (Elt F)) ])

/-- The perceptron's output and the sums over the fields: operations 165 … 189. -/
abbrev ops5 : List (HloOp τ sig (Elt F)) :=
  seluOps (.of main_v44) main_call9 ++
  [ binary main_v45 main_arg5 main_v46 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg6 main_v47 (broadcastInDim S1x128 ![1] bcast_S128_S1x128_1 : (⟨S128, .f32⟩ : BufTy).Contents (Elt F) → (⟨S1x128, .f32⟩ : BufTy).Contents (Elt F)),
    unary main_v47 main_v48 (broadcastInDim S16384x128 ![0, 1] bcast_S1x128_S16384x128_0_1 : (⟨S1x128, .f32⟩ : BufTy).Contents (Elt F) → (⟨S16384x128, .f32⟩ : BufTy).Contents (Elt F)),
    binary main_v46 main_v48 main_v49 (addf : (⟨S16384x128, .f32⟩ : BufTy).Contents (Elt F) → (⟨S16384x128, .f32⟩ : BufTy).Contents (Elt F) → (⟨S16384x128, .f32⟩ : BufTy).Contents (Elt F)),
    nullary main_cst_13 (constant S_ .f32 0x00000000#32),
    binary main_arg0 main_cst_13 main_v50 ((fun x v => Host.reduceAdd x v reducesTo_S16384x64x32_S16384x32_d1 h_S_) : (⟨S16384x64x32, .f32⟩ : BufTy).Contents (Elt F) → (⟨S_, .f32⟩ : BufTy).Contents (Elt F) → (⟨S16384x32, .f32⟩ : BufTy).Contents (Elt F)) ]

/-- The joined row and the head: operations 190 … 201. -/
abbrev ops6 : List (HloOp τ sig (Elt F)) :=
  [ nary ![main_v49, main_v34, main_v50] main_v51 (fun u => concatenate S16384x2176 1 [⟨S16384x128, u 0⟩, ⟨S16384x2016, u 1⟩, ⟨S16384x32, u 2⟩] concatenates_S16384x128_S16384x2016_S16384x32_S16384x2176_d1),
    binary main_v51 main_arg7 main_v52 ((fun l r => Host.dotGeneral dot_S16384x2176_S2176x256_S16384x256_1_0_0_1_n_n none l r) : (⟨S16384x2176, .f32⟩ : BufTy).Contents (Elt F) → (⟨S2176x256, .f32⟩ : BufTy).Contents (Elt F) → (⟨S16384x256, .f32⟩ : BufTy).Contents (Elt F)),
    unary main_arg8 main_v53 (broadcastInDim S1x256 ![1] bcast_S256_S1x256_1 : (⟨S256, .f32⟩ : BufTy).Contents (Elt F) → (⟨S1x256, .f32⟩ : BufTy).Contents (Elt F)),
    unary main_v53 main_v54 (broadcastInDim S16384x256 ![0, 1] bcast_S1x256_S16384x256_0_1 : (⟨S1x256, .f32⟩ : BufTy).Contents (Elt F) → (⟨S16384x256, .f32⟩ : BufTy).Contents (Elt F)),
    binary main_v52 main_v54 main_v55 (addf : (⟨S16384x256, .f32⟩ : BufTy).Contents (Elt F) → (⟨S16384x256, .f32⟩ : BufTy).Contents (Elt F) → (⟨S16384x256, .f32⟩ : BufTy).Contents (Elt F)),
    TRef.nullary main_call10.cst (constant S_ .f32 0x00000000#32),
    TRef.unary main_call10.cst main_call10.v0 (broadcastInDim S16384x256 ![] bcast_S_S16384x256),
    TRef.binary (.of main_v55 : TRef sig ⟨S16384x256, .f32⟩) main_call10.v0 main_call10.v1 maximumf,
    binary main_v56 main_arg9 main_v57 ((fun l r => Host.dotGeneral dot_S16384x256_S256x1_S16384x1_1_0_0_1_n_n none l r) : (⟨S16384x256, .f32⟩ : BufTy).Contents (Elt F) → (⟨S256x1, .f32⟩ : BufTy).Contents (Elt F) → (⟨S16384x1, .f32⟩ : BufTy).Contents (Elt F)),
    unary main_arg10 main_v58 (broadcastInDim S1x1 ![1] bcast_S1_S1x1_1 : (⟨S1, .f32⟩ : BufTy).Contents (Elt F) → (⟨S1x1, .f32⟩ : BufTy).Contents (Elt F)),
    unary main_v58 main_v59 (broadcastInDim S16384x1 ![0, 1] bcast_S1x1_S16384x1_0_1 : (⟨S1x1, .f32⟩ : BufTy).Contents (Elt F) → (⟨S16384x1, .f32⟩ : BufTy).Contents (Elt F)),
    binary main_v57 main_v59 main_v60 (addf : (⟨S16384x1, .f32⟩ : BufTy).Contents (Elt F) → (⟨S16384x1, .f32⟩ : BufTy).Contents (Elt F) → (⟨S16384x1, .f32⟩ : BufTy).Contents (Elt F)) ]

/-! ## The program is that straight line -/

/-- The first window of the program is the first four lines run in order: the functions' bodies unfolded at their
    calls, both sides are one chain of the same steps. -/
theorem main_part0_eq (c : Dev nD) : main_part0 (F := F) c = seq (ops1 ++ (ops2 ++ (ops3 ++ ops4))) := by
  chain_rfl

/-- The second window is the last two lines. -/
theorem main_part1_eq (c : Dev nD) : main_part1 (F := F) c = seq (ops5 ++ ops6) := by
  chain_rfl

/-- All 201 operations, in order. -/
abbrev ops : List (HloOp τ sig (Elt F)) := (ops1 ++ (ops2 ++ (ops3 ++ ops4))) ++ (ops5 ++ ops6)

theorem main_eq (c : Dev nD) : main (F := F) c = seq ops := by
  rw [ops, seq_append, ← main_part0_eq c, ← main_part1_eq c]
  rfl

/-! ## Side conditions: every buffer is one of the core's, no operation leaves its result to the machine -/

/-- Unfolds a line into one literal list. -/
macro "flat_ops" : tactic =>
  `(tactic| simp only [ops1, ops2, ops3, ops4, ops5, ops6, floorDivOps, remOps, seluOps, List.cons_append, List.nil_append])

/-- Every operation of a literal line touches only the core's references. -/
macro "bufs_sub" : tactic =>
  `(tactic| simp only [List.Forall, nullary_bufs_sub, unary_bufs_sub, binary_bufs_sub, ternary_bufs_sub, reshape_bufs_sub,
      nary_bufs_sub, and_self])

/-- Every operation of a literal line determines its result. -/
macro "fresh_none" : tactic =>
  `(tactic| (simp only [List.Forall]; repeat' apply And.intro) <;> rfl)

/-- Every operation of a literal line writes a buffer of the given list. -/
macro "writes_sub" : tactic =>
  `(tactic| (simp only [List.Forall]; repeat' apply And.intro) <;>
      (simp only [nullary_writes, unary_writes, binary_writes, ternary_writes, reshape_writes, nary_writes,
        Finset.singleton_subset_iff, List.mem_toFinset]; exact List.mem_map_of_mem (by decide)))

theorem ops1_sub : (ops1 : List (HloOp τ sig (Elt F))).Forall fun op => op.bufs ⊆ tcRefs τ sig := by flat_ops; bufs_sub
theorem ops2_sub : (ops2 : List (HloOp τ sig (Elt F))).Forall fun op => op.bufs ⊆ tcRefs τ sig := by flat_ops; bufs_sub
theorem ops3_sub : (ops3 : List (HloOp τ sig (Elt F))).Forall fun op => op.bufs ⊆ tcRefs τ sig := by flat_ops; bufs_sub
theorem ops4_sub : (ops4 : List (HloOp τ sig (Elt F))).Forall fun op => op.bufs ⊆ tcRefs τ sig := by flat_ops; bufs_sub
theorem ops5_sub : (ops5 : List (HloOp τ sig (Elt F))).Forall fun op => op.bufs ⊆ tcRefs τ sig := by flat_ops; bufs_sub
theorem ops6_sub : (ops6 : List (HloOp τ sig (Elt F))).Forall fun op => op.bufs ⊆ tcRefs τ sig := by flat_ops; bufs_sub

theorem ops_sub : (ops : List (HloOp τ sig (Elt F))).Forall fun op => op.bufs ⊆ tcRefs τ sig :=
  List.forall_append.2 ⟨List.forall_append.2 ⟨ops1_sub, List.forall_append.2 ⟨ops2_sub, List.forall_append.2 ⟨ops3_sub, ops4_sub⟩⟩⟩,
    List.forall_append.2 ⟨ops5_sub, ops6_sub⟩⟩

theorem ops1_fresh : (ops1 : List (HloOp τ sig (Elt F))).Forall fun op => op.fresh = ∅ := by flat_ops; fresh_none
theorem ops2_fresh : (ops2 : List (HloOp τ sig (Elt F))).Forall fun op => op.fresh = ∅ := by flat_ops; fresh_none
theorem ops3_fresh : (ops3 : List (HloOp τ sig (Elt F))).Forall fun op => op.fresh = ∅ := by flat_ops; fresh_none
theorem ops4_fresh : (ops4 : List (HloOp τ sig (Elt F))).Forall fun op => op.fresh = ∅ := by flat_ops; fresh_none
theorem ops5_fresh : (ops5 : List (HloOp τ sig (Elt F))).Forall fun op => op.fresh = ∅ := by flat_ops; fresh_none
theorem ops6_fresh : (ops6 : List (HloOp τ sig (Elt F))).Forall fun op => op.fresh = ∅ := by flat_ops; fresh_none

theorem ops_fresh : ∀ op ∈ (ops : List (HloOp τ sig (Elt F))), op.fresh = ∅ :=
  List.forall_iff_forall_mem.1
    (List.forall_append.2 ⟨List.forall_append.2 ⟨ops1_fresh, List.forall_append.2 ⟨ops2_fresh, List.forall_append.2 ⟨ops3_fresh, ops4_fresh⟩⟩⟩,
      List.forall_append.2 ⟨ops5_fresh, ops6_fresh⟩⟩)

theorem scopedRefs_eq : (Finset.univ.filter fun b : Ref sig .tc => b.isScoped) = ∅ := by decide
theorem scopedSems_eq : (Finset.univ.filter fun sm : SemLoc sig => sm.isScoped .tc) = ∅ := by decide

/-! ## What each line writes, and that it leaves every other buffer alone -/

/-- The buffers the first line writes. -/
abbrev ops1_W : List (Ref sig .tc) :=
  [main_v0, main_cst, main_v1, main_call0_v0, main_call0_c, main_call0_v1, main_call0_v2, main_call0_v3, main_call0_v4,
   main_call0_cst, main_call0_v5, main_v2, main_cst_0, main_v3, main_v4, main_call1_v0, main_call1_v1, main_call1_call0_c,
   main_call1_call0_v0, main_v5, main_c, main_v6, main_c_1, main_call2_v0, main_call2_v1, main_v7, main_c_2, main_v8, main_v9,
   main_c_3, main_v10, main_v11, main_v12, main_v13, main_c_4, main_v14, main_v15, main_call3_call0_c, main_call3_call0_v0,
   main_v16]
/-- The buffers the second line writes. -/
abbrev ops2_W : List (Ref sig .tc) :=
  [main_c_5, main_call4_v0, main_call4_v1, main_call4_v2, main_call4_v3, main_call4_v4, main_call4_v5, main_call4_v6,
   main_call4_v7, main_call4_c, main_call4_v8, main_call4_v9, main_call4_v10, main_call4_c_0, main_call4_v11, main_call4_v12,
   main_v17, main_c_6, main_call5_v0, main_call5_c, main_call5_v1, main_call5_c_0, main_call5_v2, main_call5_v3, main_call5_v4,
   main_call5_c_1, main_call5_v5, main_call5_v6, main_call5_c_2, main_call5_v7, main_call5_v8, main_call5_c_3, main_call5_v9,
   main_call5_v10, main_call5_v11, main_call5_v12, main_call5_v13, main_call5_v14, main_v18]
/-- The buffers the third line writes. -/
abbrev ops3_W : List (Ref sig .tc) :=
  [main_c_7, main_call6_v0, main_call6_v1, main_call6_v2, main_call6_v3, main_call6_v4, main_call6_v5, main_call6_v6,
   main_call6_v7, main_call6_c, main_call6_v8, main_call6_v9, main_call6_v10, main_call6_c_0, main_call6_v11, main_call6_v12,
   main_v19, main_c_8, main_call7_v0, main_call7_c, main_call7_v1, main_call7_c_0, main_call7_v2, main_call7_v3, main_call7_v4,
   main_call7_c_1, main_call7_v5, main_call7_v6, main_call7_c_2, main_call7_v7, main_call7_v8, main_call7_c_3, main_call7_v9,
   main_call7_v10, main_call7_v11, main_call7_v12, main_call7_v13, main_call7_v14, main_v20, main_c_9, main_v21, main_v22,
   main_c_10, main_v23, main_v24, main_v25, main_c_11, main_v26, main_v27, main_c_12, main_v28, main_v29, main_v30, main_v31,
   main_v32]
/-- The buffers the fourth line writes. -/
abbrev ops4_W : List (Ref sig .tc) :=
  [main_v33, main_v34, main_v35, main_v36, main_v37, main_v38, main_v39, main_call8_cst, main_call8_call0_cst,
   main_call8_call0_v0, main_call8_call0_v1, main_call8_call0_cst_0, main_call8_call0_v2, main_call8_call0_v3,
   main_call8_call0_cst_1, main_call8_call0_call0_v0, main_call8_call0_call0_v1, main_call8_call0_v4, main_call8_call0_v5,
   main_call8_call0_v6, main_call8_call0_v7, main_call8_call0_v8, main_call8_v0, main_call8_cst_0, main_call8_v1, main_v40,
   main_v41, main_v42, main_v43, main_v44]
/-- The buffers the fifth line writes. -/
abbrev ops5_W : List (Ref sig .tc) :=
  [main_call9_cst, main_call9_call0_cst, main_call9_call0_v0, main_call9_call0_v1, main_call9_call0_cst_0, main_call9_call0_v2,
   main_call9_call0_v3, main_call9_call0_cst_1, main_call9_call0_call0_v0, main_call9_call0_call0_v1, main_call9_call0_v4,
   main_call9_call0_v5, main_call9_call0_v6, main_call9_call0_v7, main_call9_call0_v8, main_call9_v0, main_call9_cst_0,
   main_call9_v1, main_v45, main_v46, main_v47, main_v48, main_v49, main_cst_13, main_v50]
/-- The buffers the sixth line writes. -/
abbrev ops6_W : List (Ref sig .tc) :=
  [main_v51, main_v52, main_v53, main_v54, main_v55, main_call10_cst, main_call10_v0, main_v56, main_v57, main_v58, main_v59,
   main_v60]

theorem ops1_writes : (ops1 : List (HloOp τ sig (Elt F))).Forall fun op =>
    op.writes ⊆ (ops1_W.map (Proc.devRef (τ := τ) .tc)).toFinset := by flat_ops; writes_sub
theorem ops2_writes : (ops2 : List (HloOp τ sig (Elt F))).Forall fun op =>
    op.writes ⊆ (ops2_W.map (Proc.devRef (τ := τ) .tc)).toFinset := by flat_ops; writes_sub
theorem ops3_writes : (ops3 : List (HloOp τ sig (Elt F))).Forall fun op =>
    op.writes ⊆ (ops3_W.map (Proc.devRef (τ := τ) .tc)).toFinset := by flat_ops; writes_sub
theorem ops4_writes : (ops4 : List (HloOp τ sig (Elt F))).Forall fun op =>
    op.writes ⊆ (ops4_W.map (Proc.devRef (τ := τ) .tc)).toFinset := by flat_ops; writes_sub
theorem ops5_writes : (ops5 : List (HloOp τ sig (Elt F))).Forall fun op =>
    op.writes ⊆ (ops5_W.map (Proc.devRef (τ := τ) .tc)).toFinset := by flat_ops; writes_sub
theorem ops6_writes : (ops6 : List (HloOp τ sig (Elt F))).Forall fun op =>
    op.writes ⊆ (ops6_W.map (Proc.devRef (τ := τ) .tc)).toFinset := by flat_ops; writes_sub

/-- A buffer the first line does not write keeps its contents through it; likewise for the other five. -/
theorem ops1_keep (V : Valuation τ sig (Elt F)) (r : Ref sig .tc) (h : r ∉ ops1_W) :
    after ops1 V (Proc.devRef .tc r) = V (Proc.devRef .tc r) := after_of_writes_sub ops1 V ops1_writes h
theorem ops2_keep (V : Valuation τ sig (Elt F)) (r : Ref sig .tc) (h : r ∉ ops2_W) :
    after ops2 V (Proc.devRef .tc r) = V (Proc.devRef .tc r) := after_of_writes_sub ops2 V ops2_writes h
theorem ops3_keep (V : Valuation τ sig (Elt F)) (r : Ref sig .tc) (h : r ∉ ops3_W) :
    after ops3 V (Proc.devRef .tc r) = V (Proc.devRef .tc r) := after_of_writes_sub ops3 V ops3_writes h
theorem ops4_keep (V : Valuation τ sig (Elt F)) (r : Ref sig .tc) (h : r ∉ ops4_W) :
    after ops4 V (Proc.devRef .tc r) = V (Proc.devRef .tc r) := after_of_writes_sub ops4 V ops4_writes h
theorem ops5_keep (V : Valuation τ sig (Elt F)) (r : Ref sig .tc) (h : r ∉ ops5_W) :
    after ops5 V (Proc.devRef .tc r) = V (Proc.devRef .tc r) := after_of_writes_sub ops5 V ops5_writes h
theorem ops6_keep (V : Valuation τ sig (Elt F)) (r : Ref sig .tc) (h : r ∉ ops6_W) :
    after ops6 V (Proc.devRef .tc r) = V (Proc.devRef .tc r) := after_of_writes_sub ops6 V ops6_writes h

/-! ## What each line computes

Each line's named results as stage terms of what it takes over. The operations of the outlined functions are first
rewritten to the plain operations at the same buffers, then each result is read off the line in one pass; what is left
is the stage's own definition unfolded. -/

/-- The outlined functions' operations of a line, as plain operations over literal buffers. -/
macro "plain_ops" : tactic =>
  `(tactic| simp only [ops1, ops2, ops3, ops4, ops5, ops6, floorDivOps, remOps, seluOps, List.cons_append, List.nil_append,
      main_call0, main_call1, main_call1_call0, main_call2, main_call3, main_call3_call0, main_call4, main_call4_call0,
      main_call5, main_call5_call0, main_call6, main_call6_call0, main_call7, main_call7_call0, main_call8, main_call8_call0,
      main_call8_call0_call0, main_call8_call0_call1, main_call9, main_call9_call0, main_call9_call0_call0,
      main_call9_call0_call1, main_call10,
      Cert.PlainOps.tnullary_eq, Cert.PlainOps.tunary_eq, Cert.PlainOps.tbinary_eq, Cert.PlainOps.tternary_eq])

attribute [local irreducible] Host.reduceWindow Host.scatter Host.gather Host.reduceAdd concatenate

/-- The first line leaves the Gram matrices of the first argument in their buffer. -/
theorem ops1_v0 (V : Valuation τ sig (Elt F)) :
    after ops1 V (main_v0 : DevRef τ sig) = Stages.gramA (V (main_arg0 : DevRef τ sig)) := by
  plain_ops; after_results_simp3; rfl

/-- The first line leaves the flat positions of the pairs in their buffer: no argument enters. -/
theorem ops1_v16 (V : Valuation τ sig (Elt F)) :
    after ops1 V (main_v16 : DevRef τ sig) = Stages.flatIdx (F := F) := by
  plain_ops; after_results_simp3; rfl

/-- The second line: the remainder by 64 of the floored quotient by 64 of what it finds as flat positions. -/
theorem ops2_v18 (V : Valuation τ sig (Elt F)) :
    after ops2 V (main_v18 : DevRef τ sig)
      = Stages.floorRem (Stages.floorDiv (V (main_v16 : DevRef τ sig)) (constantI S_ 32 64#32)) (constantI S_ 32 64#32) := by
  plain_ops; after_results_simp3; rfl

/-- The third line's first column: the first members, wrapped. -/
theorem ops3_v31 (V : Valuation τ sig (Elt F)) :
    after ops3 V (main_v31 : DevRef τ sig)
      = broadcastInDim S2016x1 ![0] bcast_S2016_S2016x1_0 (Stages.wrap64 (V (main_v18 : DevRef τ sig))) := by
  plain_ops; after_results_simp3; rfl

/-- The third line's second column: the remainder by 64 of the flat positions (their floored quotient by one), wrapped. -/
theorem ops3_v32 (V : Valuation τ sig (Elt F)) :
    after ops3 V (main_v32 : DevRef τ sig)
      = broadcastInDim S2016x1 ![0] bcast_S2016_S2016x1_0
          (Stages.wrap64 (Stages.floorRem (Stages.floorDiv (V (main_v16 : DevRef τ sig)) (constantI S_ 32 1#32))
            (constantI S_ 32 64#32))) := by
  plain_ops; after_results_simp3; rfl

/-- The fourth line gathers the Gram matrices it finds at the table joined from the two columns it finds. -/
theorem ops4_v34 (V : Valuation τ sig (Elt F)) :
    after ops4 V (main_v34 : DevRef τ sig)
      = Host.gather gather_S16384x64x64_S2016x2_S16384x2016_0_12_n_n_12_1_1638411 (V (main_v0 : DevRef τ sig))
          (concatenate S2016x2 1 [⟨S2016x1, V (main_v31 : DevRef τ sig)⟩, ⟨S2016x1, V (main_v32 : DevRef τ sig)⟩]
            concatenates_S2016x1_S2016x1_S2016x2_d1) := by
  plain_ops; after_results_simp3

/-- The fourth line leaves the second layer's sum before its activation. -/
theorem ops4_v44 (V : Valuation τ sig (Elt F)) :
    after ops4 V (main_v44 : DevRef τ sig)
      = addf (Host.dotGeneral dot_S16384x256_S256x256_S16384x256_1_0_0_1_n_n none
            (Stages.h1A (V (main_arg0 : DevRef τ sig)) (V (main_arg1 : DevRef τ sig)) (V (main_arg2 : DevRef τ sig)))
            (V (main_arg3 : DevRef τ sig)))
          (Stages.bias256 (V (main_arg4 : DevRef τ sig))) := by
  plain_ops; after_results_simp3; rfl

/-- The fifth line: the perceptron's output from the second layer's sum it finds. -/
theorem ops5_v49 (V : Valuation τ sig (Elt F)) :
    after ops5 V (main_v49 : DevRef τ sig)
      = Stages.hoiA (Stages.seluA (V (main_v44 : DevRef τ sig))) (V (main_arg5 : DevRef τ sig)) (V (main_arg6 : DevRef τ sig)) := by
  plain_ops; after_results_simp3; rfl

/-- The fifth line: the sums over the fields. -/
theorem ops5_v50 (V : Valuation τ sig (Elt F)) :
    after ops5 V (main_v50 : DevRef τ sig) = Stages.foA (V (main_arg0 : DevRef τ sig)) := by
  plain_ops; after_results_simp3; rfl

/-- The sixth line: the head on the row joined from the three pieces it finds. -/
theorem ops6_v60 (V : Valuation τ sig (Elt F)) :
    after ops6 V (main_v60 : DevRef τ sig)
      = Stages.headA (Stages.cinA (V (main_v49 : DevRef τ sig)) (V (main_v34 : DevRef τ sig)) (V (main_v50 : DevRef τ sig)))
          (V (main_arg7 : DevRef τ sig)) (V (main_arg8 : DevRef τ sig)) (V (main_arg9 : DevRef τ sig)) (V (main_arg10 : DevRef τ sig)) := by
  plain_ops; after_results_simp3; rfl

/-! ## The whole line -/

/-- The whole line's contents are the six lines' in turn. -/
theorem after_ops (V : Valuation τ sig (Elt F)) :
    after ops V = after ops6 (after ops5 (after ops4 (after ops3 (after ops2 (after ops1 V))))) := by
  simp only [ops, after_append]

/-- A buffer none of the six lines writes keeps its contents through all of them. -/
theorem ops_keep (V : Valuation τ sig (Elt F)) (r : Ref sig .tc) (h1 : r ∉ ops1_W) (h2 : r ∉ ops2_W) (h3 : r ∉ ops3_W)
    (h4 : r ∉ ops4_W) (h5 : r ∉ ops5_W) (h6 : r ∉ ops6_W) :
    after ops V (Proc.devRef .tc r) = V (Proc.devRef .tc r) := by
  rw [after_ops, ops6_keep _ r h6, ops5_keep _ r h5, ops4_keep _ r h4, ops3_keep _ r h3, ops2_keep _ r h2, ops1_keep _ r h1]

/-- The result buffer after the whole line: each line's results put into the next one's, the stages' composed value of
    the eleven arguments' contents. -/
theorem out_eq (V : Valuation τ sig (Elt F)) :
    after ops V (main_v60 : DevRef τ sig)
      = Stages.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  rw [after_ops, ops6_v60]
  rw [ops5_v49, ops5_v50, ops5_keep _ main_v34 (by decide), ops5_keep _ main_arg7 (by decide), ops5_keep _ main_arg8 (by decide),
    ops5_keep _ main_arg9 (by decide), ops5_keep _ main_arg10 (by decide)]
  rw [ops4_v44, ops4_v34, ops4_keep _ main_arg0 (by decide), ops4_keep _ main_arg5 (by decide), ops4_keep _ main_arg6 (by decide),
    ops4_keep _ main_arg7 (by decide), ops4_keep _ main_arg8 (by decide), ops4_keep _ main_arg9 (by decide),
    ops4_keep _ main_arg10 (by decide)]
  rw [ops3_v31, ops3_v32, ops3_keep _ main_v0 (by decide), ops3_keep _ main_arg0 (by decide), ops3_keep _ main_arg1 (by decide),
    ops3_keep _ main_arg2 (by decide), ops3_keep _ main_arg3 (by decide), ops3_keep _ main_arg4 (by decide),
    ops3_keep _ main_arg5 (by decide), ops3_keep _ main_arg6 (by decide), ops3_keep _ main_arg7 (by decide),
    ops3_keep _ main_arg8 (by decide), ops3_keep _ main_arg9 (by decide), ops3_keep _ main_arg10 (by decide)]
  rw [ops2_v18, ops2_keep _ main_v16 (by decide), ops2_keep _ main_v0 (by decide), ops2_keep _ main_arg0 (by decide),
    ops2_keep _ main_arg1 (by decide), ops2_keep _ main_arg2 (by decide), ops2_keep _ main_arg3 (by decide),
    ops2_keep _ main_arg4 (by decide), ops2_keep _ main_arg5 (by decide), ops2_keep _ main_arg6 (by decide),
    ops2_keep _ main_arg7 (by decide), ops2_keep _ main_arg8 (by decide), ops2_keep _ main_arg9 (by decide),
    ops2_keep _ main_arg10 (by decide)]
  rw [ops1_v16, ops1_v0, ops1_keep _ main_arg0 (by decide), ops1_keep _ main_arg1 (by decide), ops1_keep _ main_arg2 (by decide),
    ops1_keep _ main_arg3 (by decide), ops1_keep _ main_arg4 (by decide), ops1_keep _ main_arg5 (by decide),
    ops1_keep _ main_arg6 (by decide), ops1_keep _ main_arg7 (by decide), ops1_keep _ main_arg8 (by decide),
    ops1_keep _ main_arg9 (by decide), ops1_keep _ main_arg10 (by decide)]
  rfl

/-- On every device, for any float values, from any memory with zero counters: every weakly fair execution of the
    reference program terminates with the result buffer at the stages' composed value of the arguments' launch contents,
    and the eleven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60)
        = Stages.refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      ⟨(h c main_v60).trans (out_eq _),
       (h c main_arg0).trans (ops_keep _ main_arg0 (by decide) (by decide) (by decide) (by decide) (by decide) (by decide)),
       (h c main_arg1).trans (ops_keep _ main_arg1 (by decide) (by decide) (by decide) (by decide) (by decide) (by decide)),
       (h c main_arg2).trans (ops_keep _ main_arg2 (by decide) (by decide) (by decide) (by decide) (by decide) (by decide)),
       (h c main_arg3).trans (ops_keep _ main_arg3 (by decide) (by decide) (by decide) (by decide) (by decide) (by decide)),
       (h c main_arg4).trans (ops_keep _ main_arg4 (by decide) (by decide) (by decide) (by decide) (by decide) (by decide)),
       (h c main_arg5).trans (ops_keep _ main_arg5 (by decide) (by decide) (by decide) (by decide) (by decide) (by decide)),
       (h c main_arg6).trans (ops_keep _ main_arg6 (by decide) (by decide) (by decide) (by decide) (by decide) (by decide)),
       (h c main_arg7).trans (ops_keep _ main_arg7 (by decide) (by decide) (by decide) (by decide) (by decide) (by decide)),
       (h c main_arg8).trans (ops_keep _ main_arg8 (by decide) (by decide) (by decide) (by decide) (by decide) (by decide)),
       (h c main_arg9).trans (ops_keep _ main_arg9 (by decide) (by decide) (by decide) (by decide) (by decide) (by decide)),
       (h c main_arg10).trans (ops_keep _ main_arg10 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.LibCumsum.lean ====
/-
  A running sum as a windowed reduction.

  A one-axis array of n words, reduced by addition over windows of n positions that start n − 1 positions before the
  array (the padding holding the initial word), has at position i the sum of the entries 0 … i, when the initial word is
  zero: the window at i covers the positions i − (n − 1) … i, of which those below zero are padding.
-/
import Idealize.ShloMosaic.Lib.ValueIdx
import Mathlib.Algebra.BigOperators.Group.Finset.Basic
import Mathlib.Algebra.BigOperators.Fin
import Mathlib.Data.BitVec

open scoped BigOperators

namespace Cert.LibCumsum

open Idealize.ShloMosaic Idealize.ShloMosaic.ValueIdx

/-- A left fold of word addition over a list, from v, is v plus the sum of the list's terms: addition is associative. -/
private theorem foldl_addi_eq {ι : Type} (g : ι → BitVec 32) (l : List ι) (v : BitVec 32) :
    l.foldl (fun r m => IntOp.addi r (g m)) v = v + (l.map g).sum := by
  induction l generalizing v with
  | nil => simp
  | cons a l ih => rw [List.foldl_cons, ih]; simp [IntOp.addi, add_assoc]

/-- The same fold over all positions 0 … k − 1 in order is v plus the sum over those positions. -/
private theorem foldl_finRange_addi {k : Nat} (g : Fin k → BitVec 32) (v : BitVec 32) :
    (List.finRange k).foldl (fun r m => IntOp.addi r (g m)) v = v + ∑ m, g m := by
  rw [foldl_addi_eq, Fin.sum_univ_def]

/-- The indices of a one-axis shape of size n are the positions 0 … n − 1. -/
private def idxEquiv1 {n : Nat} : Fin n ≃ (⟨1, ![n]⟩ : Shape).Idx where
  toFun := ix1
  invFun j := j 0
  left_inv _ := rfl
  right_inv j := (eq_ix1 j).symm

private theorem idxEquiv1_apply {n : Nat} (a : Fin n) : idxEquiv1 a = ix1 a := rfl

/-- The one coordinate of a one-axis index is the position it was made from. -/
private theorem ix1_val {n : Nat} (a : Fin n) (d : Fin 1) : (ix1 a d).val = a.val := by
  match d with
  | ⟨0, _⟩ => rfl

/-- A choice whose first branch uses the evidence of its condition equals a plain choice on an equivalent
    condition, when the first branch's value does not depend on the evidence. -/
private theorem dite_eq_ite_of {α : Type} {c d : Prop} [Decidable c] [Decidable d] {t : c → α} {e t' : α}
    (hcd : c ↔ d) (ht : ∀ hc : c, t hc = t') : (if hc : c then t hc else e) = if d then t' else e := by
  by_cases hc : c
  · rw [dif_pos hc, if_pos (hcd.1 hc), ht hc]
  · rw [dif_neg hc, if_neg (fun hd => hc (hcd.2 hd))]

/-- Sliding a window of n positions that ends at i over 0 … n − 1: position k of the window reads entry
    i + k − (n − 1) when that is not negative. The map k ↦ i + k − (n − 1) is a bijection from the window positions
    k ≥ n − 1 − i onto the entries 0 … i (its inverse is q ↦ q + (n − 1) − i), so the two sums have the same terms. -/
private theorem sum_shift_window {M : Type} [AddCommMonoid M] (f : ℕ → M) {n i : ℕ} (hi : i < n) :
    ∑ k ∈ Finset.range n, (if n - 1 ≤ i + k then f (i + k - (n - 1)) else 0)
      = ∑ k ∈ Finset.range n, if k ≤ i then f k else 0 := by
  rw [← Finset.sum_filter, ← Finset.sum_filter]
  refine Finset.sum_nbij' (fun k => i + k - (n - 1)) (fun q => q + (n - 1) - i) ?_ ?_ ?_ ?_ (fun _ _ => rfl) <;>
    simp only [Finset.mem_filter, Finset.mem_range] <;> intros <;> omega

/-- The array continued by zero past its end, as a function of the natural numbers. -/
private def ext0 {n : Nat} (x : IVec ⟨1, ![n]⟩ 32) (k : ℕ) : BitVec 32 :=
  if hk : k < n then x (ix1 ⟨k, hk⟩) else 0#32

/-- Entry i of the running sum: the sum of the entries up to and including i.

    The windowed reduction at i is the left fold of addition, from the initial word, over the n positions w of the
    window; position w reads entry i + w − (n − 1) of the array when that is not negative (it is then at most i, so
    inside the array) and the initial word otherwise. With the initial word zero the fold is the sum of these n terms
    (addition is associative with zero neutral); the terms that are not padding are exactly the entries 0 … i, each
    once, since w ↦ i + w − (n − 1) maps the positions w ≥ n − 1 − i one-to-one onto 0 … i. -/
theorem cumsum_apply {n : Nat} (x : IVec ⟨1, ![n]⟩ 32) (init : IVec ⟨0, ![]⟩ 32)
    (h : (⟨1, ![n]⟩ : Shape).ReduceWindows (![n] : Fin 1 → Nat) ![1] ![n - 1] ![0] ⟨1, ![n]⟩)
    (hu : 0 < (⟨0, ![]⟩ : Shape).numel) (hinit : init ix0 = 0#32) (i : Fin n) :
    Host.reduceWindow IntOp.addi ![n] ![1] ![n - 1] ![0] x init h hu (ix1 i)
      = ∑ q : Fin n, if q.val ≤ i.val then x (ix1 q) else 0#32 := by
  -- the initial word is zero: the rank-zero shape has one index
  have hv : init (Shape.Idx.first hu) = 0#32 := by rw [eq_ix0 (Shape.Idx.first hu)]; exact hinit
  unfold Host.reduceWindow
  simp only []
  -- the fold is the sum over the window's row-major positions, which are the positions 0 … n − 1 of its one axis
  rw [foldl_finRange_addi, hv, BitVec.zero_add,
    ← (idxEquiv1.trans (⟨1, ![n]⟩ : Shape).rowMajor).sum_comp]
  simp only [Equiv.trans_apply, Equiv.symm_apply_apply]
  trans (∑ w : Fin n, if n - 1 ≤ i.val + w.val then ext0 x (i.val + w.val - (n - 1)) else 0#32)
  · -- term by term: the position read is i · 1 + w − (n − 1); it is inside the array exactly when n − 1 ≤ i + w
    refine Finset.sum_congr rfl fun w _ => dite_eq_ite_of ?_ ?_
    · rw [Fin.forall_fin_one]
      simp only [ix1_val, idxEquiv1_apply, Matrix.cons_val_zero]
      have hw : (ix1 w (0 : Fin 1)).val = w.val := rfl
      omega
    · intro hc
      have hk : i.val + w.val - (n - 1) < n := by omega
      rw [ext0, dif_pos hk]
      congr 1
      funext a
      apply Fin.ext
      simp only [ix1_val, idxEquiv1_apply]
      obtain rfl : a = 0 := Subsingleton.elim _ _
      simp
  · -- both sums as sums over the natural numbers below n, then the shift of the window
    have e1 := Fin.sum_univ_eq_sum_range (fun k => if n - 1 ≤ i.val + k then ext0 x (i.val + k - (n - 1)) else 0#32) n
    have e2 := Fin.sum_univ_eq_sum_range (fun k => if k ≤ i.val then ext0 x k else 0#32) n
    refine e1.trans ((sum_shift_window (ext0 x) i.isLt).trans (e2.symm.trans ?_))
    refine Finset.sum_congr rfl fun q _ => ?_
    simp [ext0]

end Cert.LibCumsum
-- ==== Proof.RefCounts.lean ====
/-
  The reference's counters: for each value k below 2016, how many of the 4096 flat positions have running count k.

  The stages are read one at a time at an explicit index. The strict upper triangle of ones is one exactly where the row
  is below the column; compared with zero it gives the truth value of "row < column"; read in row-major order as 4096
  words, position q carries one exactly when q / 64 < q % 64. The running sum of these words at position p is the word
  of the number of such positions among 0 … p. That number is at most p + 1 ≤ 4096, so as a signed word it is not
  negative, and clipping at zero and wrapping negative words change nothing. The accumulating scatter, a left fold over
  the 4096 updates, read at counter k is zero plus one for every update that lands on k; update p lands on k exactly
  when its index word, read signed, is k — that is, when the running count at p is k.
-/
import proofs.«121141_j14594298872614_1_alg».proof.Proof.RefStages
import proofs.«121141_j14594298872614_1_alg».proof.Proof.Gen.ReferenceIdeal
import proofs.«121141_j14594298872614_1_alg».proof.Proof.TriuTable
import proofs.«121141_j14594298872614_1_alg».proof.Proof.LibCumsum
import proofs.«121141_j14594298872614_1_alg».proof.Proof.LibScatterLanding
import Idealize.ShloMosaic.Lib.ValueIdx
import Idealize.ShloMosaic.Lib.IdealHost
import Idealize.ShloMosaic.Lib.Pipeline.Value
import Idealize.ShloMosaic.Lib.StableHlo.Predicate

noncomputable section

namespace Cert.ReferenceIdeal.RefCounts

open Cert.ReferenceIdeal Cert.ReferenceIdeal.Gen Idealize.ShloMosaic Idealize.ShloMosaic.ValueIdx
open scoped BigOperators

/-! ## The triangle and its truth values -/

/-- A signed comparison of two small words: row i is at least column j exactly when j ≤ i. -/
theorem sge_small (i j : Fin 64) :
    IntOp.cmpi .sge (IntOp.addi (BitVec.ofNat 32 i.val) 0#32) (BitVec.ofNat 32 j.val)
      = if j.val ≤ i.val then 1#1 else 0#1 := by
  have hi : (BitVec.ofNat 32 i.val).toInt = i.val := StableHlo.Predicate.toInt_ofNat_small _ (by omega)
  have hj : (BitVec.ofNat 32 j.val).toInt = j.val := StableHlo.Predicate.toInt_ofNat_small _ (by omega)
  have h0 : IntOp.addi (BitVec.ofNat 32 i.val) 0#32 = BitVec.ofNat 32 i.val := BitVec.add_zero _
  rw [h0]
  by_cases h : j.val ≤ i.val
  · rw [if_pos h]
    exact IntOp.cmpi_sge.2 (by rw [hi, hj]; exact_mod_cast h)
  · rw [if_neg h]
    refine eq_zero_of_ne_one fun e => h ?_
    have := IntOp.cmpi_sge.1 e
    rw [hi, hj] at this
    exact_mod_cast this

/-- The strict upper triangle of ones at row i, column j: zero where j ≤ i, one elsewhere. -/
theorem triuOnes_apply (i j : Fin 64) :
    Stages.triuOnes (F := Ideal) (ix2 i j) = if j.val ≤ i.val then (0 : EReal) else 1 := by
  unfold Stages.triuOnes
  rw [select_apply]
  show Scalar.select (IntOp.cmpi .sge (IntOp.addi (iotaInDim S64x64 32 0 (ix2 i j))
      (broadcastInDim S64x64 ![] _ (constantI S_ 32 0#32) (ix2 i j))) (iotaInDim S64x64 32 1 (ix2 i j)))
    (broadcastInDim S64x64 ![] _ (constant (F := Ideal) S_ .f32 0x00000000#32) (ix2 i j))
    (broadcastInDim S64x64 ![] _ (constant (F := Ideal) S_ .f32 0x3F800000#32) (ix2 i j)) = _
  rw [broadcastInDim_scalar_apply, broadcastInDim_scalar_apply, broadcastInDim_scalar_apply, iotaInDim_apply,
    iotaInDim_apply, constant_apply, constant_apply, Ideal.ofBits_zero_f32, Ideal.ofBits_one_f32]
  show Scalar.select (IntOp.cmpi .sge (IntOp.addi (BitVec.ofNat 32 i.val) 0#32) (BitVec.ofNat 32 j.val)) (0 : EReal) 1 = _
  rw [sge_small]
  by_cases h : j.val ≤ i.val
  · rw [if_pos h, if_pos h]; exact select_one _ _
  · rw [if_neg h, if_neg h]; exact select_zero _ _

/-- The truth value "the triangle's entry is not zero" at row i, column j: true exactly when i < j. -/
theorem mask_apply (i j : Fin 64) :
    Stages.mask (F := Ideal) (ix2 i j) = if i.val < j.val then 1#1 else 0#1 := by
  unfold Stages.mask
  rw [cmpf_apply, triuOnes_apply, broadcastInDim_scalar_apply, constant_apply, Ideal.ofBits_zero_f32]
  show Ideal.cmp .une _ _ = _
  unfold Ideal.cmp
  by_cases h : j.val ≤ i.val
  · rw [if_pos h, if_neg (by omega)]
    simp
  · rw [if_neg h, if_pos (by omega)]
    simp

/-- The widened truth value at flat position q: one on the strict upper triangle (row q / 64 below column q % 64),
    zero elsewhere — the reshape reads the matrix in row-major order. -/
theorem wide_apply (q : Fin 4096) :
    extui 32 (shapeCast S4096 (Stages.mask (F := Ideal)) Facts₀.shapeCasts_S64x64_S4096) Facts₀.natLt_1_32 (ix1 q)
      = if Cert.Triu.up q.val then 1#32 else 0#32 := by
  rw [extui_apply,
    shapeCast_apply _ _ (ix1 q) (ix2 (⟨q.val / 64, by omega⟩ : Fin 64) (⟨q.val % 64, by omega⟩ : Fin 64))
      (by rw [Shape.rowMajor_val_two, Shape.rowMajor_val_one]
          show q.val / 64 * 64 + q.val % 64 = q.val
          omega),
    mask_apply]
  show (if q.val / 64 < q.val % 64 then 1#1 else 0#1).setWidth 32 = if q.val / 64 < q.val % 64 then 1#32 else 0#32
  by_cases h : q.val / 64 < q.val % 64
  · rw [if_pos h, if_pos h]; decide
  · rw [if_neg h, if_neg h]; decide

/-! ## The running count -/

/-- A sum of ones over the upper-triangle positions up to p, as a 32-bit word, is the word of their number. -/
theorem sum_up_eq (p : Fin 4096) :
    (∑ q : Fin 4096, if q.val ≤ p.val then (if Cert.Triu.up q.val then 1#32 else 0#32) else 0#32)
      = BitVec.ofNat 32 (Cert.Triu.cN p.val) := by
  rw [Fin.sum_univ_eq_sum_range (fun q => if q ≤ p.val then (if Cert.Triu.up q then 1#32 else 0#32) else 0#32) 4096]
  show (∑ q ∈ Finset.range 4096, if q ≤ p.val then (if Cert.Triu.up q then (1 : BitVec 32) else 0) else 0) = _
  rw [← Finset.sum_filter]
  have hr : (Finset.range 4096).filter (fun q => q ≤ p.val) = Finset.range (p.val + 1) := by
    ext q
    simp only [Finset.mem_filter, Finset.mem_range]
    omega
  rw [hr, Finset.sum_boole]
  exact BitVec.natCast_eq_ofNat 32 _

/-- The running count at flat position p is the word of the number of upper-triangle positions up to p. -/
theorem csum_apply (p : Fin 4096) :
    Stages.csum (F := Ideal) (ix1 p) = BitVec.ofNat 32 (Cert.Triu.cN p.val) := by
  unfold Stages.csum
  refine (Cert.LibCumsum.cumsum_apply (n := 4096) _ _ Facts₀.reduceWindows_S4096_S4096_w4096s1p4095_0 Facts₀.h_S_ ?_ p).trans ?_
  · rw [broadcastInDim_scalar_apply]; rfl
  · rw [← sum_up_eq]
    refine Finset.sum_congr rfl fun q _ => ?_
    rw [wide_apply]

/-! ## Clipping and wrapping change nothing -/

/-- The running count up to p counts positions among 0 … p, so it is at most p + 1. -/
theorem cN_le_succ (p : ℕ) : Cert.Triu.cN p ≤ p + 1 :=
  (Finset.card_filter_le _ _).trans_eq (Finset.card_range _)

/-- The running count at one of the 4096 flat positions is at most 4096. -/
theorem cN_le_4096 (p : Fin 4096) : Cert.Triu.cN p.val ≤ 4096 := (cN_le_succ p.val).trans p.isLt

/-- A word of a number at most 4096, read signed, is that number. -/
theorem toInt_small (n : ℕ) (hn : n ≤ 4096) : (BitVec.ofNat 32 n).toInt = n :=
  StableHlo.Predicate.toInt_ofNat_small n (by omega)

/-- The signed maximum of zero and a word of a number at most 4096 is that word. -/
theorem maxsi_small (n : ℕ) (hn : n ≤ 4096) : IntOp.maxsi 0#32 (BitVec.ofNat 32 n) = BitVec.ofNat 32 n := by
  have hz : (0#32 : BitVec 32).toInt = 0 := by decide
  have h : ¬ (BitVec.ofNat 32 n).slt 0#32 = true := by
    rw [BitVec.slt_iff_toInt_lt, hz, toInt_small n hn]; omega
  exact if_neg h

/-- A word of a number at most 4096 is not below zero as a signed word. -/
theorem slt_small (n : ℕ) (hn : n ≤ 4096) : IntOp.cmpi .slt (BitVec.ofNat 32 n) 0#32 = 0#1 := by
  have hz : (0#32 : BitVec 32).toInt = 0 := by decide
  refine eq_zero_of_ne_one fun e => ?_
  have := IntOp.cmpi_slt.1 e
  rw [hz, toInt_small n hn] at this
  omega

/-- A word laid out over 4096 entries reads that word everywhere. -/
theorem splat4096_apply (w : BitVec 32) (j : S4096.Idx) : Stages.splat4096 w j = w :=
  broadcastInDim_scalar_apply _ _ _

/-- A word laid out over 2016 entries reads that word everywhere. -/
theorem splat2016_apply (w : BitVec 32) (j : S2016.Idx) : Stages.splat2016 w j = w :=
  broadcastInDim_scalar_apply _ _ _

/-- The clipped running count is the running count: it is not negative. -/
theorem clipped_apply (p : Fin 4096) :
    Stages.clipped (F := Ideal) (ix1 p) = BitVec.ofNat 32 (Cert.Triu.cN p.val) := by
  unfold Stages.clipped
  show IntOp.maxsi (Stages.splat4096 0#32 (ix1 p)) (Stages.csum (F := Ideal) (ix1 p)) = _
  rw [csum_apply, splat4096_apply]
  exact maxsi_small _ (cN_le_4096 p)

/-- The wrapped running count is the running count: it is not negative. -/
theorem wrapped_apply (p : Fin 4096) :
    Stages.wrapped (F := Ideal) (ix1 p) = BitVec.ofNat 32 (Cert.Triu.cN p.val) := by
  unfold Stages.wrapped
  rw [select_apply]
  show Scalar.select (IntOp.cmpi .slt (Stages.clipped (F := Ideal) (ix1 p)) (Stages.splat4096 0#32 (ix1 p))) _
    (Stages.clipped (F := Ideal) (ix1 p)) = _
  rw [clipped_apply, splat4096_apply, slt_small _ (cN_le_4096 p)]
  exact select_zero _ _

/-! ## The accumulating scatter read at one element -/

section Fold

variable {ι γ M : Type} [AddMonoid M]

/-- A left fold whose every step adds to the value at i a quantity depending on the member alone: the fold's value at
    i is the initial value there plus the sum of those quantities, in order. -/
theorem foldl_add_at (F : (γ → M) → ι → (γ → M)) (i : γ) (g : ι → M) (hF : ∀ n r', F r' n i = r' i + g n) :
    ∀ (l : List ι) (r : γ → M), l.foldl F r i = r i + (l.map g).sum
  | [], r => by rw [List.foldl_nil, List.map_nil, List.sum_nil, add_zero]
  | n :: l, r => by
    rw [List.foldl_cons, foldl_add_at F i g hF l (F r n), hF, List.map_cons, List.sum_cons, add_assoc]

end Fold

/-- The accumulating scatter at an element, for any scatter dimension numbers and any body that is an addition: the
    operand there plus the sum of the updates that land there. Each step of the fold changes the value at i only when
    its update lands on i, and then adds the update. -/
theorem scatter_add_at {s si u : Shape} {w : Nat} {M : Type} [AddCommMonoid M] (d : ScatterDims s si u)
    (f : M → M → M) (hf : ∀ a b, f a b = a + b) (x : s.Idx → M) (idx : IVec si w) (upd : u.Idx → M) (i : s.Idx) :
    Host.scatter d f x idx upd i
      = x i + ∑ j ∈ Finset.univ.filter (fun j => d.resultIdx? j idx = some i), upd j := by
  unfold Host.scatter
  rw [foldl_add_at _ i (fun n => if d.resultIdx? (u.rowMajor.symm n) idx = some i then upd (u.rowMajor.symm n) else 0)
    ?_ (List.finRange u.numel) x]
  · rw [← Fin.sum_univ_def, Finset.sum_filter]
    exact congrArg (x i + ·)
      (Equiv.sum_comp u.rowMajor.symm (fun j => if d.resultIdx? j idx = some i then upd j else 0))
  · intro n r'
    generalize h1 : d.resultIdx? (u.rowMajor.symm n) idx = o
    cases o with
    | none => rw [if_neg (by simp), add_zero]
    | some i1 =>
      by_cases e : i = i1
      · subst e
        rw [if_pos rfl]
        show (if i = i then f (r' i) (upd (u.rowMajor.symm n)) else r' i) = _
        rw [if_pos rfl, hf]
      · rw [if_neg (fun h => e (Option.some.inj h).symm), add_zero]
        exact if_neg e

/-! ## The counters -/

/-- The index words the scatter reads: the wrapped running counts as a column. -/
abbrev idxW : IVec S4096x1 32 :=
  broadcastInDim S4096x1 ![0] Facts₀.bcast_S4096_S4096x1_0 (Stages.wrapped (F := Ideal))

/-- The start of update p on the counters' one axis is the index word of row p, read signed. -/
theorem start_eq (p : Fin 4096) (idx : IVec S4096x1 32) :
    scatter_S2016_S4096x1_S4096_n_0_0_1.start (ix1 p) idx 0 = (idx (ix2 p (0 : Fin 1))).toInt := by
  refine (rfl : scatter_S2016_S4096x1_S4096_n_0_0_1.start (ix1 p) idx 0
    = (idx (scatter_S2016_S4096x1_S4096_n_0_0_1.siIdx (ix1 p) ⟨0, by decide⟩)).toInt).trans ?_
  refine congrArg (fun k => (idx k).toInt) (funext fun b => ?_)
  match b with
  | ⟨0, _⟩ => rfl
  | ⟨1, _⟩ => rfl

/-- An update has no window coordinate on the counters' axis: the axis is inserted. -/
theorem window_eq (p : Fin 4096) : scatter_S2016_S4096x1_S4096_n_0_0_1.window (ix1 p) 0 = 0 := rfl

/-- The index word of row p is the word of the running count at p. -/
theorem idxW_apply (p : Fin 4096) : idxW (ix2 p (0 : Fin 1)) = BitVec.ofNat 32 (Cert.Triu.cN p.val) := by
  unfold idxW
  rw [broadcastInDim_apply _ _ _ _ (ix1 p) (fun a => by match a with | ⟨0, _⟩ => rfl), wrapped_apply]

/-- Update p lands on counter k exactly when the running count at p is k. -/
theorem lands_iff (p : Fin 4096) (k : Fin 2016) :
    scatter_S2016_S4096x1_S4096_n_0_0_1.resultIdx? (ix1 p) idxW = some (ix1 k) ↔ Cert.Triu.cN p.val = k.val := by
  rw [Cert.Sage.resultIdx?_eq_some_iff]
  have hs : scatter_S2016_S4096x1_S4096_n_0_0_1.start (ix1 p) idxW 0
      + (scatter_S2016_S4096x1_S4096_n_0_0_1.window (ix1 p) 0 : Int) = (Cert.Triu.cN p.val : Int) := by
    rw [start_eq, window_eq, idxW_apply, toInt_small _ (cN_le_4096 p)]
    exact add_zero _
  constructor
  · intro h
    have h0 := h 0
    rw [hs] at h0
    exact_mod_cast h0
  · intro h a
    match a with
    | ⟨0, _⟩ =>
      show scatter_S2016_S4096x1_S4096_n_0_0_1.start (ix1 p) idxW 0
        + (scatter_S2016_S4096x1_S4096_n_0_0_1.window (ix1 p) 0 : Int) = (k.val : Int)
      rw [hs, h]

/-- As many updates land on counter k as there are flat positions with running count k. -/
theorem card_lands (k : Fin 2016) :
    (Finset.univ.filter fun j : S4096.Idx =>
        scatter_S2016_S4096x1_S4096_n_0_0_1.resultIdx? j idxW = some (ix1 k)).card
      = ((Finset.range 4096).filter fun p => Cert.Triu.cN p = k.val).card := by
  refine Finset.card_bij (fun j _ => (j 0).val) ?_ ?_ ?_
  · intro j hj
    obtain ⟨p, rfl⟩ : ∃ p : Fin 4096, j = ix1 p := ⟨j 0, eq_ix1 j⟩
    exact Finset.mem_filter.2 ⟨Finset.mem_range.2 p.isLt, (lands_iff p k).1 (Finset.mem_filter.1 hj).2⟩
  · intro j1 _ j2 _ h
    obtain ⟨p1, rfl⟩ : ∃ p : Fin 4096, j1 = ix1 p := ⟨j1 0, eq_ix1 j1⟩
    obtain ⟨p2, rfl⟩ : ∃ p : Fin 4096, j2 = ix1 p := ⟨j2 0, eq_ix1 j2⟩
    exact congrArg ix1 (Fin.ext h)
  · intro p hp
    have hp' := Finset.mem_filter.1 hp
    refine ⟨ix1 ⟨p, Finset.mem_range.1 hp'.1⟩, Finset.mem_filter.2 ⟨Finset.mem_univ _, ?_⟩, rfl⟩
    exact (lands_iff ⟨p, Finset.mem_range.1 hp'.1⟩ k).2 hp'.2

/-- The counter of value k: the number of flat positions whose running count of upper-triangle positions is k. -/
theorem counts_apply (k : Fin 2016) :
    Stages.counts (F := Ideal) (ix1 k)
      = BitVec.ofNat 32 ((Finset.range 4096).filter fun p => Cert.Triu.cN p = k.val).card := by
  unfold Stages.counts
  rw [scatter_add_at _ IntOp.addi (fun _ _ => rfl), splat2016_apply,
    Finset.sum_congr rfl (fun j _ => splat4096_apply 1#32 j)]
  show (0 : BitVec 32) + ∑ _j ∈ Finset.univ.filter (fun j : S4096.Idx =>
    scatter_S2016_S4096x1_S4096_n_0_0_1.resultIdx? j idxW = some (ix1 k)), (1 : BitVec 32) = _
  rw [zero_add, Finset.sum_const, nsmul_one, card_lands]
  exact BitVec.natCast_eq_ofNat 32 _

end Cert.ReferenceIdeal.RefCounts

end
-- ==== Proof.RefIndex.lean ====
/-
  The reference's computed pair list is the literal list.

  The reference splits the flat position  f = 64 · i + j  of the k-th pair into  i = f div 64  and  j = f mod 64  with
  a floored quotient, a remainder carrying the divisor's sign, and a wrap of negative results by 64, all on signed
  32-bit words. The flat position is the running sum of the counters, which is the k-th entry of the literal table and
  lies below 4096. Every operation involved acts entry by entry, so each of the three functions at an entry is a
  function of single words; on the words of the numbers below 4096 these word functions are the ordinary quotient and
  remainder of natural numbers, a finite statement verified value by value.
-/
import proofs.«121141_j14594298872614_1_alg».proof.Proof.RefStages
import proofs.«121141_j14594298872614_1_alg».proof.Proof.Gen.ReferenceIdeal
import proofs.«121141_j14594298872614_1_alg».proof.Proof.TriuTable
import proofs.«121141_j14594298872614_1_alg».proof.Proof.RefCounts
import proofs.«121141_j14594298872614_1_alg».proof.Proof.LibCumsum
import Idealize.ShloMosaic.Lib.ValueIdx
import Idealize.ShloMosaic.Lib.ValueLayout
import Idealize.ShloMosaic.Lib.IdealHost
import Mathlib.Algebra.BigOperators.Fin
import Mathlib.Data.BitVec

open scoped BigOperators

noncomputable section

namespace Cert.ReferenceIdeal.RefIndex

open Cert.ReferenceIdeal Cert.ReferenceIdeal.Gen Idealize.ShloMosaic Idealize.ShloMosaic.ValueIdx

/-! ## The flat positions -/

/-- A sum over the first 2016 numbers of the terms up to and including k is the sum over the numbers below k + 1. -/
theorem sum_le_eq (f : ℕ → ℕ) (k : Fin 2016) :
    (∑ q : Fin 2016, if q.val ≤ k.val then f q.val else 0) = ∑ q ∈ Finset.range (k.val + 1), f q := by
  rw [Fin.sum_univ_eq_sum_range (fun q => if q ≤ k.val then f q else 0) 2016, ← Finset.sum_filter]
  congr 1
  ext q; simp only [Finset.mem_filter, Finset.mem_range]; have := k.isLt; omega

/-- The same sum of words: reduction modulo 2³² commutes with sums, so it is the word of the sum of the numbers. -/
theorem sum_words_eq (f : ℕ → ℕ) (k : Fin 2016) :
    (∑ q : Fin 2016, if q.val ≤ k.val then BitVec.ofNat 32 (f q.val) else 0#32)
      = BitVec.ofNat 32 (∑ q ∈ Finset.range (k.val + 1), f q) := by
  rw [← sum_le_eq]
  refine Eq.trans ?_ (BitVec.natCast_eq_ofNat 32 _)
  rw [Nat.cast_sum]
  refine Finset.sum_congr rfl fun q _ => ?_
  by_cases h : q.val ≤ k.val
  · rw [if_pos h, if_pos h]; exact (BitVec.natCast_eq_ofNat 32 _).symm
  · rw [if_neg h, if_neg h]; exact (BitVec.natCast_eq_ofNat 32 _).symm

/-- Entry k of the running sum of the counters is the k-th entry of the literal table: the running sum at k adds the
    counters of the values 0 … k, each the number of positions with that running count, and those numbers add up to
    the table's entry. -/
theorem flatIdx_apply (k : Fin 2016) :
    Stages.flatIdx (F := Ideal) (ix1 k) = BitVec.ofNat 32 (Cert.Triu.K k) := by
  have h := Cert.LibCumsum.cumsum_apply (n := 2016) (Stages.counts (F := Ideal))
    (broadcastInDim S_ ![] Facts₀.bcast_S_S_ (constantI S_ 32 0#32))
    Facts₀.reduceWindows_S2016_S2016_w2016s1p2015_0 Facts₀.h_S_ rfl k
  refine (show Stages.flatIdx (F := Ideal) (ix1 k) = _ from h).trans ?_
  simp only [RefCounts.counts_apply]
  rw [sum_words_eq (fun q => ((Finset.range 4096).filter fun p => Cert.Triu.cN p = q).card) k, Cert.Triu.flat_eq]

/-! ## The scalar forms of the three index functions -/

/-- The sign word of a word: 0 for zero, -1 for a negative word, 1 otherwise. -/
def sgnW (x : BitVec 32) : BitVec 32 := if x = 0 then 0 else if x.msb then -1 else 1

/-- The floored quotient of one signed word by another: the truncated quotient, less one where the signs differ and the
    division is not exact. -/
def fdivW (a d : BitVec 32) : BitVec 32 :=
  Scalar.select
    (IntOp.andi (IntOp.cmpi .ne (sgnW a) (sgnW d)) (IntOp.cmpi .ne (IntOp.remsi .host a d) 0#32))
    (IntOp.subi (IntOp.divsi .host a d) 1#32) (IntOp.divsi .host a d)

/-- The divisor a remainder is taken by: one in place of zero. -/
def safeW (d : BitVec 32) : BitVec 32 := Scalar.select (IntOp.cmpi .eq d 0#32) 1#32 d

/-- The remainder with the divisor's sign: the truncated remainder, moved by the divisor where it is not zero and its
    sign differs from the divisor's. -/
def fremW (a d : BitVec 32) : BitVec 32 :=
  Scalar.select
    (IntOp.andi
      (IntOp.cmpi .ne (IntOp.cmpi .slt (IntOp.remsi .host a (safeW d)) 0#32) (IntOp.cmpi .slt (safeW d) 0#32))
      (IntOp.cmpi .ne (IntOp.remsi .host a (safeW d)) 0#32))
    (IntOp.addi (IntOp.remsi .host a (safeW d)) (safeW d))
    (IntOp.remsi .host a (safeW d))

/-- A negative word moved up by 64. -/
def wrapW (a : BitVec 32) : BitVec 32 := Scalar.select (IntOp.cmpi .slt a 0#32) (IntOp.addi a 64#32) a

/-! ## Every operation of the three functions acts entry by entry -/

/-- A word laid out over 2016 entries reads that word at every entry. -/
theorem bcast_apply {α : Type} (h : S_.BroadcastsInDim S2016 (![] : Fin 0 → Fin 1)) (x : S_.Idx → α) (j : S2016.Idx) :
    broadcastInDim S2016 (![] : Fin 0 → Fin 1) h x j = x ix0 := broadcastInDim_scalar_apply h x j

/-- The floored quotient at an entry is the scalar floored quotient of that entry by the divisor word. -/
theorem floorDiv_apply (a : IVec S2016 32) (d : IVec S_ 32) (j : S2016.Idx) :
    Stages.floorDiv a d j = fdivW (a j) (d ix0) := by
  simp only [Stages.floorDiv, Stages.splat2016, select_apply, andi, cmpi, subi, signi, Host.divsi, Host.remsi,
    bcast_apply, constantI_apply, fdivW, sgnW]

/-- The remainder with the divisor's sign at an entry is the scalar one of that entry by the divisor word. -/
theorem floorRem_apply (a : IVec S2016 32) (d : IVec S_ 32) (j : S2016.Idx) :
    Stages.floorRem a d j = fremW (a j) (d ix0) := by
  simp only [Stages.floorRem, Stages.safeDiv, Stages.splat2016, select_apply, andi, cmpi, addi, Host.remsi,
    bcast_apply, constantI_apply, fremW, safeW]

/-- The wrap at an entry is the scalar wrap of that entry. -/
theorem wrap64_apply (a : IVec S2016 32) (j : S2016.Idx) : Stages.wrap64 a j = wrapW (a j) := by
  simp only [Stages.wrap64, Stages.splat2016, select_apply, cmpi, addi, bcast_apply, constantI_apply, wrapW]

/-! ## The scalar forms on the words of the numbers below 4096 -/

/-- A decidable property that holds of every member of the list 0, 1, …, N − 1 holds of every number below N. -/
theorem forall_lt_of_all {P : ℕ → Prop} [DecidablePred P] {N : ℕ}
    (h : (List.range N).all (fun n => decide (P n)) = true) (n : ℕ) (hn : n < N) : P n :=
  of_decide_eq_true (List.all_eq_true.mp h n (List.mem_range.mpr hn))

/-- The floored quotient by 64 of the word of n < 4096 is the word of n div 64: both operands are non-negative and the
    divisor is neither zero nor −1, so the truncated quotient is the natural one and nothing is subtracted. -/
theorem fdiv64 (n : ℕ) (hn : n < 4096) : fdivW (BitVec.ofNat 32 n) 64#32 = BitVec.ofNat 32 (n / 64) :=
  forall_lt_of_all (P := fun n => fdivW (BitVec.ofNat 32 n) 64#32 = BitVec.ofNat 32 (n / 64)) (by decide +kernel) n hn

/-- The floored quotient by 1 of the word of n < 4096 is that word. -/
theorem fdiv1 (n : ℕ) (hn : n < 4096) : fdivW (BitVec.ofNat 32 n) 1#32 = BitVec.ofNat 32 n :=
  forall_lt_of_all (P := fun n => fdivW (BitVec.ofNat 32 n) 1#32 = BitVec.ofNat 32 n) (by decide +kernel) n hn

/-- The wrapped remainder by 64 of the word of n < 4096 is the word of n mod 64: the truncated remainder of
    non-negative operands is the natural one, it has the divisor's sign, and it is not negative, so neither the move by
    the divisor nor the wrap changes it. -/
theorem wrapRem64 (n : ℕ) (hn : n < 4096) : wrapW (fremW (BitVec.ofNat 32 n) 64#32) = BitVec.ofNat 32 (n % 64) :=
  forall_lt_of_all (P := fun n => wrapW (fremW (BitVec.ofNat 32 n) 64#32) = BitVec.ofNat 32 (n % 64))
    (by decide +kernel) n hn

/-! ## The two index columns -/

/-- Entry p of the first index column is the row of the p-th pair. -/
theorem iuW_apply (p : Fin 2016) :
    Stages.iuW (F := Ideal) (ix1 p) = BitVec.ofNat 32 (Cert.Triu.K p / 64) := by
  have hK := Cert.Triu.K_lt p
  simp only [Stages.iuW, wrap64_apply, floorRem_apply, floorDiv_apply, flatIdx_apply, constantI_apply]
  rw [fdiv64 _ hK, wrapRem64 _ (by omega)]
  congr 1; omega

/-- Entry p of the second index column is the column of the p-th pair. -/
theorem juW_apply (p : Fin 2016) :
    Stages.juW (F := Ideal) (ix1 p) = BitVec.ofNat 32 (Cert.Triu.K p % 64) := by
  have hK := Cert.Triu.K_lt p
  simp only [Stages.juW, wrap64_apply, floorRem_apply, floorDiv_apply, flatIdx_apply, constantI_apply]
  rw [fdiv1 _ hK, wrapRem64 _ hK]

end Cert.ReferenceIdeal.RefIndex

end
-- ==== Proof.RefTower.lean ====
/-
  The reference's perceptron on all 16384 rows, read at an entry of its output.

  Each layer acts on every row by itself: the scaled exponential linear unit is applied entry by entry, the reshape of a
  row of 64 × 32 numbers to 2048 reads position k at field k / 32, coordinate k % 32, and a dense layer at the entry
  (r, c) is the affine map of row r. So the three layers on the whole batch, read at (r, k), are the three layers of the
  specification on row r.
-/
import proofs.«121141_j14594298872614_1_alg».proof.Proof.RefStages
import proofs.«121141_j14594298872614_1_alg».proof.Proof.Gen.ReferenceIdeal
import proofs.«121141_j14594298872614_1_alg».proof.Proof.Spec

noncomputable section

namespace Cert.ReferenceIdeal.RefTower

open Cert.ReferenceIdeal Cert.ReferenceIdeal.Gen Idealize.ShloMosaic Idealize.ShloMosaic.ValueIdx

/-- A scalar word laid out over the 16384 × 256 array reads, everywhere, the number the word stands for. -/
theorem splatF_apply (w : BitVec 32) (i : S16384x256.Idx) :
    Stages.splatF (F := Ideal) w i = Ideal.ofBits .f32 w := by
  -- the layout of a rank-0 array reads its one entry, and a constant array's entry is the word's number
  show broadcastInDim S16384x256 ![] _ (constant (F := Ideal) S_ .f32 w) i = _
  rw [broadcastInDim_scalar_apply, constant_apply]

/-- The reference's spelling of the scaled exponential linear unit, entry by entry, is the specification's. The
    reference takes  e^u − 1  at  u = (0 if v > 0 else v)  where the specification takes it at  v ; the two differ only
    where  v > 0 , and there the outer choice takes  v  itself. -/
theorem seluA_apply (v : FVec Ideal S16384x256 .f32) (i : S16384x256.Idx) :
    Stages.seluA v i = Cert.DeepFM.selu (v i) := by
  -- every operation of the unit is pointwise
  show Stages.splatF (F := Ideal) 0x3F867D5F#32 i *
      Scalar.select (Ideal.cmp .ogt (v i) (Stages.splatF (F := Ideal) 0x00000000#32 i)) (v i)
        (Stages.splatF (F := Ideal) 0x3FD62D7D#32 i *
          (Ideal.exp (Scalar.select (Ideal.cmp .ogt (v i) (Stages.splatF (F := Ideal) 0x00000000#32 i))
            (Stages.splatF (F := Ideal) 0x00000000#32 i) (v i)) - 1)) = _
  rw [splatF_apply, splatF_apply, splatF_apply, Ideal.ofBits_zero_f32]
  unfold Cert.DeepFM.selu
  -- by cases on whether  v i > 0
  by_cases h : Ideal.cmp .ogt (v i) 0 = 1
  · simp only [Scalar.select, if_pos h]
  · simp only [Scalar.select, if_neg h]

/-- The reshape of the 16384 × 64 × 32 array to 16384 × 2048 reads, at (r, k), the array at (r, k / 32, k % 32): the
    row-major positions  (r · 64 + k / 32) · 32 + k % 32  and  r · 2048 + k  are the same number. -/
theorem reshape_apply (x : FVec Ideal S16384x64x32 .f32) (h : S16384x64x32.ShapeCasts S16384x2048)
    (r : Fin 16384) (k : Fin 2048) :
    shapeCast S16384x2048 x h (ix2 r k) = Cert.DeepFM.flat (fun f d => x (ix3 r f d)) k := by
  unfold Cert.DeepFM.flat
  refine shapeCast_apply x h (ix2 r k)
    (ix3 r (⟨k.val / 32, by have := k.isLt; omega⟩ : Fin 64) (⟨k.val % 32, Nat.mod_lt _ (by norm_num)⟩ : Fin 32)) ?_
  rw [Shape.rowMajor_val_three, Shape.rowMajor_val_two]
  show (r.val * 64 + k.val / 32) * 32 + k.val % 32 = r.val * 2048 + k.val
  omega

/-- The first hidden layer at (r, c) is the specification's first hidden layer of row r. -/
theorem h1A_apply (x : FVec Ideal S16384x64x32 .f32) (W1 : FVec Ideal S2048x256 .f32) (b1 : FVec Ideal S256 .f32)
    (r : Fin 16384) (c : Fin 256) :
    Stages.h1A x W1 b1 (ix2 r c) = Cert.DeepFM.h1 W1 b1 (fun f d => x (ix3 r f d)) c := by
  unfold Stages.h1A Cert.DeepFM.h1
  -- the unit is pointwise; under it, the dense layer reads row r of the reshaped array, which is the flattened row
  refine (seluA_apply _ _).trans (congrArg Cert.DeepFM.selu ?_)
  refine (Cert.Dense.host_affine_apply dot_S16384x2048_S2048x256_S16384x256_1_0_0_1_n_n rfl rfl rfl rfl rfl rfl
    _ _ _ W1 b1 r c).trans ?_
  exact congrArg (fun v => Cert.Dense.affine W1 b1 v c) (funext fun k => reshape_apply x _ r k)

/-- The second hidden layer at (r, c) is the affine map of row r of its operand under the unit. -/
theorem h2A_apply (h : FVec Ideal S16384x256 .f32) (W2 : FVec Ideal S256x256 .f32) (b2 : FVec Ideal S256 .f32)
    (r : Fin 16384) (c : Fin 256) :
    Stages.h2A h W2 b2 (ix2 r c) = Cert.DeepFM.selu (Cert.Dense.affine W2 b2 (fun k => h (ix2 r k)) c) := by
  unfold Stages.h2A
  refine (seluA_apply _ _).trans (congrArg Cert.DeepFM.selu ?_)
  exact Cert.Dense.host_affine_apply dot_S16384x256_S256x256_S16384x256_1_0_0_1_n_n rfl rfl rfl rfl rfl rfl
    _ _ _ W2 b2 r c

/-- The output layer at (r, k) is the affine map of row r of its operand. -/
theorem hoiA_layer_apply (h : FVec Ideal S16384x256 .f32) (W3 : FVec Ideal S256x128 .f32) (b3 : FVec Ideal S128 .f32)
    (r : Fin 16384) (k : Fin 128) :
    Stages.hoiA h W3 b3 (ix2 r k) = Cert.Dense.affine W3 b3 (fun c => h (ix2 r c)) k := by
  unfold Stages.hoiA
  exact Cert.Dense.host_affine_apply dot_S16384x256_S256x128_S16384x128_1_0_0_1_n_n rfl rfl rfl rfl rfl rfl
    _ _ _ W3 b3 r k

/-- Entry (r, k) of the higher-order features is the specification's higher-order feature k of row r. -/
theorem hoiA_apply (x : FVec Ideal S16384x64x32 .f32) (W1 : FVec Ideal S2048x256 .f32) (b1 : FVec Ideal S256 .f32)
    (W2 : FVec Ideal S256x256 .f32) (b2 : FVec Ideal S256 .f32) (W3 : FVec Ideal S256x128 .f32) (b3 : FVec Ideal S128 .f32)
    (r : Fin 16384) (k : Fin 128) :
    Stages.hoiA (Stages.h2A (Stages.h1A x W1 b1) W2 b2) W3 b3 (ix2 r k)
      = Cert.DeepFM.hoi W1 b1 W2 b2 W3 b3 (fun f d => x (ix3 r f d)) k := by
  -- the output layer of row r of the second layer, which is the unit of the affine map of row r of the first layer
  refine (hoiA_layer_apply _ W3 b3 r k).trans ?_
  unfold Cert.DeepFM.hoi
  refine congrArg (fun v => Cert.Dense.affine W3 b3 v k) (funext fun c => ?_)
  refine (h2A_apply _ W2 b2 r c).trans ?_
  unfold Cert.DeepFM.h2
  refine congrArg Cert.DeepFM.selu ?_
  exact congrArg (fun v => Cert.Dense.affine W2 b2 v c) (funext fun c' => h1A_apply x W1 b1 r c')

end Cert.ReferenceIdeal.RefTower

end
-- ==== Proof.LibGatherPair.lean ====
/- A gather of single entries of a matrix through a table of index pairs, read at one row of the table.

   The operand is an [A, B] matrix, the start indices an [n, 2] table whose row p holds a pair of index words, the
   result a vector of length n: both operand axes are collapsed and start-indexed (slice sizes 1 × 1), there are no
   offset and no batching axes, and the index vector lies along the table's axis 1. Entry p of the result is the
   matrix at (i₀, i₁), where i₀ and i₁ are the two words of row p read as signed integers and clamped into
   [0, A − 1] and [0, B − 1] (`gather_pair_apply`).

   Around it, the three small facts by which such a table is read when it is built from two columns of index words:
   a table joined from two [n, 1] columns holds in row p the two columns' entries at p (`join_cols_left`,
   `join_cols_right`); a word that reads a natural number below 2³¹ is not negative, so a wrap of negative indices
   leaves it as it is (`wrap_of_small`); and read signed and clamped to a bound it does not exceed, it is that number
   (`clamp_of_small`). Together: the gather through such a table, at a row whose two words read in-range numbers
   a₀ and a₁, is the matrix at (a₀, a₁) (`gather_join_cols`). -/
import Idealize.ShloMosaic.Lib.ValueIdx
import Idealize.ShloMosaic.Lib.Pipeline.Value
import Idealize.ShloMosaic.Lib.StableHlo.Predicate

noncomputable section

namespace Cert.LibGatherPair

open Idealize.ShloMosaic Idealize.ShloMosaic.ValueIdx

/-- Where entry `p` of the result reads component `c` of its start index: row `p` of the table, column `c`. -/
theorem siIdx_pair {A B n : Nat} (d : GatherDims ⟨2, ![A, B]⟩ ⟨2, ![n, 2]⟩ ⟨1, ![n]⟩) (hivd : d.indexVectorDim = 1)
    (p : Fin n) (c : Fin d.startIndexMap.length) (k : Fin 2) (hc : c.val = k.val) :
    d.siIdx (ix1 p) c = ix2 p k := by
  funext b
  match b with
  | ⟨0, _⟩ =>
    -- the table's axis 0 is the result's one batch axis: it carries the result's coordinate
    unfold GatherDims.siIdx
    rw [dif_neg (by rw [hivd]; simp)]
    unfold GatherDims.siCoord
    apply Fin.ext
    simp only [Fin.val_cast]
    have e : ∀ X : Fin 1, ((ix1 p : (⟨1, ![n]⟩ : Shape).Idx) X).val = p.val := fun X => by
      have hX : X = 0 := Subsingleton.elim _ _
      subst hX; rfl
    exact e _
  | ⟨1, _⟩ =>
    -- the table's axis 1 is the index vector's: it carries the component's number
    unfold GatherDims.siIdx
    rw [dif_pos (by rw [hivd])]
    apply Fin.ext
    exact hc

/-- Entry `p` of the gather is the matrix at the clamped signed readings of the two words of row `p`. -/
theorem gather_pair_apply {α : Type} {A B n w : Nat} (d : GatherDims ⟨2, ![A, B]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![A, B]⟩ : Shape).Idx → α) (idx : IVec ⟨2, ![n, 2]⟩ w) (p : Fin n) (hA : 0 < A) (hB : 0 < B) :
    Host.gather d x idx (ix1 p) =
      x (ix2 (⟨min (idx (ix2 p (0 : Fin 2))).toInt.toNat (A - 1), by omega⟩ : Fin A)
             (⟨min (idx (ix2 p (1 : Fin 2))).toInt.toNat (B - 1), by omega⟩ : Fin B)) := by
  unfold Host.gather
  congr 1
  funext a
  apply Fin.ext
  have hb : ∀ a : Fin 2, a ∉ d.operandBatchingDims := fun a => by rw [hob]; exact List.not_mem_nil
  have hk : ∀ a : Fin 2, a ∉ d.sKept := fun a => by
    rw [GatherDims.mem_sKept, hcoll]
    match a with
    | ⟨0, _⟩ => simp
    | ⟨1, _⟩ => simp
  match a with
  | ⟨0, _⟩ =>
    have hm : (0 : Fin 2) ∈ d.startIndexMap := by rw [hsim]; simp
    have hsl : d.sliceSizes (0 : Fin 2) = 1 := d.slice_collapsed 0 (by rw [hcoll]; simp)
    show d.start (ix1 p) idx (0 : Fin 2) + d.batchCoord (ix1 p) (0 : Fin 2) + d.offCoord (ix1 p) (0 : Fin 2) = _
    rw [GatherDims.batchCoord_eq_zero _ _ _ (hb 0), GatherDims.offCoord_eq_zero _ _ _ (hk 0)]
    simp only [Nat.add_zero, GatherDims.start, dif_pos hm]
    rw [siIdx_pair d hivd p _ (0 : Fin 2) (by show List.idxOf (0 : Fin 2) d.startIndexMap = 0; rw [hsim]; simp), hsl]
    rfl
  | ⟨1, _⟩ =>
    have hm : (1 : Fin 2) ∈ d.startIndexMap := by rw [hsim]; simp
    have hsl : d.sliceSizes (1 : Fin 2) = 1 := d.slice_collapsed 1 (by rw [hcoll]; simp)
    show d.start (ix1 p) idx (1 : Fin 2) + d.batchCoord (ix1 p) (1 : Fin 2) + d.offCoord (ix1 p) (1 : Fin 2) = _
    rw [GatherDims.batchCoord_eq_zero _ _ _ (hb 1), GatherDims.offCoord_eq_zero _ _ _ (hk 1)]
    simp only [Nat.add_zero, GatherDims.start, dif_pos hm]
    rw [siIdx_pair d hivd p _ (1 : Fin 2) (by show List.idxOf (1 : Fin 2) d.startIndexMap = 1; rw [hsim]; simp), hsl]
    rfl

/-- Column 0 of row `p` of a table joined from two columns is the first column's entry at `p`. -/
theorem join_cols_left {α : Type} {n : Nat} (c₀ c₁ : (⟨2, ![n, 1]⟩ : Shape).Idx → α)
    (h : Shape.Concatenates [(⟨2, ![n, 1]⟩ : Shape), ⟨2, ![n, 1]⟩] ⟨2, ![n, 2]⟩ (1 : Fin 2)) (p : Fin n) :
    concatenate (⟨2, ![n, 2]⟩ : Shape) (1 : Fin 2) [⟨⟨2, ![n, 1]⟩, c₀⟩, ⟨⟨2, ![n, 1]⟩, c₁⟩] h (ix2 p (0 : Fin 2))
      = c₀ (ix2 p (0 : Fin 1)) :=
  concatenate_pair_apply_left (1 : Fin 2) c₀ c₁ h (ix2 p (0 : Fin 2)) rfl (ix2 p (0 : Fin 1)) (fun b => by
    match b with
    | ⟨0, _⟩ => rfl
    | ⟨1, _⟩ => rfl)

/-- Column 1 of row `p` of a table joined from two columns is the second column's entry at `p`. -/
theorem join_cols_right {α : Type} {n : Nat} (c₀ c₁ : (⟨2, ![n, 1]⟩ : Shape).Idx → α)
    (h : Shape.Concatenates [(⟨2, ![n, 1]⟩ : Shape), ⟨2, ![n, 1]⟩] ⟨2, ![n, 2]⟩ (1 : Fin 2)) (p : Fin n) :
    concatenate (⟨2, ![n, 2]⟩ : Shape) (1 : Fin 2) [⟨⟨2, ![n, 1]⟩, c₀⟩, ⟨⟨2, ![n, 1]⟩, c₁⟩] h (ix2 p (1 : Fin 2))
      = c₁ (ix2 p (0 : Fin 1)) :=
  concatenate_pair_apply_right (1 : Fin 2) c₀ c₁ h (ix2 p (1 : Fin 2)) rfl rfl (ix2 p (0 : Fin 1)) (fun b hb => by
    match b, hb with
    | ⟨0, _⟩, _ => rfl
    | ⟨1, _⟩, hb => exact absurd rfl hb) rfl

/-- A word reading a natural number below 2³¹ is not negative: the wrap of a negative index leaves it. -/
theorem wrap_of_small (a : ℕ) (ha : a < 2 ^ 31) (m : BitVec 32) :
    Scalar.select (IntOp.cmpi .slt (BitVec.ofNat 32 a) 0#32) (IntOp.addi (BitVec.ofNat 32 a) m) (BitVec.ofNat 32 a)
      = BitVec.ofNat 32 a := by
  have h : IntOp.cmpi .slt (BitVec.ofNat 32 a) 0#32 = 0#1 := by
    apply eq_zero_of_ne_one
    rw [StableHlo.Predicate.slt_iff_toNat (by rw [BitVec.toNat_ofNat]; omega) (by decide)]
    simp
  rw [h, select_zero]

/-- Read signed and clamped to a bound it does not exceed, such a word is the number it reads. -/
theorem clamp_of_small (a N : ℕ) (ha : a < 2 ^ 31) (hN : a ≤ N) : min (BitVec.ofNat 32 a).toInt.toNat N = a := by
  rw [StableHlo.Predicate.toInt_ofNat_small a ha, Int.toNat_natCast]
  exact Nat.min_eq_left hN

/-- The gather through a table joined from two columns, at a row `p` where the columns' words read numbers `a₀`
    and `a₁` inside the matrix: the matrix at `(a₀, a₁)`. -/
theorem gather_join_cols {α : Type} {A B n : Nat} (d : GatherDims ⟨2, ![A, B]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![A, B]⟩ : Shape).Idx → α) (c₀ c₁ : IVec ⟨2, ![n, 1]⟩ 32)
    (h : Shape.Concatenates [(⟨2, ![n, 1]⟩ : Shape), ⟨2, ![n, 1]⟩] ⟨2, ![n, 2]⟩ (1 : Fin 2)) (p : Fin n)
    (a₀ : Fin A) (a₁ : Fin B) (hA : A ≤ 2 ^ 31) (hB : B ≤ 2 ^ 31)
    (h₀ : c₀ (ix2 p (0 : Fin 1)) = BitVec.ofNat 32 a₀.val) (h₁ : c₁ (ix2 p (0 : Fin 1)) = BitVec.ofNat 32 a₁.val) :
    Host.gather d x (concatenate (⟨2, ![n, 2]⟩ : Shape) (1 : Fin 2) [⟨⟨2, ![n, 1]⟩, c₀⟩, ⟨⟨2, ![n, 1]⟩, c₁⟩] h) (ix1 p)
      = x (ix2 a₀ a₁) := by
  have hA0 := a₀.isLt
  have hB0 := a₁.isLt
  rw [gather_pair_apply d hcoll hob hsim hivd x _ p (by omega) (by omega)]
  congr 1
  funext b
  apply Fin.ext
  match b with
  | ⟨0, _⟩ =>
    show min (BitVec.toInt _).toNat (A - 1) = a₀.val
    rw [join_cols_left, h₀]
    exact clamp_of_small _ _ (by omega) (by omega)
  | ⟨1, _⟩ =>
    show min (BitVec.toInt _).toNat (B - 1) = a₁.val
    rw [join_cols_right, h₁]
    exact clamp_of_small _ _ (by omega) (by omega)

end Cert.LibGatherPair

end
-- ==== Proof.RefValue.lean ====
/-
  The reference's result at a row is the row's value under the specification.
-/
import proofs.«121141_j14594298872614_1_alg».proof.Proof.RefStages
import proofs.«121141_j14594298872614_1_alg».proof.Proof.Gen.ReferenceIdeal
import proofs.«121141_j14594298872614_1_alg».proof.Proof.RefIndex
import proofs.«121141_j14594298872614_1_alg».proof.Proof.Spec
import proofs.«121141_j14594298872614_1_alg».proof.Proof.RefTower
import proofs.«121141_j14594298872614_1_alg».proof.Proof.LibGatherKeepAxis0
import proofs.«121141_j14594298872614_1_alg».proof.Proof.LibGatherPair

noncomputable section

open scoped BigOperators

namespace Cert.ReferenceIdeal.RefValue

open Cert.ReferenceIdeal Cert.ReferenceIdeal.Gen Idealize.ShloMosaic Idealize.ShloMosaic.ValueIdx

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

section Batched
variable {R A B K : ℕ} (d : DotDims ⟨3, ![R, A, K]⟩ ⟨3, ![R, B, K]⟩ ⟨3, ![R, A, B]⟩)

/-- With axis 0 the one batch axis, the left index's batch coordinate is the result's. -/
private theorem lhsIdx_b (h5 : d.lhsBatch = [0])
    (j : (⟨3, ![R, A, B]⟩ : Shape).Idx) (k : d.contr.Idx) : (d.lhsIdx j k 0).val = (j 0).val := by
  have hb : (0 : Fin 3) ∈ d.lhsBatch := by rw [h5]; exact List.mem_singleton.mpr rfl
  unfold DotDims.lhsIdx
  rw [dif_pos hb]
  simp only [Fin.val_cast]
  exact idx_val_congr j _ _ _ _ (by simp [h5])

/-- With axis 1 the left operand's one free axis, after one batch axis, the left index's coordinate there is the
    result's coordinate 1. -/
private theorem lhsIdx_n (h3 : d.lhsNonContracting = [1]) (h5 : d.lhsBatch = [0])
    (j : (⟨3, ![R, A, B]⟩ : Shape).Idx) (k : d.contr.Idx) : (d.lhsIdx j k 1).val = (j 1).val := by
  have hb : (1 : Fin 3) ∉ d.lhsBatch := by rw [h5]; show (1 : Fin 3) ∉ ([0] : List (Fin 3)); decide
  have hn : (1 : Fin 3) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- The right index's batch coordinate is the result's. -/
private theorem rhsIdx_b (h6 : d.rhsBatch = [0])
    (j : (⟨3, ![R, A, B]⟩ : Shape).Idx) (k : d.contr.Idx) : (d.rhsIdx j k 0).val = (j 0).val := by
  have hb : (0 : Fin 3) ∈ d.rhsBatch := by rw [h6]; exact List.mem_singleton.mpr rfl
  unfold DotDims.rhsIdx
  rw [dif_pos hb]
  simp only [Fin.val_cast]
  exact idx_val_congr j _ _ _ _ (by simp [h6])

/-- With axis 1 the right operand's one free axis, after one batch axis and one free axis of the left operand, the
    right index's coordinate there is the result's coordinate 2. -/
private theorem rhsIdx_n (h3 : d.lhsNonContracting = [1]) (h4 : d.rhsNonContracting = [1]) (h5 : d.lhsBatch = [0])
    (h6 : d.rhsBatch = [0])
    (j : (⟨3, ![R, A, B]⟩ : Shape).Idx) (k : d.contr.Idx) : (d.rhsIdx j k 1).val = (j 2).val := by
  have hb : (1 : Fin 3) ∉ d.rhsBatch := by rw [h6]; show (1 : Fin 3) ∉ ([0] : List (Fin 3)); decide
  have hn : (1 : Fin 3) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over the one-axis contraction index of a batched [R,A,K] × [R,B,K] product contracting the last axes, as
    the sum over k of lhs(r, a, k) · rhs(r, b, k). -/
theorem contr_sum_batched
    (h1 : d.lhsContracting = [2]) (h2 : d.rhsContracting = [2]) (h3 : d.lhsNonContracting = [1])
    (h4 : d.rhsNonContracting = [1]) (h5 : d.lhsBatch = [0]) (h6 : d.rhsBatch = [0])
    (lhs : (⟨3, ![R, A, K]⟩ : Shape).Idx → EReal) (rhs : (⟨3, ![R, B, K]⟩ : Shape).Idx → EReal)
    (r : Fin R) (a : Fin A) (b : Fin B) :
    ∑ k : d.contr.Idx, lhs (d.lhsIdx (ix3 r a b) k) * rhs (d.rhsIdx (ix3 r a b) k)
      = ∑ k : Fin K, lhs (ix3 r a k) * rhs (ix3 r b k) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, a, k)
  have el : d.lhsIdx (ix3 r a b) ((contrEquiv1 d K hr hs).symm k) = ix3 r a k := by
    funext c
    match c with
    | ⟨0, _⟩ => exact Fin.ext (lhsIdx_b d h5 (ix3 r a b) _)
    | ⟨1, _⟩ => exact Fin.ext (lhsIdx_n d h3 h5 (ix3 r a b) _)
    | ⟨2, _⟩ => exact Fin.ext ((d.lhsIdx_val_of_single h1 (ix3 r a b) _).trans hk)
  -- the right operand is read at (r, b, k)
  have er : d.rhsIdx (ix3 r a b) ((contrEquiv1 d K hr hs).symm k) = ix3 r b k := by
    funext c
    match c with
    | ⟨0, _⟩ => exact Fin.ext (rhsIdx_b d h6 (ix3 r a b) _)
    | ⟨1, _⟩ => exact Fin.ext (rhsIdx_n d h3 h4 h5 h6 (ix3 r a b) _)
    | ⟨2, _⟩ => exact Fin.ext ((d.rhsIdx_val_of_single h2 (ix3 r a b) _).trans hk)
  rw [el, er]

end Batched

/-- Entry (r, i, j) of the Gram matrices: the sum over the 32 coordinates of the products of fields i and j of row r. -/
theorem gramA_apply (x : FVec Ideal S16384x64x32 .f32) (r : Fin 16384) (i j : Fin 64) :
    Stages.gramA (F := Ideal) x (ix3 r i j) = ∑ d : Fin 32, x (ix3 r i d) * x (ix3 r j d) := by
  unfold Stages.gramA
  simp only [Host.dotGeneral]
  rw [Ideal.dotGeneral_apply]
  exact contr_sum_batched _ rfl rfl rfl rfl rfl rfl x x r i j

/-- Row p of the pair table: its first word is the row of the p-th pair. -/
theorem table_left (p : Fin 2016) :
    Stages.table (F := Ideal) (ix2 p (0 : Fin 2)) = BitVec.ofNat 32 (Cert.Triu.K p / 64) := by
  unfold Stages.table
  refine (Cert.LibGatherPair.join_cols_left _ _ _ p).trans ?_
  refine (Cert.LibGatherKeepAxis0.col_of_vec _ _ p).trans ?_
  exact RefIndex.iuW_apply p

/-- Row p of the pair table: its second word is the column of the p-th pair. -/
theorem table_right (p : Fin 2016) :
    Stages.table (F := Ideal) (ix2 p (1 : Fin 2)) = BitVec.ofNat 32 (Cert.Triu.K p % 64) := by
  unfold Stages.table
  refine (Cert.LibGatherPair.join_cols_right _ _ _ p).trans ?_
  refine (Cert.LibGatherKeepAxis0.col_of_vec _ _ p).trans ?_
  exact RefIndex.juW_apply p

/-- Entry (r, p) of the gathered Gram entries: the Gram matrix of row r at the p-th listed pair. The two words of the
    table's row p read numbers below 64, so neither the signed reading nor the clamp changes them. -/
theorem soiA_apply (x : FVec Ideal S16384x64x32 .f32) (r : Fin 16384) (p : Fin 2016) :
    Stages.soiA (F := Ideal) x (ix2 r p) = Stages.gramA (F := Ideal) x (ix3 r (Cert.Triu.iu p) (Cert.Triu.ju p)) := by
  unfold Stages.soiA
  refine (Cert.LibGatherKeepAxis0.gather_keep0_apply (R := 16384) (A := 64) (B := 64) (n := 2016) (by decide) (by decide)
    gather_S16384x64x64_S2016x2_S16384x2016_0_12_n_n_12_1_1638411_wf (Stages.gramA (F := Ideal) x) (Stages.table (F := Ideal)) r p).trans ?_
  have hi : Cert.Triu.K p / 64 < 64 := by have := Cert.Triu.K_lt p; omega
  have hj : Cert.Triu.K p % 64 < 64 := Nat.mod_lt _ (by decide)
  congr 1
  funext a
  apply Fin.ext
  match a with
  | ⟨0, _⟩ => rfl
  | ⟨1, _⟩ =>
    show min (BitVec.toInt (Stages.table (F := Ideal) (ix2 p (0 : Fin 2)))).toNat (64 - 1) = Cert.Triu.K p / 64
    rw [table_left]
    exact Cert.LibGatherPair.clamp_of_small _ _ (by omega) (by omega)
  | ⟨2, _⟩ =>
    show min (BitVec.toInt (Stages.table (F := Ideal) (ix2 p (1 : Fin 2)))).toNat (64 - 1) = Cert.Triu.K p % 64
    rw [table_right]
    exact Cert.LibGatherPair.clamp_of_small _ _ (by omega) (by omega)

/-- Entry (r, d) of the field sums: the sum over the 64 fields of coordinate d of row r. -/
theorem foA_apply (x : FVec Ideal S16384x64x32 .f32) (r : Fin 16384) (d : Fin 32) :
    Stages.foA (F := Ideal) x (ix2 r d) = ∑ f : Fin 64, x (ix3 r f d) := by
  unfold Stages.foA
  rw [hostReduceAdd_apply]
  have h : S16384x64x32.Reduces [1] S16384x32 := by decide
  refine (Ideal.hostReduceAdd_single reducesTo_S16384x64x32_S16384x32_d1 h x _ (ix2 r d)).trans ?_
  -- the initial value is the zero word, which is the number 0
  have e0 : constant (F := Ideal) S_ .f32 0x00000000#32 (Shape.Idx.first h_S_) = 0 := by
    rw [constant_apply, Ideal.ofBits_zero_f32]
  rw [e0, zero_add]
  -- the reduced index with the field inserted is (r, f, d)
  refine Finset.sum_congr rfl fun f _ => congrArg x ?_
  funext a
  apply Fin.ext
  match a with
  | ⟨0, _⟩ => rfl
  | ⟨1, _⟩ => rfl
  | ⟨2, _⟩ => rfl

section Join
variable (ho : FVec Ideal S16384x128 .f32) (so : FVec Ideal S16384x2016 .f32) (fo : FVec Ideal S16384x32 .f32)

/-- The joined row at one of its first 128 positions reads the first piece there. -/
theorem cinA_lo (r : Fin 16384) (k : Fin 2176) (h : k.val < 128) :
    Stages.cinA (F := Ideal) ho so fo (ix2 r k) = ho (ix2 r (⟨k.val, h⟩ : Fin 128)) := by
  unfold Stages.cinA
  refine concatenate_apply_piece (1 : Fin 2) [⟨S16384x128, ho⟩, ⟨S16384x2016, so⟩, ⟨S16384x32, fo⟩] _ (ix2 r k) 0
    (by show (0 : ℕ) < 3; omega) S16384x128 ho rfl rfl 0 rfl
    (ix2 r (⟨k.val, h⟩ : Fin 128)) (fun b hb => ?_) ?_
  · match b, hb with
    | ⟨0, _⟩, _ => rfl
    | ⟨1, _⟩, hb => exact absurd rfl hb
  · show 0 + k.val = k.val
    omega

/-- The joined row at a position from 128 up to 2143 reads the second piece, 128 places earlier. -/
theorem cinA_mid (r : Fin 16384) (k : Fin 2176) (h1 : 128 ≤ k.val) (h2 : k.val < 2144) :
    Stages.cinA (F := Ideal) ho so fo (ix2 r k) = so (ix2 r (⟨k.val - 128, by omega⟩ : Fin 2016)) := by
  unfold Stages.cinA
  refine concatenate_apply_piece (1 : Fin 2) [⟨S16384x128, ho⟩, ⟨S16384x2016, so⟩, ⟨S16384x32, fo⟩] _ (ix2 r k) 1
    (by show (1 : ℕ) < 3; omega) S16384x2016 so rfl rfl 128 rfl
    (ix2 r (⟨k.val - 128, by omega⟩ : Fin 2016)) (fun b hb => ?_) ?_
  · match b, hb with
    | ⟨0, _⟩, _ => rfl
    | ⟨1, _⟩, hb => exact absurd rfl hb
  · show 128 + (k.val - 128) = k.val
    omega

/-- The joined row at a position from 2144 on reads the third piece, 2144 places earlier. -/
theorem cinA_hi (r : Fin 16384) (k : Fin 2176) (h2 : 2144 ≤ k.val) :
    Stages.cinA (F := Ideal) ho so fo (ix2 r k)
      = fo (ix2 r (⟨k.val - 2144, by have := k.isLt; omega⟩ : Fin 32)) := by
  unfold Stages.cinA
  refine concatenate_apply_piece (1 : Fin 2) [⟨S16384x128, ho⟩, ⟨S16384x2016, so⟩, ⟨S16384x32, fo⟩] _ (ix2 r k) 2
    (by show (2 : ℕ) < 3; omega) S16384x32 fo rfl rfl 2144 rfl
    (ix2 r (⟨k.val - 2144, by have := k.isLt; omega⟩ : Fin 32)) (fun b hb => ?_) ?_
  · match b, hb with
    | ⟨0, _⟩, _ => rfl
    | ⟨1, _⟩, hb => exact absurd rfl hb
  · show 2144 + (k.val - 2144) = k.val
    omega

/-- Row r of the joined array is the specification's 2176-entry row of row r of the three pieces, when the second
    piece holds at (r, p) the entry of a matrix g at the p-th listed pair. -/
theorem cinA_row (r : Fin 16384) (iu ju : Fin 2016 → Fin 64) (g : Fin 64 → Fin 64 → EReal)
    (hso : ∀ p : Fin 2016, so (ix2 r p) = g (iu p) (ju p)) (k : Fin 2176) :
    Stages.cinA (F := Ideal) ho so fo (ix2 r k)
      = Cert.DeepFM.cin iu ju (fun c => ho (ix2 r c)) g (fun d => fo (ix2 r d)) k := by
  unfold Cert.DeepFM.cin
  by_cases h1 : k.val < 128
  · rw [dif_pos h1]
    exact cinA_lo ho so fo r k h1
  · rw [dif_neg h1]
    by_cases h2 : k.val < 2144
    · rw [dif_pos h2]
      exact (cinA_mid ho so fo r k (by omega) h2).trans (hso _)
    · rw [dif_neg h2]
      exact cinA_hi ho so fo r k (by omega)

end Join

/-- Entry (r, 0) of the head: the specification's second layer on the rectified first layer of row r of the joined
    array. Each layer is the general product plus its bias row, read one row at a time. -/
theorem headA_apply (cin : FVec Ideal S16384x2176 .f32) (Wc1 : FVec Ideal S2176x256 .f32) (bc1 : FVec Ideal S256 .f32)
    (Wc2 : FVec Ideal S256x1 .f32) (bc2 : FVec Ideal S1 .f32) (r : Fin 16384) :
    Stages.headA (F := Ideal) cin Wc1 bc1 Wc2 bc2 (ix2 r (0 : Fin 1))
      = Cert.DeepFM.head2 Wc2 bc2 (Cert.Dense.affine Wc1 bc1 (fun k => cin (ix2 r k))) := by
  unfold Stages.headA Cert.DeepFM.head2
  refine (Cert.Dense.host_affine_apply dot_S16384x256_S256x1_S16384x1_1_0_0_1_n_n rfl rfl rfl rfl rfl rfl
    bcast_S1_S1x1_1 bcast_S1x1_S16384x1_0_1 _ Wc2 bc2 r (0 : Fin 1)).trans ?_
  refine congrArg (fun v => Cert.Dense.affine Wc2 bc2 v (0 : Fin 1)) (funext fun c => ?_)
  refine (Cert.Dense.host_relu_apply bcast_S_S16384x256 _ (ix2 r c)).trans ?_
  refine congrArg (fun t => max t 0) ?_
  exact Cert.Dense.host_affine_apply dot_S16384x2176_S2176x256_S16384x256_1_0_0_1_n_n rfl rfl rfl rfl rfl rfl
    bcast_S256_S1x256_1 bcast_S1x256_S16384x256_0_1 cin Wc1 bc1 r c

/-- Row r of the reference's result: the specification's reference value of row r of the input, with the pair tables
    the literal list's rows and columns. -/
theorem refOut_apply (x : FVec Ideal S16384x64x32 .f32) (W1 : FVec Ideal S2048x256 .f32) (b1 : FVec Ideal S256 .f32)
    (W2 : FVec Ideal S256x256 .f32) (b2 : FVec Ideal S256 .f32) (W3 : FVec Ideal S256x128 .f32) (b3 : FVec Ideal S128 .f32)
    (Wc1 : FVec Ideal S2176x256 .f32) (bc1 : FVec Ideal S256 .f32) (Wc2 : FVec Ideal S256x1 .f32) (bc2 : FVec Ideal S1 .f32)
    (r : Fin 16384) :
    Stages.refOut (F := Ideal) x W1 b1 W2 b2 W3 b3 Wc1 bc1 Wc2 bc2 (ix2 r (0 : Fin 1))
      = Cert.DeepFM.outR W1 b1 W2 b2 W3 b3 bc1 Wc2 bc2 Wc1 Cert.Triu.iu Cert.Triu.ju (fun f d => x (ix3 r f d)) := by
  unfold Stages.refOut Cert.DeepFM.outR
  -- the head acts on row r of the joined array
  refine (headA_apply _ Wc1 bc1 Wc2 bc2 r).trans ?_
  refine congrArg (fun v => Cert.DeepFM.head2 Wc2 bc2 (Cert.Dense.affine Wc1 bc1 v)) (funext fun k => ?_)
  -- that row is the specification's row of the three pieces' rows; the middle piece holds the Gram entries at the pairs
  refine (cinA_row _ _ _ r Cert.Triu.iu Cert.Triu.ju (Cert.DeepFM.gram fun f d => x (ix3 r f d))
    (fun p => (soiA_apply x r p).trans (gramA_apply x r _ _)) k).trans ?_
  -- the first piece's row is the perceptron's output, the third the field sum
  have e1 : (fun c => Stages.hoiA (F := Ideal) (Stages.h2A (Stages.h1A x W1 b1) W2 b2) W3 b3 (ix2 r c))
      = Cert.DeepFM.hoi W1 b1 W2 b2 W3 b3 (fun f d => x (ix3 r f d)) :=
    funext fun c => RefTower.hoiA_apply x W1 b1 W2 b2 W3 b3 r c
  have e3 : (fun d => Stages.foA (F := Ideal) x (ix2 r d)) = Cert.DeepFM.fo (fun f d => x (ix3 r f d)) :=
    funext fun d => foA_apply x r d
  exact congrArg₂ (fun h f => Cert.DeepFM.cin Cert.Triu.iu Cert.Triu.ju h
    (Cert.DeepFM.gram fun f d => x (ix3 r f d)) f k) e1 e3

end Cert.ReferenceIdeal.RefValue

end
-- ==== Proof.lean ====
/-
  The certificate of the fused deep-factorization-machine kernel against its jnp reference, over the extended reals.

  Both programs map a batch row  x  (64 fields × 32 coordinates) to one number: a three-layer perceptron on the flattened
  row, the field sum and the Gram matrix of the fields feed a two-layer head. The reference gathers the 2016 Gram
  entries above the diagonal — listing the pairs by a running count over the upper-triangle mask — and multiplies the
  joined row of 2176 numbers by the head's first-layer weights; the kernel multiplies the whole flattened Gram matrix
  by a 4096-row matrix that holds the pair rows of those weights at the pairs' flat positions (a literal list) and
  zero elsewhere, and adds the partial products. The two lists agree (the literal list is the increasing enumeration of
  the upper-triangle positions, which is what the running count computes), a zero weight contributes nothing, and
  addition of extended reals is commutative and associative: so the results agree at every row, for every input.

  The kernel's and the idealized kernel's frames are the generated ones; the reference's frame is its run with the
  result dropped; the idealization rewrote nothing, so it is preserved trivially.
-/
import proofs.«121141_j14594298872614_1_alg».proof.Defs
import proofs.«121141_j14594298872614_1_alg».proof.Proof.Gen.Kernel
import proofs.«121141_j14594298872614_1_alg».proof.Proof.Gen.Kernel.Frame
import proofs.«121141_j14594298872614_1_alg».proof.Proof.Gen.KernelIdeal
import proofs.«121141_j14594298872614_1_alg».proof.Proof.Gen.KernelIdeal.Frame
import proofs.«121141_j14594298872614_1_alg».proof.Proof.Gen.ReferenceIdeal
import proofs.«121141_j14594298872614_1_alg».proof.Proof.Gen.Pre_finite_inputs
import proofs.«121141_j14594298872614_1_alg».proof.Proof.KernelValue
import proofs.«121141_j14594298872614_1_alg».proof.Proof.KernelHost
import proofs.«121141_j14594298872614_1_alg».proof.Proof.RefRun
import proofs.«121141_j14594298872614_1_alg».proof.Proof.RefValue
import proofs.«121141_j14594298872614_1_alg».proof.Proof.Spec
import proofs.«121141_j14594298872614_1_alg».proof.Proof.TriuTable
import Idealize.ShloMosaic.Adequacy
import Idealize.ShloMosaic.Init

noncomputable section

namespace Cert.Proof

open Idealize.ShloMosaic Idealize.ShloMosaic.TcCoe Idealize.SL.Sem Idealize.ShloMosaic.ValueIdx

/-- The literal list of flat pair positions, as positions of the 4096-row matrix. -/
def Kf (p : Fin 2016) : Fin 4096 := ⟨Cert.Triu.K p, Cert.Triu.K_lt p⟩

theorem Kf_injective : Function.Injective Kf := fun p q h => Cert.Triu.K_injective (Fin.mk.inj_iff.mp h)

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

/-- Row i of the kernel's result is row i of the reference's result, for memories that agree on the arguments. -/
theorem row_agree (m : (ℓ : Loc Cert.KernelIdeal.nD Cert.KernelIdeal.τ Cert.KernelIdeal.sig) → Buf (Elt Ideal) ℓ)
    (c : Dev Cert.KernelIdeal.nD) (r : Fin 16384) :
    Cert.ReferenceIdeal.Stages.refOut (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (ix2 r (0 : Fin 1))
      = Cert.KernelIdeal.KValue.G m c (ix2 r (0 : Fin 1)) := by
  rw [Cert.ReferenceIdeal.RefValue.refOut_apply]
  unfold Cert.KernelIdeal.KValue.G
  rw [Cert.KernelIdeal.Gen.V_main_arg0 m c, Cert.KernelIdeal.Gen.V_main_arg1 m c, Cert.KernelIdeal.Gen.V_main_arg2 m c,
    Cert.KernelIdeal.Gen.V_main_arg3 m c, Cert.KernelIdeal.Gen.V_main_arg4 m c, Cert.KernelIdeal.Gen.V_main_arg5 m c,
    Cert.KernelIdeal.Gen.V_main_arg6 m c, Cert.KernelIdeal.Gen.V_main_arg8 m c, Cert.KernelIdeal.Gen.V_main_arg9 m c,
    Cert.KernelIdeal.Gen.V_main_arg10 m c]
  exact (Cert.DeepFM.outK_eq_outR _ _ _ _ _ _ _ _ _ _ _ _ _ Kf Kf_injective Cert.Triu.iu Cert.Triu.ju
    (fun p => rfl) (fun p => rfl)
    (fun k j => Cert.KernelIdeal.HostVal.Wh_apply m c k j)
    (fun d j => Cert.KernelIdeal.HostVal.Wf_apply m c d j)
    (fun p j => Cert.KernelIdeal.HostVal.Wg_hit m c p j)
    (fun q j h => Cert.KernelIdeal.HostVal.Wg_miss m c q j (fun p hp => h p (Fin.ext hp)))
    _).symm

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KValue.G m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10⟩ := hagree c
  rw [a0, a1, a2, a3, a4, a5, a6, a7, a8, a9, a10]
  funext i
  have hi1 : (i 1).val < 1 := (i 1).isLt
  have hi : i = ix2 (⟨(i 0).val, (i 0).isLt⟩ : Fin 16384) (0 : Fin 1) := by
    funext a; apply Fin.ext
    match a with
    | ⟨0, _⟩ => rfl
    | ⟨1, _⟩ => show (i 1).val = 0; omega
  rw [hi]
  exact row_agree m c _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
